-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v76_0)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76_0) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S512x4096 : Shape := ⟨2, ![512, 4096]⟩
abbrev S512x1 : Shape := ⟨2, ![512, 1]⟩
abbrev S83886 : Shape := ⟨1, ![83886]⟩
abbrev S4096 : Shape := ⟨1, ![4096]⟩
abbrev S167772 : Shape := ⟨1, ![167772]⟩
abbrev S64x2048 : Shape := ⟨2, ![64, 2048]⟩
abbrev S64 : Shape := ⟨1, ![64]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S512x1 : S_.BroadcastsInDim S512x1 (![] : Fin 0 → Fin S512x1.rank)
  reducesTo_S512x1_S_d0_1 : S512x1.ReducesTo [0, 1] S_
  bcast_S_S83886 : S_.BroadcastsInDim S83886 (![] : Fin 0 → Fin S83886.rank)
  reducesTo_S83886_S_d0 : S83886.ReducesTo [0] S_
  bcast_S_S4096 : S_.BroadcastsInDim S4096 (![] : Fin 0 → Fin S4096.rank)
  reducesTo_S4096_S_d0 : S4096.ReducesTo [0] S_
  bcast_S_S167772 : S_.BroadcastsInDim S167772 (![] : Fin 0 → Fin S167772.rank)
  reducesTo_S167772_S_d0 : S167772.ReducesTo [0] S_
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_arg16 : IVec S167772 32) (main_v82 : IVec S_ 1) (main_c_34 : IVec S_ 32) : IVec S_ 1 :=
  let main_v83 : IVec S167772 32 := broadcastInDim S167772 ![] bcast_S_S167772 main_c_34
  let main_v84 : IVec S167772 1 := cmpi .slt main_arg16 main_v83
  let main_c_35 : IVec S_ 1 := constantI S_ 1 1#1
  let main_v85 : IVec S_ 1 := (fun x v => Host.reduce IntOp.andi x v reducesTo_S167772_S_d0 h_S_) main_v84 main_c_35
  let main_v86 : IVec S_ 1 := andi main_v82 main_v85
  main_v86

def fn_part4 {F : FTy → Type} [FloatOps F] (main_arg12 : IVec S83886 32) (main_arg14 : IVec S167772 32) (main_arg16 : IVec S167772 32) (main_v66 : IVec S_ 1) (main_c_26 : IVec S_ 32) : IVec S_ 1 :=
  let main_v67 : IVec S83886 32 := broadcastInDim S83886 ![] bcast_S_S83886 main_c_26
  let main_v68 : IVec S83886 1 := cmpi .slt main_arg12 main_v67
  let main_c_27 : IVec S_ 1 := constantI S_ 1 1#1
  let main_v69 : IVec S_ 1 := (fun x v => Host.reduce IntOp.andi x v reducesTo_S83886_S_d0 h_S_) main_v68 main_c_27
  let main_v70 : IVec S_ 1 := andi main_v66 main_v69
  let main_c_28 : IVec S_ 32 := constantI S_ 32 0#32
  let main_v71 : IVec S167772 32 := broadcastInDim S167772 ![] bcast_S_S167772 main_c_28
  let main_v72 : IVec S167772 1 := cmpi .sge main_arg14 main_v71
  let main_c_29 : IVec S_ 1 := constantI S_ 1 1#1
  let main_v73 : IVec S_ 1 := (fun x v => Host.reduce IntOp.andi x v reducesTo_S167772_S_d0 h_S_) main_v72 main_c_29
  let main_v74 : IVec S_ 1 := andi main_v70 main_v73
  let main_c_30 : IVec S_ 32 := constantI S_ 32 4096#32
  let main_v75 : IVec S167772 32 := broadcastInDim S167772 ![] bcast_S_S167772 main_c_30
  let main_v76 : IVec S167772 1 := cmpi .slt main_arg14 main_v75
  let main_c_31 : IVec S_ 1 := constantI S_ 1 1#1
  let main_v77 : IVec S_ 1 := (fun x v => Host.reduce IntOp.andi x v reducesTo_S167772_S_d0 h_S_) main_v76 main_c_31
  let main_v78 : IVec S_ 1 := andi main_v74 main_v77
  let main_c_32 : IVec S_ 32 := constantI S_ 32 0#32
  let main_v79 : IVec S167772 32 := broadcastInDim S167772 ![] bcast_S_S167772 main_c_32
  let main_v80 : IVec S167772 1 := cmpi .sge main_arg16 main_v79
  let main_c_33 : IVec S_ 1 := constantI S_ 1 1#1
  let main_v81 : IVec S_ 1 := (fun x v => Host.reduce IntOp.andi x v reducesTo_S167772_S_d0 h_S_) main_v80 main_c_33
  let main_v82 : IVec S_ 1 := andi main_v78 main_v81
  let main_c_34 : IVec S_ 32 := constantI S_ 32 4096#32
  fn_part5 (F := F) main_arg16 main_v82 main_c_34

def fn_part3 {F : FTy → Type} [FloatOps F] (main_arg11 : FVec F S4096 .f32) (main_arg12 : IVec S83886 32) (main_arg14 : IVec S167772 32) (main_arg16 : IVec S167772 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_cst_22 : FVec F S_ .f32 := constant S_ .f32 0x00000000#32
  let main_v59 : FVec F S4096 .f32 := broadcastInDim S4096 ![] bcast_S_S4096 main_cst_22
  let main_v60 : IVec S4096 1 := cmpf .une main_arg11 main_v59
  let main_c_23 : IVec S_ 1 := constantI S_ 1 1#1
  let main_v61 : IVec S_ 1 := (fun x v => Host.reduce IntOp.andi x v reducesTo_S4096_S_d0 h_S_) main_v60 main_c_23
  let main_v62 : IVec S_ 1 := andi main_v58 main_v61
  let main_c_24 : IVec S_ 32 := constantI S_ 32 0#32
  let main_v63 : IVec S83886 32 := broadcastInDim S83886 ![] bcast_S_S83886 main_c_24
  let main_v64 : IVec S83886 1 := cmpi .sge main_arg12 main_v63
  let main_c_25 : IVec S_ 1 := constantI S_ 1 1#1
  let main_v65 : IVec S_ 1 := (fun x v => Host.reduce IntOp.andi x v reducesTo_S83886_S_d0 h_S_) main_v64 main_c_25
  let main_v66 : IVec S_ 1 := andi main_v62 main_v65
  let main_c_26 : IVec S_ 32 := constantI S_ 32 2048#32
  fn_part4 (F := F) main_arg12 main_arg14 main_arg16 main_v66 main_c_26

def fn_part2 {F : FTy → Type} [FloatOps F] (main_arg7 : FVec F S167772 .f32) (main_arg8 : FVec F S4096 .f32) (main_arg9 : FVec F S64x2048 .f32) (main_arg10 : FVec F S64 .f32) (main_arg11 : FVec F S4096 .f32) (main_arg12 : IVec S83886 32) (main_arg14 : IVec S167772 32) (main_arg16 : IVec S167772 32) (main_v33 : IVec S_ 1) : IVec S_ 1 :=
  let main_v34 : FVec F S167772 .f32 := Host.absf main_arg7
  let main_cst_12 : FVec F S_ .f32 := constant S_ .f32 0x7F800000#32
  let main_v35 : FVec F S167772 .f32 := broadcastInDim S167772 ![] bcast_S_S167772 main_cst_12
  let main_v36 : IVec S167772 1 := cmpf .olt main_v34 main_v35
  let main_c_13 : IVec S_ 1 := constantI S_ 1 1#1
  let main_v37 : IVec S_ 1 := (fun x v => Host.reduce IntOp.andi x v reducesTo_S167772_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S64x2048 .f32 := Host.absf main_arg9
  let main_cst_16 : FVec F S_ .f32 := constant S_ .f32 0x7F800000#32
  let main_v45 : FVec F S64x2048 .f32 := broadcastInDim S64x2048 ![] bcast_S_S64x2048 main_cst_16
  let main_v46 : IVec S64x2048 1 := cmpf .olt main_v44 main_v45
  let main_c_17 : IVec S_ 1 := constantI S_ 1 1#1
  let main_v47 : IVec S_ 1 := (fun x v => Host.reduce IntOp.andi x v reducesTo_S64x2048_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg14 main_arg16 main_v48 main_v49 main_v50

def fn_part1 {F : FTy → Type} [FloatOps F] (main_arg4 : FVec F S4096 .f32) (main_arg5 : FVec F S167772 .f32) (main_arg6 : FVec F S4096 .f32) (main_arg7 : FVec F S167772 .f32) (main_arg8 : FVec F S4096 .f32) (main_arg9 : FVec F S64x2048 .f32) (main_arg10 : FVec F S64 .f32) (main_arg11 : FVec F S4096 .f32) (main_arg12 : IVec S83886 32) (main_arg14 : IVec S167772 32) (main_arg16 : IVec S167772 32) (main_v13 : IVec S_ 1) (main_v16 : IVec S83886 1) : IVec S_ 1 :=
  let main_c_5 : IVec S_ 1 := constantI S_ 1 1#1
  let main_v17 : IVec S_ 1 := (fun x v => Host.reduce IntOp.andi x v reducesTo_S83886_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S167772 .f32 := Host.absf main_arg5
  let main_cst_8 : FVec F S_ .f32 := constant S_ .f32 0x7F800000#32
  let main_v25 : FVec F S167772 .f32 := broadcastInDim S167772 ![] bcast_S_S167772 main_cst_8
  let main_v26 : IVec S167772 1 := cmpf .olt main_v24 main_v25
  let main_c_9 : IVec S_ 1 := constantI S_ 1 1#1
  let main_v27 : IVec S_ 1 := (fun x v => Host.reduce IntOp.andi x v reducesTo_S167772_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_arg14 main_arg16 main_v33

def fn {F : FTy → Type} [FloatOps F] (main_arg0 : FVec F S512x2048 .f32) (main_arg1 : FVec F S512x4096 .f32) (main_arg2 : FVec F S512x1 .f32) (main_arg3 : FVec F S83886 .f32) (main_arg4 : FVec F S4096 .f32) (main_arg5 : FVec F S167772 .f32) (main_arg6 : FVec F S4096 .f32) (main_arg7 : FVec F S167772 .f32) (main_arg8 : FVec F S4096 .f32) (main_arg9 : FVec F S64x2048 .f32) (main_arg10 : FVec F S64 .f32) (main_arg11 : FVec F S4096 .f32) (main_arg12 : IVec S83886 32) (main_arg13 : IVec S83886 32) (main_arg14 : IVec S167772 32) (main_arg15 : IVec S167772 32) (main_arg16 : IVec S167772 32) (main_arg17 : IVec S167772 32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S512x1 .f32 := Host.absf main_arg2
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  let main_v14 : FVec F S83886 .f32 := Host.absf main_arg3
  let main_cst_4 : FVec F S_ .f32 := constant S_ .f32 0x7F800000#32
  let main_v15 : FVec F S83886 .f32 := broadcastInDim S83886 ![] bcast_S_S83886 main_cst_4
  let main_v16 : IVec S83886 1 := cmpf .olt main_v14 main_v15
  fn_part1 (F := F) main_arg4 main_arg5 main_arg6 main_arg7 main_arg8 main_arg9 main_arg10 main_arg11 main_arg12 main_arg14 main_arg16 main_v13 main_v16
-- ==== Kernel.lean ====
abbrev S512x2048 : Shape := ⟨2, ![512, 2048]⟩
abbrev S512x4096 : Shape := ⟨2, ![512, 4096]⟩
abbrev S512x1 : Shape := ⟨2, ![512, 1]⟩
abbrev S83886 : Shape := ⟨1, ![83886]⟩
abbrev S4096 : Shape := ⟨1, ![4096]⟩
abbrev S167772 : Shape := ⟨1, ![167772]⟩
abbrev S64x2048 : Shape := ⟨2, ![64, 2048]⟩
abbrev S64 : Shape := ⟨1, ![64]⟩
abbrev S_ : Shape := ⟨0, ![]⟩
abbrev S2048x4096 : Shape := ⟨2, ![2048, 4096]⟩
abbrev S83886x1 : Shape := ⟨2, ![83886, 1]⟩
abbrev S83886x2 : Shape := ⟨2, ![83886, 2]⟩
abbrev S4096x4096 : Shape := ⟨2, ![4096, 4096]⟩
abbrev S167772x1 : Shape := ⟨2, ![167772, 1]⟩
abbrev S167772x2 : Shape := ⟨2, ![167772, 2]⟩
abbrev S2048x64 : Shape := ⟨2, ![2048, 64]⟩
abbrev S512x64 : Shape := ⟨2, ![512, 64]⟩
abbrev S1x64 : Shape := ⟨2, ![1, 64]⟩
abbrev S64x1 : Shape := ⟨2, ![64, 1]⟩
abbrev S1x4096 : Shape := ⟨2, ![1, 4096]⟩
abbrev S64x4096 : Shape := ⟨2, ![64, 4096]⟩
abbrev S512x512 : Shape := ⟨2, ![512, 512]⟩
abbrev S2048x512 : Shape := ⟨2, ![2048, 512]⟩
abbrev S4096x512 : Shape := ⟨2, ![4096, 512]⟩
abbrev S64x512 : Shape := ⟨2, ![64, 512]⟩
abbrev S1x512 : Shape := ⟨2, ![1, 512]⟩
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 132
  | .vmem => 29
  | .smem => 0
  | _ => 0

abbrev hbmTy0_0 (i : Nat) : BufTy := match i % 128 with
  | 0 => ⟨S512x2048, .f32⟩
  | 1 => ⟨S512x4096, .f32⟩
  | 2 => ⟨S512x1, .f32⟩
  | 3 => ⟨S83886, .f32⟩
  | 4 => ⟨S4096, .f32⟩
  | 5 => ⟨S167772, .f32⟩
  | 6 => ⟨S4096, .f32⟩
  | 7 => ⟨S167772, .f32⟩
  | 8 => ⟨S4096, .f32⟩
  | 9 => ⟨S64x2048, .f32⟩
  | 10 => ⟨S64, .f32⟩
  | 11 => ⟨S4096, .f32⟩
  | 12 => ⟨S83886, .i32⟩
  | 13 => ⟨S83886, .i32⟩
  | 14 => ⟨S167772, .i32⟩
  | 15 => ⟨S167772, .i32⟩
  | 16 => ⟨S167772, .i32⟩
  | 17 => ⟨S167772, .i32⟩
  | 18 => ⟨S_, .f32⟩
  | 19 => ⟨S2048x4096, .f32⟩
  | 20 => ⟨S_, .i32⟩
  | 21 => ⟨S83886, .i32⟩
  | 22 => ⟨S83886, .i1⟩
  | 23 => ⟨S_, .i32⟩
  | 24 => ⟨S83886, .i32⟩
  | 25 => ⟨S83886, .i32⟩
  | 26 => ⟨S83886, .i32⟩
  | 27 => ⟨S_, .i32⟩
  | 28 => ⟨S83886, .i32⟩
  | 29 => ⟨S83886, .i1⟩
  | 30 => ⟨S_, .i32⟩
  | 31 => ⟨S83886, .i32⟩
  | 32 => ⟨S83886, .i32⟩
  | 33 => ⟨S83886, .i32⟩
  | 34 => ⟨S83886x1, .i32⟩
  | 35 => ⟨S83886x1, .i32⟩
  | 36 => ⟨S83886x2, .i32⟩
  | 37 => ⟨S2048x4096, .f32⟩
  | 38 => ⟨S_, .f32⟩
  | 39 => ⟨S4096x4096, .f32⟩
  | 40 => ⟨S_, .i32⟩
  | 41 => ⟨S167772, .i32⟩
  | 42 => ⟨S167772, .i1⟩
  | 43 => ⟨S_, .i32⟩
  | 44 => ⟨S167772, .i32⟩
  | 45 => ⟨S167772, .i32⟩
  | 46 => ⟨S167772, .i32⟩
  | 47 => ⟨S_, .i32⟩
  | 48 => ⟨S167772, .i32⟩
  | 49 => ⟨S167772, .i1⟩
  | 50 => ⟨S_, .i32⟩
  | 51 => ⟨S167772, .i32⟩
  | 52 => ⟨S167772, .i32⟩
  | 53 => ⟨S167772, .i32⟩
  | 54 => ⟨S167772x1, .i32⟩
  | 55 => ⟨S167772x1, .i32⟩
  | 56 => ⟨S167772x2, .i32⟩
  | 57 => ⟨S4096x4096, .f32⟩
  | 58 => ⟨S_, .f32⟩
  | 59 => ⟨S4096x4096, .f32⟩
  | 60 => ⟨S_, .i32⟩
  | 61 => ⟨S167772, .i32⟩
  | 62 => ⟨S167772, .i1⟩
  | 63 => ⟨S_, .i32⟩
  | 64 => ⟨S167772, .i32⟩
  | 65 => ⟨S167772, .i32⟩
  | 66 => ⟨S167772, .i32⟩
  | 67 => ⟨S_, .i32⟩
  | 68 => ⟨S167772, .i32⟩
  | 69 => ⟨S167772, .i1⟩
  | 70 => ⟨S_, .i32⟩
  | 71 => ⟨S167772, .i32⟩
  | 72 => ⟨S167772, .i32⟩
  | 73 => ⟨S167772, .i32⟩
  | 74 => ⟨S167772x1, .i32⟩
  | 75 => ⟨S167772x1, .i32⟩
  | 76 => ⟨S167772x2, .i32⟩
  | 77 => ⟨S4096x4096, .f32⟩
  | 78 => ⟨S2048x4096, .bf16⟩
  | 79 => ⟨S4096x4096, .bf16⟩
  | 80 => ⟨S4096x4096, .bf16⟩
  | 81 => ⟨S512x2048, .bf16⟩
  | 82 => ⟨S512x4096, .bf16⟩
  | 83 => ⟨S2048x64, .f32⟩
  | 84 => ⟨S512x64, .f32⟩
  | 85 => ⟨S1x64, .f32⟩
  | 86 => ⟨S512x64, .f32⟩
  | 87 => ⟨S512x64, .f32⟩
  | 88 => ⟨S512x64, .f32⟩
  | 89 => ⟨S512x64, .f32⟩
  | 90 => ⟨S_, .f32⟩
  | 91 => ⟨S512x64, .f32⟩
  | 92 => ⟨S512x64, .f32⟩
  | 93 => ⟨S_, .f32⟩
  | 94 => ⟨S512x64, .f32⟩
  | 95 => ⟨S512x64, .f32⟩
  | 96 => ⟨S64, .i32⟩
  | 97 => ⟨S64x1, .i32⟩
  | 98 => ⟨S4096, .i32⟩
  | 99 => ⟨S_, .i32⟩
  | 100 => ⟨S_, .i32⟩
  | 101 => ⟨S4096, .i32⟩
  | 102 => ⟨S4096, .i32⟩
  | 103 => ⟨S4096, .i32⟩
  | 104 => ⟨S_, .i32⟩
  | 105 => ⟨S4096, .i32⟩
  | 106 => ⟨S4096, .i1⟩
  | 107 => ⟨S4096, .i32⟩
  | 108 => ⟨S4096, .i32⟩
  | 109 => ⟨S_, .i32⟩
  | 110 => ⟨S4096, .i32⟩
  | 111 => ⟨S4096, .i1⟩
  | 112 => ⟨S4096, .i1⟩
  | 113 => ⟨S_, .i32⟩
  | 114 => ⟨S4096, .i32⟩
  | 115 => ⟨S4096, .i32⟩
  | 116 => ⟨S4096, .i32⟩
  | 117 => ⟨S1x4096, .i32⟩
  | 118 => ⟨S64x4096, .i32⟩
  | 119 => ⟨S64x4096, .i32⟩
  | 120 => ⟨S64x4096, .i1⟩
  | 121 => ⟨S64x4096, .bf16⟩
  | 122 => ⟨S1x4096, .f32⟩
  | 123 => ⟨S1x4096, .f32⟩
  | 124 => ⟨S1x4096, .f32⟩
  | 125 => ⟨S_, .f32⟩
  | 126 => ⟨S4096, .f32⟩
  | 127 => ⟨S4096, .f32⟩
  | _ => ⟨S512x2048, .f32⟩

abbrev hbmTy0_1 (i : Nat) : BufTy := match i % 128 with
  | 0 => ⟨S1x4096, .f32⟩
  | 1 => ⟨S512x4096, .f32⟩
  | 2 => ⟨S512x4096, .bf16⟩
  | 3 => ⟨S512x4096, .f32⟩
  | _ => ⟨S512x2048, .f32⟩

abbrev hbmTy (i : Nat) : BufTy := match i / 128 with
  | 0 => hbmTy0_0 i
  | 1 => hbmTy0_1 i
  | _ => ⟨S512x2048, .f32⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x512, .f32⟩
  | .local _ .vmem, ⟨2, _⟩ => ⟨S512x512, .f32⟩
  | .local _ .vmem, ⟨3, _⟩ => ⟨S512x4096, .bf16⟩
  | .local _ .vmem, ⟨4, _⟩ => ⟨S2048x512, .bf16⟩
  | .local _ .vmem, ⟨5, _⟩ => ⟨S2048x512, .bf16⟩
  | .local _ .vmem, ⟨6, _⟩ => ⟨S4096x512, .bf16⟩
  | .local _ .vmem, ⟨7, _⟩ => ⟨S4096x512, .bf16⟩
  | .local _ .vmem, ⟨8, _⟩ => ⟨S512x64, .f32⟩
  | .local _ .vmem, ⟨9, _⟩ => ⟨S64x512, .bf16⟩
  | .local _ .vmem, ⟨10, _⟩ => ⟨S64x512, .bf16⟩
  | .local _ .vmem, ⟨11, _⟩ => ⟨S512x1, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S512x4096, .bf16⟩
  | .local _ .vmem, ⟨23, _⟩ => ⟨S4096x1024, .bf16⟩
  | .local _ .vmem, ⟨24, _⟩ => ⟨S4096x1024, .bf16⟩
  | .local _ .vmem, ⟨25, _⟩ => ⟨S1x1024, .f32⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_c_1 : Ref sig .tc := ⟨.hbm, 27, rfl⟩
abbrev main_v6 : Ref sig .tc := ⟨.hbm, 28, rfl⟩
abbrev main_v7 : Ref sig .tc := ⟨.hbm, 29, rfl⟩
abbrev main_c_2 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_3 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_c_5 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_6 : Ref sig .tc := ⟨.hbm, 47, rfl⟩
abbrev main_v21 : Ref sig .tc := ⟨.hbm, 48, rfl⟩
abbrev main_v22 : Ref sig .tc := ⟨.hbm, 49, rfl⟩
abbrev main_c_7 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_8 : Ref sig .tc := ⟨.hbm, 58, rfl⟩
abbrev main_v30 : Ref sig .tc := ⟨.hbm, 59, rfl⟩
abbrev main_c_9 : Ref sig .tc := ⟨.hbm, 60, rfl⟩
abbrev main_v31 : Ref sig .tc := ⟨.hbm, 61, rfl⟩
abbrev main_v32 : Ref sig .tc := ⟨.hbm, 62, rfl⟩
abbrev main_c_10 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_11 : Ref sig .tc := ⟨.hbm, 67, rfl⟩
abbrev main_v36 : Ref sig .tc := ⟨.hbm, 68, rfl⟩
abbrev main_v37 : Ref sig .tc := ⟨.hbm, 69, rfl⟩
abbrev main_c_12 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_15 : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_v5 : Ref sig .tc := ⟨.hbm, 105, rfl⟩
abbrev main_call0_v6 : Ref sig .tc := ⟨.hbm, 106, rfl⟩
abbrev main_call0_v7 : Ref sig .tc := ⟨.hbm, 107, rfl⟩
abbrev main_call0_v8 : Ref sig .tc := ⟨.hbm, 108, rfl⟩
abbrev main_call0_c : Ref sig .tc := ⟨.hbm, 109, rfl⟩
abbrev main_call0_v9 : Ref sig .tc := ⟨.hbm, 110, rfl⟩
abbrev main_call0_v10 : Ref sig .tc := ⟨.hbm, 111, rfl⟩
abbrev main_call0_v11 : Ref sig .tc := ⟨.hbm, 112, rfl⟩
abbrev main_call0_c_0 : Ref sig .tc := ⟨.hbm, 113, rfl⟩
abbrev main_call0_v12 : Ref sig .tc := ⟨.hbm, 114, rfl⟩
abbrev main_call0_v13 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_cst_16 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76_0 : Ref sig .tc := ⟨.hbm, 129, rfl⟩
abbrev main_v76_1 : Ref sig .tc := ⟨.hbm, 130, rfl⟩
abbrev main_v77 : Ref sig .tc := ⟨.hbm, 131, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc1_stg0_0 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc1_sem0_0 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S2048x4096 : S_.BroadcastsInDim S2048x4096 (![] : Fin 0 → Fin S2048x4096.rank)
  bcast_S_S83886 : S_.BroadcastsInDim S83886 (![] : Fin 0 → Fin S83886.rank)
  bcast_S83886_S83886x1_0 : S83886.BroadcastsInDim S83886x1 (![0] : Fin 1 → Fin S83886x1.rank)
  concatenates_S83886x1_S83886x1_S83886x2_d1 : Shape.Concatenates [S83886x1, S83886x1] S83886x2 1
  bcast_S_S4096x4096 : S_.BroadcastsInDim S4096x4096 (![] : Fin 0 → Fin S4096x4096.rank)
  bcast_S_S167772 : S_.BroadcastsInDim S167772 (![] : Fin 0 → Fin S167772.rank)
  bcast_S167772_S167772x1_0 : S167772.BroadcastsInDim S167772x1 (![0] : Fin 1 → Fin S167772x1.rank)
  concatenates_S167772x1_S167772x1_S167772x2_d1 : Shape.Concatenates [S167772x1, S167772x1] S167772x2 1
  bitsLt_bf16_f32 : FTy.bits .bf16 < FTy.bits .f32
  transposes_S64x2048_S2048x64_1_0 : S64x2048.Transposes [1, 0] S2048x64
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S64_S64x1_0 : S64.BroadcastsInDim S64x1 (![0] : Fin 1 → Fin S64x1.rank)
  bcast_S_S4096 : S_.BroadcastsInDim S4096 (![] : Fin 0 → Fin S4096.rank)
  bcast_S4096_S1x4096_1 : S4096.BroadcastsInDim S1x4096 (![1] : Fin 1 → Fin S1x4096.rank)
  bcast_S64x1_S64x4096_0_1 : S64x1.BroadcastsInDim S64x4096 (![0, 1] : Fin 2 → Fin S64x4096.rank)
  bcast_S1x4096_S64x4096_0_1 : S1x4096.BroadcastsInDim S64x4096 (![0, 1] : Fin 2 → Fin S64x4096.rank)
  shapeCasts_S4096_S1x4096 : S4096.ShapeCasts S1x4096
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  broadcasts_S512x1_S512x512 : S512x1.Broadcasts S512x512
  packedbf16_S512x512_S512x512_0_0 : (Rect.unit (s := S512x512) ![0, 0] S512x512.size inb_S512x512_S512x512_0_0).PackedRows (EltTy.packing .bf16)
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  scatter_S2048x4096_S83886x2_S83886_n_01_01_1_wf : ScatterDims.WF S2048x4096 S83886x2 S83886 [] [0, 1] [0, 1] 1
  scatter_S4096x4096_S167772x2_S167772_n_01_01_1_wf : ScatterDims.WF S4096x4096 S167772x2 S167772 [] [0, 1] [0, 1] 1
  dot_S512x2048_S2048x64_S512x64_1_0_0_1_n_n_wf : DotDims.WF S512x2048 S2048x64 S512x64 [1] [0] [0] [1] [] []
  dot_S512x2048_S2048x512_S512x512_1_0_0_1_n_n_wf : DotDims.WF S512x2048 S2048x512 S512x512 [1] [0] [0] [1] [] []
  dot_S512x64_S64x512_S512x512_1_0_0_1_n_n_wf : DotDims.WF S512x64 S64x512 S512x512 [1] [0] [0] [1] [] []
  dot_S512x4096_S4096x512_S512x512_1_0_0_1_n_n_wf : DotDims.WF S512x4096 S4096x512 S512x512 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .bf16 = 32 ∨ (Rect.block (s := S512x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x4096.size a
  hwx0_1 : ∀ i : grid0.Coords, EltTy.bits .f32 = 32 ∨ (Rect.block (s := S512x4096) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S512x4096.size a
  hwx0_2 : ∀ i : grid0.Coords, EltTy.bits .bf16 = 32 ∨ (Rect.block (s := S512x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x4096.size a
  hwx0_3 : ∀ i : grid0.Coords, EltTy.bits .bf16 = 32 ∨ (Rect.block (s := S2048x4096) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S4096x4096.size a
  hwx0_4 : ∀ i : grid0.Coords, EltTy.bits .bf16 = 32 ∨ (Rect.block (s := S4096x4096) S4096x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S512x64.size a
  hwx0_5 : ∀ i : grid0.Coords, EltTy.bits .f32 = 32 ∨ (Rect.block (s := S512x64) S512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x512.size a ≤ S64x4096.size a
  hwx0_6 : ∀ i : grid0.Coords, EltTy.bits .bf16 = 32 ∨ (Rect.block (s := S64x4096) S64x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S512x1.size a
  hwx0_7 : ∀ i : grid0.Coords, EltTy.bits .f32 = 32 ∨ (Rect.block (s := S512x1) S512x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x4096.size a
  hwx0_8 : ∀ i : grid0.Coords, EltTy.bits .f32 = 32 ∨ (Rect.block (s := S1x4096) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x4096.size a
  hwx0_9 : ∀ i : grid0.Coords, EltTy.bits .f32 = 32 ∨ (Rect.block (s := S1x4096) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x4096.size a
  hwx0_10 : ∀ i : grid0.Coords, EltTy.bits .f32 = 32 ∨ (Rect.block (s := S1x4096) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x4096.size a
  hwx0_11 : ∀ i : grid0.Coords, EltTy.bits .f32 = 32 ∨ (Rect.block (s := S512x4096) S512x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x4096.size a
  hwx0_12 : ∀ i : grid0.Coords, EltTy.bits .bf16 = 32 ∨ (Rect.block (s := S512x4096) S512x512.size (cc0_transform_12 i) (hinb0_12 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S512x4096.size a
  hwx1_0 : ∀ i : grid1.Coords, EltTy.bits .bf16 = 32 ∨ (Rect.block (s := S512x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x4096.size a
  hwx1_1 : ∀ i : grid1.Coords, EltTy.bits .bf16 = 32 ∨ (Rect.block (s := S4096x4096) S4096x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S512x4096.size a
  hwx1_3 : ∀ i : grid1.Coords, EltTy.bits .f32 = 32 ∨ (Rect.block (s := S512x4096) S512x1024.size (cc1_transform_3 i) (hinb1_3 i)).WholeWords (EltTy.packing .f32)

variable [Facts₀]

def scatter_S2048x4096_S83886x2_S83886_n_01_01_1 : ScatterDims S2048x4096 S83886x2 S83886 where
  updateWindowDims := []
  insertedWindowDims := [0, 1]
  scatterDimsToOperandDims := [0, 1]
  indexVectorDim := 1
  wf := scatter_S2048x4096_S83886x2_S83886_n_01_01_1_wf
def scatter_S4096x4096_S167772x2_S167772_n_01_01_1 : ScatterDims S4096x4096 S167772x2 S167772 where
  updateWindowDims := []
  insertedWindowDims := [0, 1]
  scatterDimsToOperandDims := [0, 1]
  indexVectorDim := 1
  wf := scatter_S4096x4096_S167772x2_S167772_n_01_01_1_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v48) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S512x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v46) S4096x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v60) S512x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v69) S64x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S512x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v75) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v70) S1x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v71) S1x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v76_0) S512x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v76_1) S512x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v76_1) S512x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v47) S4096x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v72) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v77) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x2048 : Shape := ⟨2, ![512, 2048]⟩
abbrev S512x4096 : Shape := ⟨2, ![512, 4096]⟩
abbrev S512x1 : Shape := ⟨2, ![512, 1]⟩
abbrev S83886 : Shape := ⟨1, ![83886]⟩
abbrev S4096 : Shape := ⟨1, ![4096]⟩
abbrev S167772 : Shape := ⟨1, ![167772]⟩
abbrev S64x2048 : Shape := ⟨2, ![64, 2048]⟩
abbrev S64 : Shape := ⟨1, ![64]⟩
abbrev S2048x64 : Shape := ⟨2, ![2048, 64]⟩
abbrev S512x64 : Shape := ⟨2, ![512, 64]⟩
abbrev S1x64 : Shape := ⟨2, ![1, 64]⟩
abbrev S_ : Shape := ⟨0, ![]⟩
abbrev S512x64x64 : Shape := ⟨3, ![512, 64, 64]⟩
abbrev S83886x1 : Shape := ⟨2, ![83886, 1]⟩
abbrev S512x83886 : Shape := ⟨2, ![512, 83886]⟩
abbrev S1x83886 : Shape := ⟨2, ![1, 83886]⟩
abbrev S1x4096 : Shape := ⟨2, ![1, 4096]⟩
abbrev S167772x1 : Shape := ⟨2, ![167772, 1]⟩
abbrev S512x167772 : Shape := ⟨2, ![512, 167772]⟩
abbrev S1x167772 : Shape := ⟨2, ![1, 167772]⟩

abbrev nBuf : Space → Nat
  | .hbm => 124
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x4096, .f32⟩
  | .hbm, ⟨2, _⟩ => ⟨S512x1, .f32⟩
  | .hbm, ⟨3, _⟩ => ⟨S83886, .f32⟩
  | .hbm, ⟨4, _⟩ => ⟨S4096, .f32⟩
  | .hbm, ⟨5, _⟩ => ⟨S167772, .f32⟩
  | .hbm, ⟨6, _⟩ => ⟨S4096, .f32⟩
  | .hbm, ⟨7, _⟩ => ⟨S167772, .f32⟩
  | .hbm, ⟨8, _⟩ => ⟨S4096, .f32⟩
  | .hbm, ⟨9, _⟩ => ⟨S64x2048, .f32⟩
  | .hbm, ⟨10, _⟩ => ⟨S64, .f32⟩
  | .hbm, ⟨11, _⟩ => ⟨S4096, .f32⟩
  | .hbm, ⟨12, _⟩ => ⟨S83886, .i32⟩
  | .hbm, ⟨13, _⟩ => ⟨S83886, .i32⟩
  | .hbm, ⟨14, _⟩ => ⟨S167772, .i32⟩
  | .hbm, ⟨15, _⟩ => ⟨S167772, .i32⟩
  | .hbm, ⟨16, _⟩ => ⟨S167772, .i32⟩
  | .hbm, ⟨17, _⟩ => ⟨S167772, .i32⟩
  | .hbm, ⟨18, _⟩ => ⟨S2048x64, .f32⟩
  | .hbm, ⟨19, _⟩ => ⟨S512x64, .f32⟩
  | .hbm, ⟨20, _⟩ => ⟨S1x64, .f32⟩
  | .hbm, ⟨21, _⟩ => ⟨S512x64, .f32⟩
  | .hbm, ⟨22, _⟩ => ⟨S512x64, .f32⟩
  | .hbm, ⟨23, _⟩ => ⟨S512x64, .f32⟩
  | .hbm, ⟨24, _⟩ => ⟨S512x64, .f32⟩
  | .hbm, ⟨25, _⟩ => ⟨S_, .f32⟩
  | .hbm, ⟨26, _⟩ => ⟨S512x64, .f32⟩
  | .hbm, ⟨27, _⟩ => ⟨S512x64, .f32⟩
  | .hbm, ⟨28, _⟩ => ⟨S_, .f32⟩
  | .hbm, ⟨29, _⟩ => ⟨S512x64, .f32⟩
  | .hbm, ⟨30, _⟩ => ⟨S512x64, .f32⟩
  | .hbm, ⟨31, _⟩ => ⟨S512x64x64, .f32⟩
  | .hbm, ⟨32, _⟩ => ⟨S512x4096, .f32⟩
  | .hbm, ⟨33, _⟩ => ⟨S_, .i32⟩
  | .hbm, ⟨34, _⟩ => ⟨S83886, .i32⟩
  | .hbm, ⟨35, _⟩ => ⟨S83886, .i1⟩
  | .hbm, ⟨36, _⟩ => ⟨S_, .i32⟩
  | .hbm, ⟨37, _⟩ => ⟨S83886, .i32⟩
  | .hbm, ⟨38, _⟩ => ⟨S83886, .i32⟩
  | .hbm, ⟨39, _⟩ => ⟨S83886, .i32⟩
  | .hbm, ⟨40, _⟩ => ⟨S83886x1, .i32⟩
  | .hbm, ⟨41, _⟩ => ⟨S512x83886, .f32⟩
  | .hbm, ⟨42, _⟩ => ⟨S1x83886, .f32⟩
  | .hbm, ⟨43, _⟩ => ⟨S512x83886, .f32⟩
  | .hbm, ⟨44, _⟩ => ⟨S512x83886, .f32⟩
  | .hbm, ⟨45, _⟩ => ⟨S_, .f32⟩
  | .hbm, ⟨46, _⟩ => ⟨S512x4096, .f32⟩
  | .hbm, ⟨47, _⟩ => ⟨S_, .i32⟩
  | .hbm, ⟨48, _⟩ => ⟨S83886, .i32⟩
  | .hbm, ⟨49, _⟩ => ⟨S83886, .i1⟩
  | .hbm, ⟨50, _⟩ => ⟨S_, .i32⟩
  | .hbm, ⟨51, _⟩ => ⟨S83886, .i32⟩
  | .hbm, ⟨52, _⟩ => ⟨S83886, .i32⟩
  | .hbm, ⟨53, _⟩ => ⟨S83886, .i32⟩
  | .hbm, ⟨54, _⟩ => ⟨S83886x1, .i32⟩
  | .hbm, ⟨55, _⟩ => ⟨S512x4096, .f32⟩
  | .hbm, ⟨56, _⟩ => ⟨S1x4096, .f32⟩
  | .hbm, ⟨57, _⟩ => ⟨S512x4096, .f32⟩
  | .hbm, ⟨58, _⟩ => ⟨S512x4096, .f32⟩
  | .hbm, ⟨59, _⟩ => ⟨S512x4096, .f32⟩
  | .hbm, ⟨60, _⟩ => ⟨S_, .i32⟩
  | .hbm, ⟨61, _⟩ => ⟨S167772, .i32⟩
  | .hbm, ⟨62, _⟩ => ⟨S167772, .i1⟩
  | .hbm, ⟨63, _⟩ => ⟨S_, .i32⟩
  | .hbm, ⟨64, _⟩ => ⟨S167772, .i32⟩
  | .hbm, ⟨65, _⟩ => ⟨S167772, .i32⟩
  | .hbm, ⟨66, _⟩ => ⟨S167772, .i32⟩
  | .hbm, ⟨67, _⟩ => ⟨S167772x1, .i32⟩
  | .hbm, ⟨68, _⟩ => ⟨S512x167772, .f32⟩
  | .hbm, ⟨69, _⟩ => ⟨S1x167772, .f32⟩
  | .hbm, ⟨70, _⟩ => ⟨S512x167772, .f32⟩
  | .hbm, ⟨71, _⟩ => ⟨S512x167772, .f32⟩
  | .hbm, ⟨72, _⟩ => ⟨S_, .f32⟩
  | .hbm, ⟨73, _⟩ => ⟨S512x4096, .f32⟩
  | .hbm, ⟨74, _⟩ => ⟨S_, .i32⟩
  | .hbm, ⟨75, _⟩ => ⟨S167772, .i32⟩
  | .hbm, ⟨76, _⟩ => ⟨S167772, .i1⟩
  | .hbm, ⟨77, _⟩ => ⟨S_, .i32⟩
  | .hbm, ⟨78, _⟩ => ⟨S167772, .i32⟩
  | .hbm, ⟨79, _⟩ => ⟨S167772, .i32⟩
  | .hbm, ⟨80, _⟩ => ⟨S167772, .i32⟩
  | .hbm, ⟨81, _⟩ => ⟨S167772x1, .i32⟩
  | .hbm, ⟨82, _⟩ => ⟨S512x4096, .f32⟩
  | .hbm, ⟨83, _⟩ => ⟨S1x4096, .f32⟩
  | .hbm, ⟨84, _⟩ => ⟨S512x4096, .f32⟩
  | .hbm, ⟨85, _⟩ => ⟨S512x4096, .f32⟩
  | .hbm, ⟨86, _⟩ => ⟨S512x4096, .f32⟩
  | .hbm, ⟨87, _⟩ => ⟨S512x4096, .f32⟩
  | .hbm, ⟨88, _⟩ => ⟨S512x4096, .f32⟩
  | .hbm, ⟨89, _⟩ => ⟨S512x4096, .f32⟩
  | .hbm, ⟨90, _⟩ => ⟨S512x4096, .f32⟩
  | .hbm, ⟨91, _⟩ => ⟨S_, .f32⟩
  | .hbm, ⟨92, _⟩ => ⟨S4096, .f32⟩
  | .hbm, ⟨93, _⟩ => ⟨S4096, .f32⟩
  | .hbm, ⟨94, _⟩ => ⟨S1x4096, .f32⟩
  | .hbm, ⟨95, _⟩ => ⟨S512x4096, .f32⟩
  | .hbm, ⟨96, _⟩ => ⟨S512x4096, .f32⟩
  | .hbm, ⟨97, _⟩ => ⟨S512x4096, .f32⟩
  | .hbm, ⟨98, _⟩ => ⟨S_, .i32⟩
  | .hbm, ⟨99, _⟩ => ⟨S167772, .i32⟩
  | .hbm, ⟨100, _⟩ => ⟨S167772, .i1⟩
  | .hbm, ⟨101, _⟩ => ⟨S_, .i32⟩
  | .hbm, ⟨102, _⟩ => ⟨S167772, .i32⟩
  | .hbm, ⟨103, _⟩ => ⟨S167772, .i32⟩
  | .hbm, ⟨104, _⟩ => ⟨S167772, .i32⟩
  | .hbm, ⟨105, _⟩ => ⟨S167772x1, .i32⟩
  | .hbm, ⟨106, _⟩ => ⟨S512x167772, .f32⟩
  | .hbm, ⟨107, _⟩ => ⟨S1x167772, .f32⟩
  | .hbm, ⟨108, _⟩ => ⟨S512x167772, .f32⟩
  | .hbm, ⟨109, _⟩ => ⟨S512x167772, .f32⟩
  | .hbm, ⟨110, _⟩ => ⟨S_, .f32⟩
  | .hbm, ⟨111, _⟩ => ⟨S512x4096, .f32⟩
  | .hbm, ⟨112, _⟩ => ⟨S_, .i32⟩
  | .hbm, ⟨113, _⟩ => ⟨S167772, .i32⟩
  | .hbm, ⟨114, _⟩ => ⟨S167772, .i1⟩
  | .hbm, ⟨115, _⟩ => ⟨S_, .i32⟩
  | .hbm, ⟨116, _⟩ => ⟨S167772, .i32⟩
  | .hbm, ⟨117, _⟩ => ⟨S167772, .i32⟩
  | .hbm, ⟨118, _⟩ => ⟨S167772, .i32⟩
  | .hbm, ⟨119, _⟩ => ⟨S167772x1, .i32⟩
  | .hbm, ⟨120, _⟩ => ⟨S512x4096, .f32⟩
  | .hbm, ⟨121, _⟩ => ⟨S1x4096, .f32⟩
  | .hbm, ⟨122, _⟩ => ⟨S512x4096, .f32⟩
  | .hbm, ⟨123, _⟩ => ⟨S512x4096, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_c_3 : Ref sig .tc := ⟨.hbm, 47, rfl⟩
abbrev main_v24 : Ref sig .tc := ⟨.hbm, 48, rfl⟩
abbrev main_v25 : Ref sig .tc := ⟨.hbm, 49, rfl⟩
abbrev main_c_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_5 : Ref sig .tc := ⟨.hbm, 60, rfl⟩
abbrev main_v35 : Ref sig .tc := ⟨.hbm, 61, rfl⟩
abbrev main_v36 : Ref sig .tc := ⟨.hbm, 62, rfl⟩
abbrev main_c_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_c_8 : Ref sig .tc := ⟨.hbm, 74, rfl⟩
abbrev main_v46 : Ref sig .tc := ⟨.hbm, 75, rfl⟩
abbrev main_v47 : Ref sig .tc := ⟨.hbm, 76, rfl⟩
abbrev main_c_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_11 : Ref sig .tc := ⟨.hbm, 98, rfl⟩
abbrev main_v67 : Ref sig .tc := ⟨.hbm, 99, rfl⟩
abbrev main_v68 : Ref sig .tc := ⟨.hbm, 100, rfl⟩
abbrev main_c_12 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_13 : Ref sig .tc := ⟨.hbm, 110, rfl⟩
abbrev main_v77 : Ref sig .tc := ⟨.hbm, 111, rfl⟩
abbrev main_c_14 : Ref sig .tc := ⟨.hbm, 112, rfl⟩
abbrev main_v78 : Ref sig .tc := ⟨.hbm, 113, rfl⟩
abbrev main_v79 : Ref sig .tc := ⟨.hbm, 114, rfl⟩
abbrev main_c_15 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S512x64_S512x64x64_0_1 : S512x64.BroadcastsInDim S512x64x64 (![0, 1] : Fin 2 → Fin S512x64x64.rank)
  shapeCasts_S512x64x64_S512x4096 : S512x64x64.ShapeCasts S512x4096
  bcast_S_S83886 : S_.BroadcastsInDim S83886 (![] : Fin 0 → Fin S83886.rank)
  bcast_S83886_S83886x1_0 : S83886.BroadcastsInDim S83886x1 (![0] : Fin 1 → Fin S83886x1.rank)
  bcast_S83886_S1x83886_1 : S83886.BroadcastsInDim S1x83886 (![1] : Fin 1 → Fin S1x83886.rank)
  bcast_S1x83886_S512x83886_0_1 : S1x83886.BroadcastsInDim S512x83886 (![0, 1] : Fin 2 → Fin S512x83886.rank)
  bcast_S_S512x4096 : S_.BroadcastsInDim S512x4096 (![] : Fin 0 → Fin S512x4096.rank)
  bcast_S4096_S1x4096_1 : S4096.BroadcastsInDim S1x4096 (![1] : Fin 1 → Fin S1x4096.rank)
  bcast_S1x4096_S512x4096_0_1 : S1x4096.BroadcastsInDim S512x4096 (![0, 1] : Fin 2 → Fin S512x4096.rank)
  bcast_S_S167772 : S_.BroadcastsInDim S167772 (![] : Fin 0 → Fin S167772.rank)
  bcast_S167772_S167772x1_0 : S167772.BroadcastsInDim S167772x1 (![0] : Fin 1 → Fin S167772x1.rank)
  bcast_S167772_S1x167772_1 : S167772.BroadcastsInDim S1x167772 (![1] : Fin 1 → Fin S1x167772.rank)
  bcast_S1x167772_S512x167772_0_1 : S1x167772.BroadcastsInDim S512x167772 (![0, 1] : Fin 2 → Fin S512x167772.rank)
  bcast_S512x1_S512x4096_0_1 : S512x1.BroadcastsInDim S512x4096 (![0, 1] : Fin 2 → Fin S512x4096.rank)
  bcast_S_S4096 : S_.BroadcastsInDim S4096 (![] : Fin 0 → Fin S4096.rank)
  dot_S512x2048_S2048x64_S512x64_1_0_0_1_n_n_wf : DotDims.WF S512x2048 S2048x64 S512x64 [1] [0] [0] [1] [] []
  gather_S512x2048_S83886x1_S512x83886_0_1_n_n_1_1_5121_wf : GatherDims.WF S512x2048 S83886x1 S512x83886 [0] [1] [] [1] [] 1 ![512, 1]
  scatter_S512x4096_S83886x1_S512x83886_0_1_1_1_wf : ScatterDims.WF S512x4096 S83886x1 S512x83886 [0] [1] [1] 1
  gather_S512x4096_S167772x1_S512x167772_0_1_n_n_1_1_5121_wf : GatherDims.WF S512x4096 S167772x1 S512x167772 [0] [1] [] [1] [] 1 ![512, 1]
  scatter_S512x4096_S167772x1_S512x167772_0_1_1_1_wf : ScatterDims.WF S512x4096 S167772x1 S512x167772 [0] [1] [1] 1

variable [Facts₀]

def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def gather_S512x2048_S83886x1_S512x83886_0_1_n_n_1_1_5121 : GatherDims S512x2048 S83886x1 S512x83886 where
  offsetDims := [0]
  collapsedSliceDims := [1]
  operandBatchingDims := []
  startIndicesBatchingDims := []
  startIndexMap := [1]
  indexVectorDim := 1
  sliceSizes := ![512, 1]
  wf := gather_S512x2048_S83886x1_S512x83886_0_1_n_n_1_1_5121_wf
def scatter_S512x4096_S83886x1_S512x83886_0_1_1_1 : ScatterDims S512x4096 S83886x1 S512x83886 where
  updateWindowDims := [0]
  insertedWindowDims := [1]
  scatterDimsToOperandDims := [1]
  indexVectorDim := 1
  wf := scatter_S512x4096_S83886x1_S512x83886_0_1_1_1_wf
def gather_S512x4096_S167772x1_S512x167772_0_1_n_n_1_1_5121 : GatherDims S512x4096 S167772x1 S512x167772 where
  offsetDims := [0]
  collapsedSliceDims := [1]
  operandBatchingDims := []
  startIndicesBatchingDims := []
  startIndexMap := [1]
  indexVectorDim := 1
  sliceSizes := ![512, 1]
  wf := gather_S512x4096_S167772x1_S512x167772_0_1_n_n_1_1_5121_wf
def scatter_S512x4096_S167772x1_S512x167772_0_1_1_1 : ScatterDims S512x4096 S167772x1 S512x167772 where
  updateWindowDims := [0]
  insertedWindowDims := [1]
  scatterDimsToOperandDims := [1]
  indexVectorDim := 1
  wf := scatter_S512x4096_S167772x1_S512x167772_0_1_1_1_wf

class Facts : Prop extends Facts₀ where

variable [Facts]
-- ==== Proof.KernelValue.lean ====
/-
  The idealized kernel program's two results, read off its run.

  The last boundary's contents at the first result buffer are what region 0 leaves in its first output array
  (region 1 does not touch that buffer); at the second result buffer they are what region 1 leaves in its output
  array. Region 1 reads region 0's second output array; its other two arrays are as the host operations left them.
-/
import proofs.«402372_j14413910245943_3_alg».proof.Proof.KernelRun
import Idealize.ShloMosaic.PureOps.Ideal

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The first result buffer ends at what region 0 wrote to its first output array. -/
theorem res0_eq : W5 m ρ c (Proc.devRef .tc main_v76_0) = (dat0 (V3 m ρ) c).arrAt 11 cfg0.N := by
  rw [W5_of_ne m ρ c main_v76_0 (by decide)]
  exact W4_arr m ρ c 11

/-- The second result buffer ends at what region 1 wrote to its output array. -/
theorem res1_eq : W5 m ρ c (Proc.devRef .tc main_v77) = (dat1 (V4 m ρ) c).arrAt 3 cfg1.N :=
  W5_arr m ρ c 3

/-- Region 1 finds, in its first input array, what region 0 wrote to its second output array. -/
theorem V4_hnew : V4 m ρ c main_v76_1 = (dat0 (V3 m ρ) c).arrAt 12 cfg0.N :=
  W4_arr m ρ c 12

/-- Region 0 does not touch the coalesced third matrix. -/
theorem V4_v47 : V4 m ρ c main_v47 = V3 m ρ c main_v47 :=
  W4_of_ne m ρ c main_v47 (by decide)

/-- Region 0 does not touch the third bias row. -/
theorem V4_v72 : V4 m ρ c main_v72 = V3 m ρ c main_v72 :=
  W4_of_ne m ρ c main_v72 (by decide)

end Cert.KernelIdeal.KValue

end
-- ==== Proof.Spec.lean ====
/-
  The mathematics both programs share, stated once over plain indices.

  A sparse linear map is given by an edge list: edge `e` carries a row index, a column index and a value.
  Indices are signed 32-bit words: a negative word counts from the end of the axis
  (`norm`), and after that a column outside the axis drops its edge (a scatter drops what leaves the operand),
  while a row outside the axis is clamped into it (a gather clamps its start index).

  * `sparseE`: the edge form — entry (b, c) is the sum over the edges whose column is c of
    X b (row e) · v e, the row clamped.
  * `denseM` / `sparseD`: the dense form — the edges are first coalesced into a K × C matrix (edges with
    equal row and column summed; an edge with either index outside its axis dropped), then X is multiplied
    with that matrix.
  * `cell`: one entry of the recurrent update, from the entry's ingredients.
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev A2 (a b : Nat) : Type := (⟨2, ![a, b]⟩ : Shape).Idx → EReal
/-- A rank-1 array of extended reals. -/
abbrev A1 (a : Nat) : Type := (⟨1, ![a]⟩ : Shape).Idx → EReal
/-- A rank-1 array of 32-bit index words. -/
abbrev I1 (a : Nat) : Type := (⟨1, ![a]⟩ : Shape).Idx → BitVec 32

/-- An index word read on an axis of extent `N`: a negative word counts from the end. -/
def norm (N : Nat) (w : BitVec 32) : BitVec 32 := if w.slt 0#32 then w + BitVec.ofNat 32 N else w

/-- Edge `e`'s index on an axis of extent `N`, as a signed integer (it may lie outside `[0, N)`). -/
def edgeZ {n : Nat} (N : Nat) (idx : I1 n) (e : Fin n) : ℤ := (norm N (idx (ix1 e))).toInt

/-- Edge `e`'s index clamped into `[0, N)`. -/
def edgeClamp {n : Nat} (N : Nat) (hN : 0 < N) (idx : I1 n) (e : Fin n) : Fin N :=
  ⟨min (edgeZ N idx e).toNat (N - 1), by omega⟩

/-- The edge form of `X · M`: over the edges in column `c`, the row clamped. -/
def sparseE {B K n : Nat} (C : Nat) (hK : 0 < K) (X : Fin B → Fin K → EReal) (ridx cidx : I1 n) (v : A1 n)
    (b : Fin B) (c : Fin C) : EReal :=
  ∑ e ∈ Finset.univ.filter (fun e : Fin n => edgeZ C cidx e = (c.val : ℤ)), X b (edgeClamp K hK ridx e) * v (ix1 e)

/-- The coalesced matrix: entry (k, c) sums the values of the edges at row k and column c. -/
def denseM {n : Nat} (K C : Nat) (ridx cidx : I1 n) (v : A1 n) (k : Fin K) (c : Fin C) : EReal :=
  ∑ e ∈ Finset.univ.filter (fun e : Fin n => edgeZ K ridx e = (k.val : ℤ) ∧ edgeZ C cidx e = (c.val : ℤ)), v (ix1 e)

/-- The dense form of `X · M`. -/
def sparseD {B K n : Nat} (C : Nat) (X : Fin B → Fin K → EReal) (ridx cidx : I1 n) (v : A1 n)
    (b : Fin B) (c : Fin C) : EReal :=
  ∑ k : Fin K, X b k * denseM K C ridx cidx v k c

/-- One entry of the update `h + g · (tanh((sw + wb) · mask + (sr + rb)) − h) · dt`. -/
def cell (hp g sw wb mask sr rb dt : EReal) : EReal :=
  hp + (g * (Ideal.tanh ((sw + wb) * mask + (sr + rb)) - hp)) * dt

end Cert.Spec

end
-- ==== Proof.Region0.lean ====
/-
  Region 0: the new state `h_new` as one function of the region's eleven input arrays.

  The region runs over eight points; point `n` computes columns `512 n … 512 n + 511` of the new state (and of its
  half-precision copy) from the whole input, previous state and gates, and from column block `n` of the two coalesced
  weight matrices, of the group indicator, of the step sizes and of the two biases.

  * `mmW_apply`, `mmG_apply`, `mmR_apply`: each of the body's three block products into a zero accumulator, read at an
    entry, is the sum over the contracted axis of the operands' products.
  * `pay1_apply` / `pay2_apply`: entry (p, q) of the block the body stores is `Cert.Spec.cell` of the entry's ingredients
    (a row broadcast reads its row, a column broadcast its column; narrowing the format is the identity on ideal values).
  * `hk`: entry (b, j) of the new state as a function of the eleven arrays; `pay1_eq_hk`: the stored block's entry is
    `hk` of the arrays whenever the point's blocks are the arrays' entries in row p and column j.
  * `blkW_apply`: each window's block at point `t`, read at an entry, is the array's entry — the same entry for a
    window that is one block, the entry `512 t` columns further for a window cut into column blocks.
  * `flushedW_eq`, `coverW`, `final0_W` (W = 11, 12): what point `t` writes back is block `t` of `hnew`; the eight
    blocks cover the array (column `j` lies in block `j / 512`); so the array ends holding `hnew`.
-/
import proofs.«402372_j14413910245943_3_alg».proof.Proof.Gen.KernelIdeal.Frame
import proofs.«402372_j14413910245943_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The three block products at an entry -/

/-- The input-weights product contracts the left operand's axis 1 with the right operand's axis 0: the operand indices, axis by axis. -/
theorem lhsW_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhsW_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhsW_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhsW_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- Entry (p, q) of the input-weights block product: row p of `x` against column q of `w`. -/
theorem mmW_apply (x : FVec Ideal S512x2048 .bf16) (w : FVec Ideal S2048x512 .bf16) (p q : Fin 512) :
    matmul dot_S512x2048_S2048x512_S512x512_1_0_0_1_n_n none x w (constant (F := Ideal) S512x512 .f32 0x00000000#32) (ix2 p q)
      = ∑ k : Fin 2048, x (ix2 p k) * w (ix2 k q) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p q) ((contrEquiv1 dot_S512x2048_S2048x512_S512x512_1_0_0_1_n_n 2048 rfl rfl).symm k) = ix2 p k := funext fun a => Fin.ext (by
    match a with
    | ⟨0, _⟩ => exact lhsW_0 _ _
    | ⟨1, _⟩ => exact (lhsW_1 _ _).trans hk)
  have er : dot_S512x2048_S2048x512_S512x512_1_0_0_1_n_n.rhsIdx (ix2 p q) ((contrEquiv1 dot_S512x2048_S2048x512_S512x512_1_0_0_1_n_n 2048 rfl rfl).symm k) = ix2 k q := funext fun a => Fin.ext (by
    match a with
    | ⟨0, _⟩ => exact (rhsW_0 _ _).trans hk
    | ⟨1, _⟩ => exact rhsW_1 _ _)
  rw [el, er]

/-- The group-mask product (gate rows against the group indicator block): the operand indices, axis by axis. -/
theorem lhsG_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem lhsG_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
theorem rhsG_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
theorem rhsG_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- Entry (p, q) of the group-mask block product: row p of `g` against column q of the indicator block `e`. -/
theorem mmG_apply (g : FVec Ideal S512x64 .bf16) (e : FVec Ideal S64x512 .bf16) (p q : Fin 512) :
    matmul dot_S512x64_S64x512_S512x512_1_0_0_1_n_n none g e (constant (F := Ideal) S512x512 .f32 0x00000000#32) (ix2 p q)
      = ∑ k : Fin 64, g (ix2 p k) * e (ix2 k q) := by
  simp only [matmul]
  rw [Ideal.matmul_constant_zero_apply, ← Equiv.sum_comp (contrEquiv1 dot_S512x64_S64x512_S512x512_1_0_0_1_n_n 64 rfl rfl).symm]
  refine Finset.sum_congr rfl fun k _ => ?_
  have hk := contrEquiv1_symm_val dot_S512x64_S64x512_S512x512_1_0_0_1_n_n 64 rfl rfl k
  have el : dot_S512x64_S64x512_S512x512_1_0_0_1_n_n.lhsIdx (ix2 p q) ((contrEquiv1 dot_S512x64_S64x512_S512x512_1_0_0_1_n_n 64 rfl rfl).symm k) = ix2 p k := funext fun a => Fin.ext (by
    match a with
    | ⟨0, _⟩ => exact lhsG_0 _ _
    | ⟨1, _⟩ => exact (lhsG_1 _ _).trans hk)
  have er : dot_S512x64_S64x512_S512x512_1_0_0_1_n_n.rhsIdx (ix2 p q) ((contrEquiv1 dot_S512x64_S64x512_S512x512_1_0_0_1_n_n 64 rfl rfl).symm k) = ix2 k q := funext fun a => Fin.ext (by
    match a with
    | ⟨0, _⟩ => exact (rhsG_0 _ _).trans hk
    | ⟨1, _⟩ => exact rhsG_1 _ _)
  rw [el, er]

/-- The recurrent-weights product: the operand indices, axis by axis. -/
theorem lhsR_0 (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl
theorem lhsR_1 (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
theorem rhsR_0 (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
theorem rhsR_1 (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

/-- Entry (p, q) of the recurrent-weights block product: row p of `h` against column q of `r`. -/
theorem mmR_apply (h : FVec Ideal S512x4096 .bf16) (r : FVec Ideal S4096x512 .bf16) (p q : Fin 512) :
    matmul dot_S512x4096_S4096x512_S512x512_1_0_0_1_n_n none h r (constant (F := Ideal) S512x512 .f32 0x00000000#32) (ix2 p q)
      = ∑ k : Fin 4096, h (ix2 p k) * r (ix2 k q) := by
  simp only [matmul]
  rw [Ideal.matmul_constant_zero_apply, ← Equiv.sum_comp (contrEquiv1 dot_S512x4096_S4096x512_S512x512_1_0_0_1_n_n 4096 rfl rfl).symm]
  refine Finset.sum_congr rfl fun k _ => ?_
  have hk := contrEquiv1_symm_val dot_S512x4096_S4096x512_S512x512_1_0_0_1_n_n 4096 rfl rfl k
  have el : dot_S512x4096_S4096x512_S512x512_1_0_0_1_n_n.lhsIdx (ix2 p q) ((contrEquiv1 dot_S512x4096_S4096x512_S512x512_1_0_0_1_n_n 4096 rfl rfl).symm k) = ix2 p k := funext fun a => Fin.ext (by
    match a with
    | ⟨0, _⟩ => exact lhsR_0 _ _
    | ⟨1, _⟩ => exact (lhsR_1 _ _).trans hk)
  have er : dot_S512x4096_S4096x512_S512x512_1_0_0_1_n_n.rhsIdx (ix2 p q) ((contrEquiv1 dot_S512x4096_S4096x512_S512x512_1_0_0_1_n_n 4096 rfl rfl).symm k) = ix2 k q := funext fun a => Fin.ext (by
    match a with
    | ⟨0, _⟩ => exact (rhsR_0 _ _).trans hk
    | ⟨1, _⟩ => exact rhsR_1 _ _)
  rw [el, er]

/-! ## The stored block at an entry -/

/-- A `[512, 1]` column broadcast along the rows reads, at (p, q), the column's entry p. -/
theorem broadcastTo_col_apply (v : Vec Ideal S512x1 .f32) (p q : Fin 512) :
    broadcastTo S512x512 v broadcasts_S512x1_S512x512 (ix2 p q) = v (ix2 p (0 : Fin 1)) := by
  refine broadcastTo_apply v broadcasts_S512x1_S512x512 (ix2 p q) (ix2 p (0 : Fin 1)) fun ax => ?_
  match ax with
  | ⟨0, _⟩ => rfl
  | ⟨1, _⟩ => rfl

/-- A `[1, 512]` row broadcast down the rows reads, at (p, q), the row's entry q. -/
theorem broadcastTo_row_apply (v : Vec Ideal S1x512 .f32) (p q : Fin 512) :
    broadcastTo S512x512 v broadcasts_S1x512_S512x512 (ix2 p q) = v (ix2 (0 : Fin 1) q) :=
  broadcastTo_1b_ab_apply v broadcasts_S1x512_S512x512 p q

theorem tanh_apply {s : Shape} {φ : FTy} (a : FVec Ideal s φ) (i : s.Idx) : tanh a i = Ideal.tanh (a i) := rfl

/-- The gated increment `g · (tanh(…) − h)` of the body at entry (p, q) of the block. -/
theorem pay3_apply (x0 : Vec Ideal S512x2048 .bf16) (x1 : Vec Ideal S512x512 .f32) (x2 : Vec Ideal S512x4096 .bf16)
    (x3 : Vec Ideal S2048x512 .bf16) (x4 : Vec Ideal S4096x512 .bf16) (x5 : Vec Ideal S512x64 .f32) (x6 : Vec Ideal S64x512 .bf16)
    (x7 : Vec Ideal S512x1 .f32) (x9 x10 : Vec Ideal S1x512 .f32) (p q : Fin 512) :
    k0_pay3 x0 x3 x5 x6 x9 x2 x4 x10 x1 x7 (ix2 p q)
      = x7 (ix2 p (0 : Fin 1)) * (Ideal.tanh (((∑ k : Fin 2048, x0 (ix2 p k) * x3 (ix2 k q)) + x9 (ix2 (0 : Fin 1) q))
            * (∑ r : Fin 64, x5 (ix2 p r) * x6 (ix2 r q))
          + ((∑ k : Fin 4096, x2 (ix2 p k) * x4 (ix2 k q)) + x10 (ix2 (0 : Fin 1) q))) - x1 (ix2 p q)) := by
  unfold k0_pay3
  simp only [shapeCast_self, mulf_apply, addf_apply, subf_apply, tanh_apply]
  rw [mmW_apply, mmG_apply, mmR_apply, broadcastTo_col_apply, broadcastTo_row_apply, broadcastTo_row_apply]
  rfl

/-- Entry (p, q) of the block the body stores: the recurrent update's cell from the entry's ingredients. -/
theorem pay1_apply (x0 : Vec Ideal S512x2048 .bf16) (x1 : Vec Ideal S512x512 .f32) (x2 : Vec Ideal S512x4096 .bf16)
    (x3 : Vec Ideal S2048x512 .bf16) (x4 : Vec Ideal S4096x512 .bf16) (x5 : Vec Ideal S512x64 .f32) (x6 : Vec Ideal S64x512 .bf16)
    (x7 : Vec Ideal S512x1 .f32) (x8 x9 x10 : Vec Ideal S1x512 .f32) (p q : Fin 512) :
    k0_pay1 x1 (k0_pay3 x0 x3 x5 x6 x9 x2 x4 x10 x1 x7) (k0_pay4 x8) (ix2 p q)
      = Cert.Spec.cell (x1 (ix2 p q)) (x7 (ix2 p (0 : Fin 1))) (∑ k : Fin 2048, x0 (ix2 p k) * x3 (ix2 k q)) (x9 (ix2 (0 : Fin 1) q))
          (∑ r : Fin 64, x5 (ix2 p r) * x6 (ix2 r q)) (∑ k : Fin 4096, x2 (ix2 p k) * x4 (ix2 k q)) (x10 (ix2 (0 : Fin 1) q))
          (x8 (ix2 (0 : Fin 1) q)) := by
  unfold k0_pay1 k0_pay4 Cert.Spec.cell
  simp only [shapeCast_self, mulf_apply, addf_apply]
  rw [pay3_apply, broadcastTo_row_apply]

/-- The half-precision copy of the block is the same entry: narrowing the format is the identity on ideal values. -/
theorem pay2_apply (x0 : Vec Ideal S512x2048 .bf16) (x1 : Vec Ideal S512x512 .f32) (x2 : Vec Ideal S512x4096 .bf16)
    (x3 : Vec Ideal S2048x512 .bf16) (x4 : Vec Ideal S4096x512 .bf16) (x5 : Vec Ideal S512x64 .f32) (x6 : Vec Ideal S64x512 .bf16)
    (x7 : Vec Ideal S512x1 .f32) (x8 x9 x10 : Vec Ideal S1x512 .f32) (p q : Fin 512) :
    k0_pay2 x1 (k0_pay3 x0 x3 x5 x6 x9 x2 x4 x10 x1 x7) (k0_pay4 x8) (ix2 p q)
      = Cert.Spec.cell (x1 (ix2 p q)) (x7 (ix2 p (0 : Fin 1))) (∑ k : Fin 2048, x0 (ix2 p k) * x3 (ix2 k q)) (x9 (ix2 (0 : Fin 1) q))
          (∑ r : Fin 64, x5 (ix2 p r) * x6 (ix2 r q)) (∑ k : Fin 4096, x2 (ix2 p k) * x4 (ix2 k q)) (x10 (ix2 (0 : Fin 1) q))
          (x8 (ix2 (0 : Fin 1) q)) := by
  unfold k0_pay2
  exact (truncf_apply (ψ := .bf16) (k0_pay1 x1 (k0_pay3 x0 x3 x5 x6 x9 x2 x4 x10 x1 x7) (k0_pay4 x8)) bitsLt_bf16_f32 (ix2 p q)).trans
    (pay1_apply x0 x1 x2 x3 x4 x5 x6 x7 x8 x9 x10 p q)

/-! ## The region's result as one function of its eleven input arrays -/

/-- Entry (b, j) of the new state: the recurrent update's cell from row b of the inputs and column j of the weights. -/
def hk (X : Vec Ideal S512x2048 .bf16) (HP : Vec Ideal S512x4096 .f32) (HPb : Vec Ideal S512x4096 .bf16)
    (Wd : Vec Ideal S2048x4096 .bf16) (Rd : Vec Ideal S4096x4096 .bf16) (RG : Vec Ideal S512x64 .f32) (E : Vec Ideal S64x4096 .bf16)
    (G : Vec Ideal S512x1 .f32) (DT WB RB : Vec Ideal S1x4096 .f32) (b : Fin 512) (j : Fin 4096) : EReal :=
  Cert.Spec.cell (HP (ix2 b j)) (G (ix2 b 0)) (∑ k : Fin 2048, X (ix2 b k) * Wd (ix2 k j)) (WB (ix2 0 j))
    (∑ r : Fin 64, RG (ix2 b r) * E (ix2 r j)) (∑ k : Fin 4096, HPb (ix2 b k) * Rd (ix2 k j)) (RB (ix2 0 j)) (DT (ix2 0 j))

/-- Entry (p, q) of the block a point stores is entry (p, j) of `hk` of the arrays, when the point's blocks are the
    arrays' entries in row p and column j. -/
theorem pay1_eq_hk (X : Vec Ideal S512x2048 .bf16) (HP : Vec Ideal S512x4096 .f32) (HPb : Vec Ideal S512x4096 .bf16)
    (Wd : Vec Ideal S2048x4096 .bf16) (Rd : Vec Ideal S4096x4096 .bf16) (RG : Vec Ideal S512x64 .f32) (E : Vec Ideal S64x4096 .bf16)
    (G : Vec Ideal S512x1 .f32) (DT WB RB : Vec Ideal S1x4096 .f32)
    (x0 : Vec Ideal S512x2048 .bf16) (x1 : Vec Ideal S512x512 .f32) (x2 : Vec Ideal S512x4096 .bf16)
    (x3 : Vec Ideal S2048x512 .bf16) (x4 : Vec Ideal S4096x512 .bf16) (x5 : Vec Ideal S512x64 .f32) (x6 : Vec Ideal S64x512 .bf16)
    (x7 : Vec Ideal S512x1 .f32) (x8 x9 x10 : Vec Ideal S1x512 .f32) (p q : Fin 512) (j : Fin 4096)
    (h0 : ∀ k : Fin 2048, x0 (ix2 p k) = X (ix2 p k)) (h1 : x1 (ix2 p q) = HP (ix2 p j))
    (h2 : ∀ k : Fin 4096, x2 (ix2 p k) = HPb (ix2 p k)) (h3 : ∀ k : Fin 2048, x3 (ix2 k q) = Wd (ix2 k j))
    (h4 : ∀ k : Fin 4096, x4 (ix2 k q) = Rd (ix2 k j)) (h5 : ∀ r : Fin 64, x5 (ix2 p r) = RG (ix2 p r))
    (h6 : ∀ r : Fin 64, x6 (ix2 r q) = E (ix2 r j)) (h7 : x7 (ix2 p (0 : Fin 1)) = G (ix2 p (0 : Fin 1)))
    (h8 : x8 (ix2 (0 : Fin 1) q) = DT (ix2 (0 : Fin 1) j)) (h9 : x9 (ix2 (0 : Fin 1) q) = WB (ix2 (0 : Fin 1) j))
    (h10 : x10 (ix2 (0 : Fin 1) q) = RB (ix2 (0 : Fin 1) j)) :
    k0_pay1 x1 (k0_pay3 x0 x3 x5 x6 x9 x2 x4 x10 x1 x7) (k0_pay4 x8) (ix2 p q) = hk X HP HPb Wd Rd RG E G DT WB RB p j := by
  rw [pay1_apply]
  unfold hk
  rw [h1, h7, h8, h9, h10]
  simp only [h0, h2, h3, h4, h5, h6]

/-- The same for the half-precision copy. -/
theorem pay2_eq_hk (X : Vec Ideal S512x2048 .bf16) (HP : Vec Ideal S512x4096 .f32) (HPb : Vec Ideal S512x4096 .bf16)
    (Wd : Vec Ideal S2048x4096 .bf16) (Rd : Vec Ideal S4096x4096 .bf16) (RG : Vec Ideal S512x64 .f32) (E : Vec Ideal S64x4096 .bf16)
    (G : Vec Ideal S512x1 .f32) (DT WB RB : Vec Ideal S1x4096 .f32)
    (x0 : Vec Ideal S512x2048 .bf16) (x1 : Vec Ideal S512x512 .f32) (x2 : Vec Ideal S512x4096 .bf16)
    (x3 : Vec Ideal S2048x512 .bf16) (x4 : Vec Ideal S4096x512 .bf16) (x5 : Vec Ideal S512x64 .f32) (x6 : Vec Ideal S64x512 .bf16)
    (x7 : Vec Ideal S512x1 .f32) (x8 x9 x10 : Vec Ideal S1x512 .f32) (p q : Fin 512) (j : Fin 4096)
    (h0 : ∀ k : Fin 2048, x0 (ix2 p k) = X (ix2 p k)) (h1 : x1 (ix2 p q) = HP (ix2 p j))
    (h2 : ∀ k : Fin 4096, x2 (ix2 p k) = HPb (ix2 p k)) (h3 : ∀ k : Fin 2048, x3 (ix2 k q) = Wd (ix2 k j))
    (h4 : ∀ k : Fin 4096, x4 (ix2 k q) = Rd (ix2 k j)) (h5 : ∀ r : Fin 64, x5 (ix2 p r) = RG (ix2 p r))
    (h6 : ∀ r : Fin 64, x6 (ix2 r q) = E (ix2 r j)) (h7 : x7 (ix2 p (0 : Fin 1)) = G (ix2 p (0 : Fin 1)))
    (h8 : x8 (ix2 (0 : Fin 1) q) = DT (ix2 (0 : Fin 1) j)) (h9 : x9 (ix2 (0 : Fin 1) q) = WB (ix2 (0 : Fin 1) j))
    (h10 : x10 (ix2 (0 : Fin 1) q) = RB (ix2 (0 : Fin 1) j)) :
    k0_pay2 x1 (k0_pay3 x0 x3 x5 x6 x9 x2 x4 x10 x1 x7) (k0_pay4 x8) (ix2 p q) = hk X HP HPb Wd Rd RG E G DT WB RB p j := by
  unfold k0_pay2
  exact (truncf_apply (ψ := .bf16) (k0_pay1 x1 (k0_pay3 x0 x3 x5 x6 x9 x2 x4 x10 x1 x7) (k0_pay4 x8)) bitsLt_bf16_f32 (ix2 p q)).trans
    (pay1_eq_hk X HP HPb Wd Rd RG E G DT WB RB x0 x1 x2 x3 x4 x5 x6 x7 x8 x9 x10 p q j h0 h1 h2 h3 h4 h5 h6 h7 h8 h9 h10)

/-! ## The blocks of a point -/

theorem hz : (![0, 0] : Fin 2 → Nat) = fun _ => 0 := funext fun a => by fin_cases a <;> rfl

/-- The index maps over the eight points, decided once: a window that is one whole block sits at block (0, 0) at every
    point; a window cut into column blocks sits at block (0, t) at point `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = 0
    ∧ win0_6.index t (0 : Fin 2) = 0 ∧ win0_6.index t (1 : Fin 2) = t.val
    ∧ win0_7.index t (0 : Fin 2) = 0 ∧ win0_7.index t (1 : Fin 2) = 0
    ∧ win0_8.index t (0 : Fin 2) = 0 ∧ win0_8.index t (1 : Fin 2) = t.val
    ∧ win0_9.index t (0 : Fin 2) = 0 ∧ win0_9.index t (1 : Fin 2) = t.val
    ∧ win0_10.index t (0 : Fin 2) = 0 ∧ win0_10.index t (1 : Fin 2) = t.val
    ∧ win0_11.index t (0 : Fin 2) = 0 ∧ win0_11.index t (1 : Fin 2) = t.val
    ∧ win0_12.index t (0 : Fin 2) = 0 ∧ win0_12.index t (1 : Fin 2) = t.val :=
  (by decide +kernel : ∀ t : Fin grid0.N, _)

/-- Window 0 (the input) is one block: every point reads the array itself. -/
theorem blk0_apply (c : Dev nD) (t : Fin cfg0.N) (a : Fin 512) (b : Fin 2048) :
    (iblk0 V c 0 t : Vec Ideal S512x2048 .bf16) (ix2 a b) = (V c main_v48 : Vec Ideal S512x2048 .bf16) (ix2 a b) := by
  obtain ⟨e0, e1, -, -, -, -, -, -, -, -, -, -, -, -, -, -, -, -, -, -, -, -, -, -, -, -⟩ := idx_facts t
  unfold iblk0
  rw [View.read_apply]
  show V c main_v48 _ = V c main_v48 _
  congr 1
  funext ax; apply Fin.ext
  match ax with
  | ⟨0, _⟩ => show win0_0.index t (0 : Fin 2) * 512 + 1 * a.val = a.val; omega
  | ⟨1, _⟩ => show win0_0.index t (1 : Fin 2) * 2048 + 1 * b.val = b.val; omega

/-- Window 1 (the previous state) at point `t` is columns `512 t … 512 t + 511` of the array. -/
theorem blk1_apply (c : Dev nD) (t : Fin cfg0.N) (a : Fin 512) (q : Fin 512) (j : Fin 4096) (hj : j.val = 512 * t.val + q.val) :
    (iblk0 V c 1 t : Vec Ideal S512x512 .f32) (ix2 a q) = (V c main_arg1 : Vec Ideal S512x4096 .f32) (ix2 a j) := by
  obtain ⟨-, -, e0, e1, -, -, -, -, -, -, -, -, -, -, -, -, -, -, -, -, -, -, -, -, -, -⟩ := idx_facts t
  unfold iblk0
  rw [View.read_apply]
  show V c main_arg1 _ = V c main_arg1 _
  congr 1
  funext ax; apply Fin.ext
  match ax with
  | ⟨0, _⟩ => show win0_1.index t (0 : Fin 2) * 512 + 1 * a.val = a.val; omega
  | ⟨1, _⟩ => show win0_1.index t (1 : Fin 2) * 512 + 1 * q.val = j.val; omega

/-- Window 2 (the previous state's half-precision copy) is one block: every point reads the array itself. -/
theorem blk2_apply (c : Dev nD) (t : Fin cfg0.N) (a : Fin 512) (b : Fin 4096) :
    (iblk0 V c 2 t : Vec Ideal S512x4096 .bf16) (ix2 a b) = (V c main_v49 : Vec Ideal S512x4096 .bf16) (ix2 a b) := by
  obtain ⟨-, -, -, -, e0, e1, -, -, -, -, -, -, -, -, -, -, -, -, -, -, -, -, -, -, -, -⟩ := idx_facts t
  unfold iblk0
  rw [View.read_apply]
  show V c main_v49 _ = V c main_v49 _
  congr 1
  funext ax; apply Fin.ext
  match ax with
  | ⟨0, _⟩ => show win0_2.index t (0 : Fin 2) * 512 + 1 * a.val = a.val; omega
  | ⟨1, _⟩ => show win0_2.index t (1 : Fin 2) * 4096 + 1 * b.val = b.val; omega

/-- Window 3 (the coalesced input weights) at point `t` is columns `512 t … 512 t + 511` of the array. -/
theorem blk3_apply (c : Dev nD) (t : Fin cfg0.N) (a : Fin 2048) (q : Fin 512) (j : Fin 4096) (hj : j.val = 512 * t.val + q.val) :
    (iblk0 V c 3 t : Vec Ideal S2048x512 .bf16) (ix2 a q) = (V c main_v45 : Vec Ideal S2048x4096 .bf16) (ix2 a j) := by
  obtain ⟨-, -, -, -, -, -, e0, e1, -, -, -, -, -, -, -, -, -, -, -, -, -, -, -, -, -, -⟩ := idx_facts t
  unfold iblk0
  rw [View.read_apply]
  show V c main_v45 _ = V c main_v45 _
  congr 1
  funext ax; apply Fin.ext
  match ax with
  | ⟨0, _⟩ => show win0_3.index t (0 : Fin 2) * 2048 + 1 * a.val = a.val; omega
  | ⟨1, _⟩ => show win0_3.index t (1 : Fin 2) * 512 + 1 * q.val = j.val; omega

/-- Window 4 (the coalesced recurrent weights) at point `t` is columns `512 t … 512 t + 511` of the array. -/
theorem blk4_apply (c : Dev nD) (t : Fin cfg0.N) (a : Fin 4096) (q : Fin 512) (j : Fin 4096) (hj : j.val = 512 * t.val + q.val) :
    (iblk0 V c 4 t : Vec Ideal S4096x512 .bf16) (ix2 a q) = (V c main_v46 : Vec Ideal S4096x4096 .bf16) (ix2 a j) := by
  obtain ⟨-, -, -, -, -, -, -, -, e0, e1, -, -, -, -, -, -, -, -, -, -, -, -, -, -, -, -⟩ := idx_facts t
  unfold iblk0
  rw [View.read_apply]
  show V c main_v46 _ = V c main_v46 _
  congr 1
  funext ax; apply Fin.ext
  match ax with
  | ⟨0, _⟩ => show win0_4.index t (0 : Fin 2) * 4096 + 1 * a.val = a.val; omega
  | ⟨1, _⟩ => show win0_4.index t (1 : Fin 2) * 512 + 1 * q.val = j.val; omega

/-- Window 5 (the group gates) is one block: every point reads the array itself. -/
theorem blk5_apply (c : Dev nD) (t : Fin cfg0.N) (a : Fin 512) (b : Fin 64) :
    (iblk0 V c 5 t : Vec Ideal S512x64 .f32) (ix2 a b) = (V c main_v60 : Vec Ideal S512x64 .f32) (ix2 a b) := by
  obtain ⟨-, -, -, -, -, -, -, -, -, -, e0, e1, -, -, -, -, -, -, -, -, -, -, -, -, -, -⟩ := idx_facts t
  unfold iblk0
  rw [View.read_apply]
  show V c main_v60 _ = V c main_v60 _
  congr 1
  funext ax; apply Fin.ext
  match ax with
  | ⟨0, _⟩ => show win0_5.index t (0 : Fin 2) * 512 + 1 * a.val = a.val; omega
  | ⟨1, _⟩ => show win0_5.index t (1 : Fin 2) * 64 + 1 * b.val = b.val; omega

/-- Window 6 (the group indicator) at point `t` is columns `512 t … 512 t + 511` of the array. -/
theorem blk6_apply (c : Dev nD) (t : Fin cfg0.N) (a : Fin 64) (q : Fin 512) (j : Fin 4096) (hj : j.val = 512 * t.val + q.val) :
    (iblk0 V c 6 t : Vec Ideal S64x512 .bf16) (ix2 a q) = (V c main_v69 : Vec Ideal S64x4096 .bf16) (ix2 a j) := by
  obtain ⟨-, -, -, -, -, -, -, -, -, -, -, -, e0, e1, -, -, -, -, -, -, -, -, -, -, -, -⟩ := idx_facts t
  unfold iblk0
  rw [View.read_apply]
  show V c main_v69 _ = V c main_v69 _
  congr 1
  funext ax; apply Fin.ext
  match ax with
  | ⟨0, _⟩ => show win0_6.index t (0 : Fin 2) * 64 + 1 * a.val = a.val; omega
  | ⟨1, _⟩ => show win0_6.index t (1 : Fin 2) * 512 + 1 * q.val = j.val; omega

/-- Window 7 (the update gate) is one block: every point reads the array itself. -/
theorem blk7_apply (c : Dev nD) (t : Fin cfg0.N) (a : Fin 512) (b : Fin 1) :
    (iblk0 V c 7 t : Vec Ideal S512x1 .f32) (ix2 a b) = (V c main_arg2 : Vec Ideal S512x1 .f32) (ix2 a b) := by
  obtain ⟨-, -, -, -, -, -, -, -, -, -, -, -, -, -, e0, e1, -, -, -, -, -, -, -, -, -, -⟩ := idx_facts t
  unfold iblk0
  rw [View.read_apply]
  show V c main_arg2 _ = V c main_arg2 _
  congr 1
  funext ax; apply Fin.ext
  match ax with
  | ⟨0, _⟩ => show win0_7.index t (0 : Fin 2) * 512 + 1 * a.val = a.val; omega
  | ⟨1, _⟩ => show win0_7.index t (1 : Fin 2) * 1 + 1 * b.val = b.val; omega

/-- Window 8 (the step sizes) at point `t` is columns `512 t … 512 t + 511` of the array. -/
theorem blk8_apply (c : Dev nD) (t : Fin cfg0.N) (a : Fin 1) (q : Fin 512) (j : Fin 4096) (hj : j.val = 512 * t.val + q.val) :
    (iblk0 V c 8 t : Vec Ideal S1x512 .f32) (ix2 a q) = (V c main_v75 : Vec Ideal S1x4096 .f32) (ix2 a j) := by
  obtain ⟨-, -, -, -, -, -, -, -, -, -, -, -, -, -, -, -, e0, e1, -, -, -, -, -, -, -, -⟩ := idx_facts t
  unfold iblk0
  rw [View.read_apply]
  show V c main_v75 _ = V c main_v75 _
  congr 1
  funext ax; apply Fin.ext
  match ax with
  | ⟨0, _⟩ => show win0_8.index t (0 : Fin 2) * 1 + 1 * a.val = a.val; omega
  | ⟨1, _⟩ => show win0_8.index t (1 : Fin 2) * 512 + 1 * q.val = j.val; omega

/-- Window 9 (the input bias) at point `t` is columns `512 t … 512 t + 511` of the array. -/
theorem blk9_apply (c : Dev nD) (t : Fin cfg0.N) (a : Fin 1) (q : Fin 512) (j : Fin 4096) (hj : j.val = 512 * t.val + q.val) :
    (iblk0 V c 9 t : Vec Ideal S1x512 .f32) (ix2 a q) = (V c main_v70 : Vec Ideal S1x4096 .f32) (ix2 a j) := by
  obtain ⟨-, -, -, -, -, -, -, -, -, -, -, -, -, -, -, -, -, -, e0, e1, -, -, -, -, -, -⟩ := idx_facts t
  unfold iblk0
  rw [View.read_apply]
  show V c main_v70 _ = V c main_v70 _
  congr 1
  funext ax; apply Fin.ext
  match ax with
  | ⟨0, _⟩ => show win0_9.index t (0 : Fin 2) * 1 + 1 * a.val = a.val; omega
  | ⟨1, _⟩ => show win0_9.index t (1 : Fin 2) * 512 + 1 * q.val = j.val; omega

/-- Window 10 (the recurrent bias) at point `t` is columns `512 t … 512 t + 511` of the array. -/
theorem blk10_apply (c : Dev nD) (t : Fin cfg0.N) (a : Fin 1) (q : Fin 512) (j : Fin 4096) (hj : j.val = 512 * t.val + q.val) :
    (iblk0 V c 10 t : Vec Ideal S1x512 .f32) (ix2 a q) = (V c main_v71 : Vec Ideal S1x4096 .f32) (ix2 a j) := by
  obtain ⟨-, -, -, -, -, -, -, -, -, -, -, -, -, -, -, -, -, -, -, -, e0, e1, -, -, -, -⟩ := idx_facts t
  unfold iblk0
  rw [View.read_apply]
  show V c main_v71 _ = V c main_v71 _
  congr 1
  funext ax; apply Fin.ext
  match ax with
  | ⟨0, _⟩ => show win0_10.index t (0 : Fin 2) * 1 + 1 * a.val = a.val; omega
  | ⟨1, _⟩ => show win0_10.index t (1 : Fin 2) * 512 + 1 * q.val = j.val; omega

/-! ## What a point writes back, and the arrays after the last point -/

/-- The new state as an array: `hk` of the eleven arrays the region finds, entry by entry. -/
abbrev hnew (c : Dev nD) : S512x4096.Idx → EReal := fun i =>
  hk (V c main_v48) (V c main_arg1) (V c main_v49) (V c main_v45) (V c main_v46) (V c main_v60) (V c main_v69) (V c main_arg2)
    (V c main_v75) (V c main_v70) (V c main_v71) (i 0) (i 1)

/-- Entry (p, q) of what point `t` stores is entry (p, 512 t + q) of the new state. -/
theorem stored_entry (c : Dev nD) (t : Fin cfg0.N) (p q : Fin 512) (j : Fin 4096) (hj : j.val = 512 * t.val + q.val) :
    k0_pay1 (iblk0 V c 1 t) (k0_pay3 (iblk0 V c 0 t) (iblk0 V c 3 t) (iblk0 V c 5 t) (iblk0 V c 6 t) (iblk0 V c 9 t) (iblk0 V c 2 t) (iblk0 V c 4 t) (iblk0 V c 10 t) (iblk0 V c 1 t) (iblk0 V c 7 t)) (k0_pay4 (iblk0 V c 8 t)) (ix2 p q)
      = hk (V c main_v48) (V c main_arg1) (V c main_v49) (V c main_v45) (V c main_v46) (V c main_v60) (V c main_v69) (V c main_arg2)
          (V c main_v75) (V c main_v70) (V c main_v71) p j :=
  pay1_eq_hk (V c main_v48) (V c main_arg1) (V c main_v49) (V c main_v45) (V c main_v46) (V c main_v60) (V c main_v69) (V c main_arg2)
    (V c main_v75) (V c main_v70) (V c main_v71)
    (iblk0 V c 0 t) (iblk0 V c 1 t) (iblk0 V c 2 t) (iblk0 V c 3 t) (iblk0 V c 4 t) (iblk0 V c 5 t) (iblk0 V c 6 t) (iblk0 V c 7 t)
    (iblk0 V c 8 t) (iblk0 V c 9 t) (iblk0 V c 10 t) p q j
    (fun k => blk0_apply V c t p k) (blk1_apply V c t p q j hj) (fun k => blk2_apply V c t p k) (fun k => blk3_apply V c t k q j hj)
    (fun k => blk4_apply V c t k q j hj) (fun r => blk5_apply V c t p r) (fun r => blk6_apply V c t r q j hj) (blk7_apply V c t p 0)
    (blk8_apply V c t 0 q j hj) (blk9_apply V c t 0 q j hj) (blk10_apply V c t 0 q j hj)

theorem stored_entry_half (c : Dev nD) (t : Fin cfg0.N) (p q : Fin 512) (j : Fin 4096) (hj : j.val = 512 * t.val + q.val) :
    k0_pay2 (iblk0 V c 1 t) (k0_pay3 (iblk0 V c 0 t) (iblk0 V c 3 t) (iblk0 V c 5 t) (iblk0 V c 6 t) (iblk0 V c 9 t) (iblk0 V c 2 t) (iblk0 V c 4 t) (iblk0 V c 10 t) (iblk0 V c 1 t) (iblk0 V c 7 t)) (k0_pay4 (iblk0 V c 8 t)) (ix2 p q)
      = hk (V c main_v48) (V c main_arg1) (V c main_v49) (V c main_v45) (V c main_v46) (V c main_v60) (V c main_v69) (V c main_arg2)
          (V c main_v75) (V c main_v70) (V c main_v71) p j :=
  pay2_eq_hk (V c main_v48) (V c main_arg1) (V c main_v49) (V c main_v45) (V c main_v46) (V c main_v60) (V c main_v69) (V c main_arg2)
    (V c main_v75) (V c main_v70) (V c main_v71)
    (iblk0 V c 0 t) (iblk0 V c 1 t) (iblk0 V c 2 t) (iblk0 V c 3 t) (iblk0 V c 4 t) (iblk0 V c 5 t) (iblk0 V c 6 t) (iblk0 V c 7 t)
    (iblk0 V c 8 t) (iblk0 V c 9 t) (iblk0 V c 10 t) p q j
    (fun k => blk0_apply V c t p k) (blk1_apply V c t p q j hj) (fun k => blk2_apply V c t p k) (fun k => blk3_apply V c t k q j hj)
    (fun k => blk4_apply V c t k q j hj) (fun r => blk5_apply V c t p r) (fun r => blk6_apply V c t r q j hj) (blk7_apply V c t p 0)
    (blk8_apply V c t 0 q j hj) (blk9_apply V c t 0 q j hj) (blk10_apply V c t 0 q j hj)

/-- What point `t` writes back to the new state's array is block `t` of `hnew`. -/
theorem flushed11_eq (c : Dev nD) (t : Fin cfg0.N) :
    (dat0 V c).flushed 11 t = ((cfg0.win 11).blk t).view.read (Elt Ideal) (hnew V c) := by
  show (cfg0.win 11).cut (grid0.coords t) ((dat0 V c).after 11 t) = _
  rw [after0_11]
  unfold out0_11
  rw [View.canon_unit_zero hz]
  simp only [View.ld_unit_zero (S := S512x2048) hz, View.ld_unit_zero (S := S512x512) hz, View.ld_unit_zero (S := S512x4096) hz,
    View.ld_unit_zero (S := S2048x512) hz, View.ld_unit_zero (S := S4096x512) hz, View.ld_unit_zero (S := S512x64) hz,
    View.ld_unit_zero (S := S64x512) hz, View.ld_unit_zero (S := S512x1) hz, View.ld_unit_zero (S := S1x512) hz]
  obtain ⟨-, -, -, -, -, -, -, -, -, -, -, -, -, -, -, -, -, -, -, -, -, -, e0, e1, -, -⟩ := idx_facts t
  have ht : t.val < 8 := lt_of_lt_of_eq t.isLt N_0
  funext y
  obtain ⟨p, q, rfl⟩ : ∃ (p q : Fin 512), y = ix2 p q := ⟨y 0, y 1, eq_ix2 y⟩
  refine (stored_entry V c t p q ⟨512 * t.val + q.val, by have := q.isLt; omega⟩ rfl).trans ?_
  rw [View.read_apply]
  show _ = hnew V c _
  unfold hnew
  refine congr (congrArg _ (Fin.ext ?_)) (Fin.ext ?_)
  · show p.val = win0_11.index t (0 : Fin 2) * 512 + 1 * p.val; omega
  · show 512 * t.val + q.val = win0_11.index t (1 : Fin 2) * 512 + 1 * q.val; omega

/-- An index of the array is in point `t`'s block of window 11 iff each coordinate is in the block's range on its axis. -/
theorem mem_blk11 (t : Fin cfg0.N) (i : S512x4096.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v76_0).slice (win0_11.rect t)).set ↔ _
  rw [View.set_slice_whole, Rect.mem_set_unit]
  exact Iff.rfl

/-- Every index of the array is in some point's block: column `j` belongs to point `j / 512`. -/
theorem cover11 (i : S512x4096.Idx) :
    ∃ t : Fin cfg0.N, (cfg0.win 11).flush t = true ∧ i ∈ ((cfg0.win 11).blk t).view.set := by
  have hi0 : (i 0).val < 512 := (i 0).isLt
  have hi1 : (i 1).val < 4096 := (i 1).isLt
  have hN : cfg0.N = 8 := N_0
  obtain ⟨t, ht⟩ : ∃ t : Fin cfg0.N, t.val = (i 1).val / 512 := ⟨⟨(i 1).val / 512, by omega⟩, rfl⟩
  obtain ⟨-, -, -, -, -, -, -, -, -, -, -, -, -, -, -, -, -, -, -, -, -, -, e0, e1, -, -⟩ := idx_facts t
  refine ⟨t, flush0_11 t, ?_⟩
  rw [mem_blk11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 512 ≤ (i 1).val ∧ (i 1).val < win0_11.index t (1 : Fin 2) * 512 + 512; omega

/-- What point `t` writes back to the array of the new state's half-precision copy is block `t` of `hnew`. -/
theorem flushed12_eq (c : Dev nD) (t : Fin cfg0.N) :
    (dat0 V c).flushed 12 t = ((cfg0.win 12).blk t).view.read (Elt Ideal) (hnew V c) := by
  show (cfg0.win 12).cut (grid0.coords t) ((dat0 V c).after 12 t) = _
  rw [after0_12]
  unfold out0_12
  rw [View.canon_unit_zero hz]
  simp only [View.ld_unit_zero (S := S512x2048) hz, View.ld_unit_zero (S := S512x512) hz, View.ld_unit_zero (S := S512x4096) hz,
    View.ld_unit_zero (S := S2048x512) hz, View.ld_unit_zero (S := S4096x512) hz, View.ld_unit_zero (S := S512x64) hz,
    View.ld_unit_zero (S := S64x512) hz, View.ld_unit_zero (S := S512x1) hz, View.ld_unit_zero (S := S1x512) hz]
  obtain ⟨-, -, -, -, -, -, -, -, -, -, -, -, -, -, -, -, -, -, -, -, -, -, -, -, e0, e1⟩ := idx_facts t
  have ht : t.val < 8 := lt_of_lt_of_eq t.isLt N_0
  funext y
  obtain ⟨p, q, rfl⟩ : ∃ (p q : Fin 512), y = ix2 p q := ⟨y 0, y 1, eq_ix2 y⟩
  refine (stored_entry_half V c t p q ⟨512 * t.val + q.val, by have := q.isLt; omega⟩ rfl).trans ?_
  rw [View.read_apply]
  show _ = hnew V c _
  unfold hnew
  refine congr (congrArg _ (Fin.ext ?_)) (Fin.ext ?_)
  · show p.val = win0_12.index t (0 : Fin 2) * 512 + 1 * p.val; omega
  · show 512 * t.val + q.val = win0_12.index t (1 : Fin 2) * 512 + 1 * q.val; omega

/-- An index of the array is in point `t`'s block of window 12 iff each coordinate is in the block's range on its axis. -/
theorem mem_blk12 (t : Fin cfg0.N) (i : S512x4096.Idx) :
    i ∈ ((cfg0.win 12).blk t).view.set ↔ ∀ a : Fin 2, win0_12.index t a * S512x512.size a ≤ (i a).val ∧ (i a).val < win0_12.index t a * S512x512.size a + S512x512.size a := by
  show i ∈ ((View.whole main_v76_1).slice (win0_12.rect t)).set ↔ _
  rw [View.set_slice_whole, Rect.mem_set_unit]
  exact Iff.rfl

/-- Every index of the array is in some point's block: column `j` belongs to point `j / 512`. -/
theorem cover12 (i : S512x4096.Idx) :
    ∃ t : Fin cfg0.N, (cfg0.win 12).flush t = true ∧ i ∈ ((cfg0.win 12).blk t).view.set := by
  have hi0 : (i 0).val < 512 := (i 0).isLt
  have hi1 : (i 1).val < 4096 := (i 1).isLt
  have hN : cfg0.N = 8 := N_0
  obtain ⟨t, ht⟩ : ∃ t : Fin cfg0.N, t.val = (i 1).val / 512 := ⟨⟨(i 1).val / 512, by omega⟩, rfl⟩
  obtain ⟨-, -, -, -, -, -, -, -, -, -, -, -, -, -, -, -, -, -, -, -, -, -, -, -, e0, e1⟩ := idx_facts t
  refine ⟨t, flush0_12 t, ?_⟩
  rw [mem_blk12]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 512 ≤ (i 1).val ∧ (i 1).val < win0_12.index t (1 : Fin 2) * 512 + 512; omega

/-- The new state after the region: entry (b, j) is `hk` of the eleven arrays the region was entered with. -/
theorem final0_11 (c : Dev nD) (b : Fin 512) (j : Fin 4096) :
    (dat0 V c).arrAt 11 cfg0.N (ix2 b j)
      = hk (V c main_v48) (V c main_arg1) (V c main_v49) (V c main_v45) (V c main_v46) (V c main_v60) (V c main_v69) (V c main_arg2)
          (V c main_v75) (V c main_v70) (V c main_v71) b j :=
  congrFun ((dat0 V c).arrAt_eq_of_cover 11 (hnew V c) (fun t _ => flushed11_eq V c t) cover11) (ix2 b j)

/-- Its half-precision copy holds the same entries. -/
theorem final0_12 (c : Dev nD) (b : Fin 512) (j : Fin 4096) :
    (dat0 V c).arrAt 12 cfg0.N (ix2 b j)
      = hk (V c main_v48) (V c main_arg1) (V c main_v49) (V c main_v45) (V c main_v46) (V c main_v60) (V c main_v69) (V c main_arg2)
          (V c main_v75) (V c main_v70) (V c main_v71) b j :=
  congrFun ((dat0 V c).arrAt_eq_of_cover 12 (hnew V c) (fun t _ => flushed12_eq V c t) cover12) (ix2 b j)

end Cert.KernelIdeal.Region0

end
-- ==== Proof.Region1.lean ====
/-
  The second region of the kernel: the prediction `pred = h_new · P + P_bias`.

  The region runs over four points. Point `n` reads the whole new state (512 × 4096), columns [1024n, 1024n + 1024) of
  the dense matrix (4096 × 4096) and of the bias row (1 × 4096), multiplies the state with that column block into a
  zero accumulator, adds the bias block to every row, and writes the 512 × 1024 result back as columns
  [1024n, 1024n + 1024) of the result array. The four column blocks tile the array, so after the region entry (b, j) of
  the result is

      pk H Pd PB b j = (∑ k, H (b, k) · Pd (k, j)) + PB (0, j)

  of the three arrays H, Pd, PB the region found on entry (`final1_3`). Nothing here needs finiteness: the sum is only
  re-indexed, never rearranged.

  The steps: the product and the bias spread read at one entry of a block (`product_apply`, `bias_row_apply`,
  `stored_apply`); where each window's block sits at a point (`block_positions`) and so each input block as entries of its
  array (`state_block_apply`, `matrix_block_apply`, `bias_block_apply`); what a point writes back is its block of the
  whole result (`stored_entry`, `written_back_eq`); column `j` is written by point `j / 1024` (`columns_covered`).
-/
import proofs.«402372_j14413910245943_3_alg».proof.Proof.Gen.KernelIdeal.Frame
import proofs.«402372_j14413910245943_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- One entry of the second product: row `b` of the new state against column `j` of the dense matrix, plus the bias
    of that column. -/
def pk (H : Vec Ideal S512x4096 .bf16) (Pd : Vec Ideal S4096x4096 .bf16) (PB : Vec Ideal S1x4096 .f32)
    (b : Fin 512) (j : Fin 4096) : EReal :=
  (∑ k : Fin 4096, H (ix2 b k) * Pd (ix2 k j)) + PB (ix2 0 j)

/-! ## The body's product at an index -/

theorem lhs_product_0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
theorem lhs_product_1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
theorem rhs_product_0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
theorem rhs_product_1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- The product of a [512,4096] block with a [4096,1024] block into a zero accumulator, at entry (b, q): the sum over
    the shared axis. -/
theorem product_apply (h : FVec Ideal S512x4096 .bf16) (p : FVec Ideal S4096x1024 .bf16) (b : Fin 512) (q : Fin 1024) :
    matmul dot_S512x4096_S4096x1024_S512x1024_1_0_0_1_n_n none h p (constant (F := Ideal) S512x1024 .f32 0x00000000#32) (ix2 b q)
      = ∑ k : Fin 4096, h (ix2 b k) * p (ix2 k q) := by
  simp only [matmul]
  rw [Ideal.matmul_constant_zero_apply, ← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  have el : dot_S512x4096_S4096x1024_S512x1024_1_0_0_1_n_n.lhsIdx (ix2 b q) ((contrEquiv1 dot_S512x4096_S4096x1024_S512x1024_1_0_0_1_n_n 4096 rfl rfl).symm k) = ix2 b k := funext fun a => Fin.ext (by
    match a with
    | ⟨0, _⟩ => exact lhs_product_0 _ _
    | ⟨1, _⟩ => exact (lhs_product_1 _ _).trans hk)
  have er : dot_S512x4096_S4096x1024_S512x1024_1_0_0_1_n_n.rhsIdx (ix2 b q) ((contrEquiv1 dot_S512x4096_S4096x1024_S512x1024_1_0_0_1_n_n 4096 rfl rfl).symm k) = ix2 k q := funext fun a => Fin.ext (by
    match a with
    | ⟨0, _⟩ => exact (rhs_product_0 _ _).trans hk
    | ⟨1, _⟩ => exact rhs_product_1 _ _)
  rw [el, er]

/-- The bias row spread over the 512 rows, at entry (b, q): the row's entry q. -/
theorem bias_row_apply (x : FVec Ideal S1x1024 .f32) (b : Fin 512) (q : Fin 1024) :
    broadcastTo S512x1024 x broadcasts_S1x1024_S512x1024 (ix2 b q) = x (ix2 0 q) :=
  broadcastTo_apply x broadcasts_S1x1024_S512x1024 (ix2 b q) (ix2 0 q) (fun a => by
    match a with
    | ⟨0, _⟩ => rfl
    | ⟨1, _⟩ => rfl)

/-- The body's stored value at entry (b, q) of its block: the row of the state block against column q of the matrix
    block, plus the bias block's entry q. -/
theorem stored_apply (h : Vec Ideal S512x4096 .bf16) (p : Vec Ideal S4096x1024 .bf16) (bb : Vec Ideal S1x1024 .f32)
    (b : Fin 512) (q : Fin 1024) :
    k1_pay1 (F := Ideal) h p bb (ix2 b q) = (∑ k : Fin 4096, h (ix2 b k) * p (ix2 k q)) + bb (ix2 0 q) := by
  unfold k1_pay1
  simp only [shapeCast_self]
  refine (addf_apply _ _ (ix2 b q)).trans ?_
  refine congrArg₂ (· + ·) (product_apply h p b q) (bias_row_apply bb b q)

/-! ## From the blocks to the array -/

section Blocks

variable (V : (c : Dev nD) → (b : Ref sig .tc) → Buf (Elt Ideal) ((c : Thread nD τ).loc b))

/-- The whole result array: entry (b, j) is `pk` of the three arrays the region reads. -/
abbrev predArr (H : Vec Ideal S512x4096 .bf16) (Pd : Vec Ideal S4096x4096 .bf16) (PB : Vec Ideal S1x4096 .f32) :
    S512x4096.Idx → EReal :=
  fun i => pk H Pd PB ⟨(i 0).val, (i 0).isLt⟩ ⟨(i 1).val, (i 1).isLt⟩

theorem zero_offsets : (![0, 0] : Fin 2 → Nat) = fun _ => 0 := funext fun a => by fin_cases a <;> rfl

/-- Where each window's block sits at point `t`: the state block is the whole array at every point; the matrix, the bias
    and the result move along the column axis, one block of 1024 columns per point. -/
theorem block_positions : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- What point `n` stores, entry by entry, when its three blocks are the whole state, columns [1024n, 1024n + 1024) of
    the matrix and the same columns of the bias: the entries of `pk` in those columns. -/
theorem stored_entry (H : Vec Ideal S512x4096 .bf16) (Pd : Vec Ideal S4096x4096 .bf16) (PB : Vec Ideal S1x4096 .f32)
    (n : Nat) (hn : n < 4)
    (h : Vec Ideal S512x4096 .bf16) (p : Vec Ideal S4096x1024 .bf16) (bb : Vec Ideal S1x1024 .f32)
    (hh : ∀ (b : Fin 512) (k : Fin 4096), h (ix2 b k) = H (ix2 b k))
    (hp : ∀ (k : Fin 4096) (q : Fin 1024), p (ix2 k q) = Pd (ix2 k (⟨1024 * n + q.val, by omega⟩ : Fin 4096)))
    (hb : ∀ q : Fin 1024, bb (ix2 0 q) = PB (ix2 0 (⟨1024 * n + q.val, by omega⟩ : Fin 4096)))
    (b : Fin 512) (q : Fin 1024) :
    k1_pay1 (F := Ideal) h p bb (ix2 b q) = pk H Pd PB b ⟨1024 * n + q.val, by omega⟩ := by
  rw [stored_apply, hb]
  unfold pk
  exact congrArg (· + _) (Finset.sum_congr rfl fun k _ => by rw [hh, hp])

/-- The state window's block at any point is the whole array. -/
theorem state_block_apply (c : Dev nD) (t : Fin cfg1.N) (b : Fin 512) (k : Fin 4096) :
    (iblk1 V c 0 t : Vec Ideal S512x4096 .bf16) (ix2 b k) = (V c (Pipeline.arrRef spec1 0) : Vec Ideal S512x4096 .bf16) (ix2 b k) := by
  obtain ⟨e00, e01, e10, e11, e20, e21, e30, e31⟩ := block_positions t
  unfold iblk1
  rw [View.read_apply]
  show (V c (Pipeline.arrRef spec1 0) : Vec Ideal S512x4096 .bf16) _ = _
  congr 1
  funext a
  apply Fin.ext
  match a with
  | ⟨0, _⟩ => show win1_0.index t (0 : Fin 2) * 512 + 1 * b.val = b.val; rw [e00]; omega
  | ⟨1, _⟩ => show win1_0.index t (1 : Fin 2) * 4096 + 1 * k.val = k.val; rw [e01]; omega

/-- The matrix window's block at point `t` is columns [1024t, 1024t + 1024) of the array. -/
theorem matrix_block_apply (c : Dev nD) (t : Fin cfg1.N) (k : Fin 4096) (q : Fin 1024) (hq : 1024 * t.val + q.val < 4096) :
    (iblk1 V c 1 t : Vec Ideal S4096x1024 .bf16) (ix2 k q)
      = (V c (Pipeline.arrRef spec1 1) : Vec Ideal S4096x4096 .bf16) (ix2 k (⟨1024 * t.val + q.val, hq⟩ : Fin 4096)) := by
  obtain ⟨e00, e01, e10, e11, e20, e21, e30, e31⟩ := block_positions t
  unfold iblk1
  rw [View.read_apply]
  show (V c (Pipeline.arrRef spec1 1) : Vec Ideal S4096x4096 .bf16) _ = _
  congr 1
  funext a
  apply Fin.ext
  match a with
  | ⟨0, _⟩ => show win1_1.index t (0 : Fin 2) * 4096 + 1 * k.val = k.val; rw [e10]; omega
  | ⟨1, _⟩ => show win1_1.index t (1 : Fin 2) * 1024 + 1 * q.val = 1024 * t.val + q.val; rw [e11]; omega

/-- The bias window's block at point `t` is columns [1024t, 1024t + 1024) of the row. -/
theorem bias_block_apply (c : Dev nD) (t : Fin cfg1.N) (q : Fin 1024) (hq : 1024 * t.val + q.val < 4096) :
    (iblk1 V c 2 t : Vec Ideal S1x1024 .f32) (ix2 0 q)
      = (V c (Pipeline.arrRef spec1 2) : Vec Ideal S1x4096 .f32) (ix2 0 (⟨1024 * t.val + q.val, hq⟩ : Fin 4096)) := by
  obtain ⟨e00, e01, e10, e11, e20, e21, e30, e31⟩ := block_positions t
  unfold iblk1
  rw [View.read_apply]
  show (V c (Pipeline.arrRef spec1 2) : Vec Ideal S1x4096 .f32) _ = _
  congr 1
  funext a
  apply Fin.ext
  match a with
  | ⟨0, _⟩ => show win1_2.index t (0 : Fin 2) * 1 + 1 * 0 = 0; rw [e20]
  | ⟨1, _⟩ => show win1_2.index t (1 : Fin 2) * 1024 + 1 * q.val = 1024 * t.val + q.val; rw [e21]; omega

/-- What point `t` writes back is block `t` of the whole result array. -/
theorem written_back_eq (c : Dev nD) (t : Fin cfg1.N) :
    (dat1 V c).flushed 3 t = ((cfg1.win 3).blk t).view.read (Elt Ideal)
      (predArr (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zero_offsets]
  simp only [View.ld_unit_zero (S := S512x4096) zero_offsets, View.ld_unit_zero (S := S4096x1024) zero_offsets, View.ld_unit_zero (S := S1x1024) zero_offsets]
  have hN : grid1.N = 4 := N_1
  have ht : t.val < 4 := hN ▸ t.isLt
  obtain ⟨e00, e01, e10, e11, e20, e21, e30, e31⟩ := block_positions t
  funext y
  obtain ⟨b, q, rfl⟩ : ∃ (b : Fin 512) (q : Fin 1024), y = ix2 b q := ⟨y 0, y 1, eq_ix2 (n0 := 512) (n1 := 1024) y⟩
  refine (stored_entry (V c (Pipeline.arrRef spec1 0)) (V c (Pipeline.arrRef spec1 1)) (V c (Pipeline.arrRef spec1 2)) t.val ht
    (iblk1 V c 0 t) (iblk1 V c 1 t) (iblk1 V c 2 t)
    (fun b k => state_block_apply V c t b k) (fun k q => matrix_block_apply V c t k q (by omega)) (fun q => bias_block_apply V c t q (by omega)) b q).trans ?_
  rw [View.read_apply]
  show _ = predArr _ _ _ _
  refine congrArg₂ (pk _ _ _) (Fin.ext ?_) (Fin.ext ?_)
  · show b.val = win1_3.index t (0 : Fin 2) * 512 + 1 * b.val; rw [e30]; omega
  · show 1024 * t.val + q.val = win1_3.index t (1 : Fin 2) * 1024 + 1 * q.val; rw [e31]; omega

end Blocks

section Array

variable (V : (c : Dev nD) → (b : Ref sig .tc) → Buf (Elt Ideal) ((c : Thread nD τ).loc b))

/-- An index of the result array is in point `t`'s block iff each coordinate is in the block's range on its axis. -/
theorem mem_result_block (t : Fin cfg1.N) (i : S512x4096.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v77).slice (win1_3.rect t)).set ↔ _
  rw [View.set_slice_whole, Rect.mem_set_unit]
  exact Iff.rfl

/-- Every entry of the result array is written: column `j` by the point `j / 1024`. -/
theorem columns_covered (i : S512x4096.Idx) :
    ∃ t : Fin cfg1.N, (cfg1.win 3).flush t = true ∧ i ∈ ((cfg1.win 3).blk t).view.set := by
  have hi0 : (i 0).val < 512 := (i 0).isLt
  have hi1 : (i 1).val < 4096 := (i 1).isLt
  have hN : grid1.N = 4 := N_1
  have hlt : (i 1).val / 1024 < grid1.N := by rw [hN]; omega
  obtain ⟨e00, e01, e10, e11, e20, e21, e30, e31⟩ := block_positions ⟨(i 1).val / 1024, hlt⟩
  refine ⟨⟨(i 1).val / 1024, hlt⟩, flush1_3 _, ?_⟩
  rw [mem_result_block]
  intro a
  match a with
  | ⟨0, _⟩ =>
    show win1_3.index ⟨(i 1).val / 1024, hlt⟩ (0 : Fin 2) * 512 ≤ (i 0).val ∧ (i 0).val < win1_3.index ⟨(i 1).val / 1024, hlt⟩ (0 : Fin 2) * 512 + 512
    rw [e30]; omega
  | ⟨1, _⟩ =>
    show win1_3.index ⟨(i 1).val / 1024, hlt⟩ (1 : Fin 2) * 1024 ≤ (i 1).val ∧ (i 1).val < win1_3.index ⟨(i 1).val / 1024, hlt⟩ (1 : Fin 2) * 1024 + 1024
    rw [e31]; show (i 1).val / 1024 * 1024 ≤ (i 1).val ∧ (i 1).val < (i 1).val / 1024 * 1024 + 1024; omega

/-- The result array after the region, as a whole. -/
theorem result_array (c : Dev nD) :
    (dat1 V c).arrAt 3 cfg1.N
      = predArr (V c (Pipeline.arrRef spec1 0)) (V c (Pipeline.arrRef spec1 1)) (V c (Pipeline.arrRef spec1 2)) :=
  (dat1 V c).arrAt_eq_of_cover 3 _ (fun t _ => written_back_eq V c t) columns_covered

/-- The result array after the region, entry by entry: entry (b, j) is row `b` of the state the region found against
    column `j` of the dense matrix, plus the bias of column `j`. -/
theorem final1_3 (c : Dev nD) (b : Fin 512) (j : Fin 4096) :
    (dat1 V c).arrAt 3 cfg1.N (ix2 b j) = pk (V c main_v76_1) (V c main_v47) (V c main_v72) b j :=
  congrFun (result_array V c) (ix2 b j)

end Array

end Cert.KernelIdeal.Region1

end
-- ==== Proof.KHostA.lean ====
/-
  The simple arrays the two regions read, as functions of the argument arrays.

  Before the first region is entered a line of array operations has run. Of what it wrote, this module reads
  * the two matrix inputs cast to the narrow float format (at the extended reals a change of format is the identity),
  * the three bias vectors and the step vector, each a vector of 4096 entries laid out as a 1 × 4096 row
    (the step vector is the constant with bit pattern 0x3DCCCCCD divided entrywise by the time constants),
  * the router gate `1 / (1 + exp (−(x · wᵀ + b)))`, kept as ONE named function `rgate` of its three arrays,
  and records that two argument arrays the regions read directly are still as launched.
  Every equation is stated at the contents `Gen.V3` found when the first region is entered, and the row and
  matrix readings are given at an index.
-/
import proofs.«402372_j14413910245943_3_alg».proof.Proof.Gen.KernelIdeal.Frame
import proofs.«402372_j14413910245943_3_alg».proof.Proof.Spec
import Idealize.ShloMosaic.Lib.ValueIdx
import Idealize.ShloMosaic.Lib.ValueLayout
import Idealize.ShloMosaic.Lib.StableHlo.Run

noncomputable section

namespace Cert.KernelIdeal.KHostA

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## The inputs cast to the narrow format: at the ideal instance the cast is the identity -/

theorem v48_eq :
    @Eq (Vec Ideal S512x2048 .bf16) (V3 m ρ c main_v48)
      (truncf (F := Ideal) .bf16 (m ((c : Thread nD τ).loc main_arg0)) bitsLt_bf16_f32) := by
  show StableHlo.after hostOps0_2 (W2 m ρ c) (Proc.devRef .tc main_v48) = _
  after_results
  try rfl

theorem v48_apply (b : Fin 512) (k : Fin 2048) :
    V3 m ρ c main_v48 (ix2 b k) = m ((c : Thread nD τ).loc main_arg0) (ix2 b k) :=
  congrFun (v48_eq m ρ c) (ix2 b k)

theorem v49_eq :
    @Eq (Vec Ideal S512x4096 .bf16) (V3 m ρ c main_v49)
      (truncf (F := Ideal) .bf16 (m ((c : Thread nD τ).loc main_arg1)) bitsLt_bf16_f32) := by
  show StableHlo.after hostOps0_2 (W2 m ρ c) (Proc.devRef .tc main_v49) = _
  after_results
  try rfl

theorem v49_apply (b : Fin 512) (j : Fin 4096) :
    V3 m ρ c main_v49 (ix2 b j) = m ((c : Thread nD τ).loc main_arg1) (ix2 b j) :=
  congrFun (v49_eq m ρ c) (ix2 b j)

/-! ## Two argument arrays the regions read directly -/

theorem arg1_eq : V3 m ρ c main_arg1 = m ((c : Thread nD τ).loc main_arg1) := by
  show StableHlo.after hostOps0_2 (W2 m ρ c) (Proc.devRef .tc main_arg1) = _
  after_results
  try rfl

theorem arg2_eq : V3 m ρ c main_arg2 = m ((c : Thread nD τ).loc main_arg2) := by
  show StableHlo.after hostOps0_2 (W2 m ρ c) (Proc.devRef .tc main_arg2) = _
  after_results
  try rfl

/-! ## The three bias rows: a vector of 4096 entries read as a 1 × 4096 array -/

theorem v70_eq :
    @Eq (Vec Ideal S1x4096 .f32) (V3 m ρ c main_v70)
      (shapeCast S1x4096 (m ((c : Thread nD τ).loc main_arg4)) shapeCasts_S4096_S1x4096) := by
  show StableHlo.after hostOps0_2 (W2 m ρ c) (Proc.devRef .tc main_v70) = _
  after_results
  try rfl

theorem v70_apply (u : Fin 1) (j : Fin 4096) :
    V3 m ρ c main_v70 (ix2 u j) = m ((c : Thread nD τ).loc main_arg4) (ix1 j) :=
  (congrFun (v70_eq m ρ c) (ix2 u j)).trans (shapeCast_a_1a_apply _ shapeCasts_S4096_S1x4096 u j)

theorem v71_eq :
    @Eq (Vec Ideal S1x4096 .f32) (V3 m ρ c main_v71)
      (shapeCast S1x4096 (m ((c : Thread nD τ).loc main_arg6)) shapeCasts_S4096_S1x4096) := by
  show StableHlo.after hostOps0_2 (W2 m ρ c) (Proc.devRef .tc main_v71) = _
  after_results
  try rfl

theorem v71_apply (u : Fin 1) (j : Fin 4096) :
    V3 m ρ c main_v71 (ix2 u j) = m ((c : Thread nD τ).loc main_arg6) (ix1 j) :=
  (congrFun (v71_eq m ρ c) (ix2 u j)).trans (shapeCast_a_1a_apply _ shapeCasts_S4096_S1x4096 u j)

theorem v72_eq :
    @Eq (Vec Ideal S1x4096 .f32) (V3 m ρ c main_v72)
      (shapeCast S1x4096 (m ((c : Thread nD τ).loc main_arg8)) shapeCasts_S4096_S1x4096) := by
  show StableHlo.after hostOps0_2 (W2 m ρ c) (Proc.devRef .tc main_v72) = _
  after_results
  try rfl

theorem v72_apply (u : Fin 1) (j : Fin 4096) :
    V3 m ρ c main_v72 (ix2 u j) = m ((c : Thread nD τ).loc main_arg8) (ix1 j) :=
  (congrFun (v72_eq m ρ c) (ix2 u j)).trans (shapeCast_a_1a_apply _ shapeCasts_S4096_S1x4096 u j)

/-! ## The step row: the constant 0.1 (as the 32-bit pattern 0x3DCCCCCD) divided by the time constants -/

set_option maxHeartbeats 4000000 in
theorem v75_eq :
    @Eq (Vec Ideal S1x4096 .f32) (V3 m ρ c main_v75)
      (shapeCast S1x4096
        (Host.divf (F := Ideal) (broadcastInDim S4096 ![] bcast_S_S4096 (constant (F := Ideal) S_ .f32 0x3DCCCCCD#32))
          (m ((c : Thread nD τ).loc main_arg11))) shapeCasts_S4096_S1x4096) := by
  show StableHlo.after hostOps0_2 (W2 m ρ c) (Proc.devRef .tc main_v75) = _
  after_results
  try rfl

theorem v75_apply (u : Fin 1) (j : Fin 4096) :
    V3 m ρ c main_v75 (ix2 u j)
      = Ideal.div (Ideal.ofBits .f32 0x3DCCCCCD#32) (m ((c : Thread nD τ).loc main_arg11) (ix1 j)) :=
  (congrFun (v75_eq m ρ c) (ix2 u j)).trans ((shapeCast_a_1a_apply _ shapeCasts_S4096_S1x4096 u j).trans rfl)

/-! ## The router gate: the logistic function of an affine map of the input, as one function of its three arrays -/

/-- `1 / (1 + exp (−(x · wᵀ + b)))`, written with the host operations that compute it, in their order. -/
def rgate (x : FVec Ideal S512x2048 .f32) (wr : FVec Ideal S64x2048 .f32) (br : FVec Ideal S64 .f32) : FVec Ideal S512x64 .f32 :=
  Host.divf (F := Ideal) (broadcastInDim S512x64 ![] bcast_S_S512x64 (constant (F := Ideal) S_ .f32 0x3F800000#32))
    (addf (F := Ideal) (broadcastInDim S512x64 ![] bcast_S_S512x64 (constant (F := Ideal) S_ .f32 0x3F800000#32))
      (Host.exp (F := Ideal) (Host.negf (F := Ideal) (addf (F := Ideal)
        (Host.dotGeneral (F := Ideal) dot_S512x2048_S2048x64_S512x64_1_0_0_1_n_n none x
          (transpose S2048x64 [1, 0] wr transposes_S64x2048_S2048x64_1_0))
        (broadcastInDim S512x64 ![0, 1] bcast_S1x64_S512x64_0_1 (broadcastInDim S1x64 ![1] bcast_S64_S1x64_1 br))))))

set_option maxHeartbeats 4000000 in
theorem v60_eq :
    @Eq (FVec Ideal S512x64 .f32) (V3 m ρ c main_v60)
      (rgate (m ((c : Thread nD τ).loc main_arg0)) (m ((c : Thread nD τ).loc main_arg9)) (m ((c : Thread nD τ).loc main_arg10))) := by
  show StableHlo.after hostOps0_2 (W2 m ρ c) (Proc.devRef .tc main_v60) = _
  unfold rgate
  after_results
  try rfl

end Cert.KernelIdeal.KHostA

end
-- ==== Proof.LibScatterRead.lean ====
/-
  A host scatter-add read at one element, at the exact (extended-real) instance, for the two index layouts met
  when a sparse linear map given by an edge list is applied:

  * the COLUMN scatter: updates `[B, n]`, one column index per edge; update `(b, e)` lands at `(b, idx e)`,
    so element `(b, c)` collects the updates `(b, e)` over the edges `e` whose index is `c`;
  * the POINT scatter: updates `[n]`, a (row, column) pair per edge; update `e` lands at `(row e, col e)`,
    so element `(k, c)` collects the updates over the edges whose pair is `(k, c)`.

  In both an index outside the operand (read as a signed integer, not clamped) drops its update, which the
  integer equations under the sums say by themselves: no element's coordinate equals such an index.

  Beside them: the index normalisation (a negative word counts from the end of the axis) read at an index, and
  the two-column index array built by concatenating two one-column arrays read at an index.
-/
import Idealize.ShloMosaic.PureOps.Ideal
import Idealize.ShloMosaic.PureOps.Contract
import Idealize.ShloMosaic.Lib.ValueIdx
import Idealize.ShloMosaic.Lib.Pipeline.Value
import proofs.«402372_j14413910245943_3_alg».proof.Proof.Spec

noncomputable section

open scoped BigOperators

namespace Cert.Lib.ScatterRead

open Idealize.ShloMosaic Idealize.ShloMosaic.ValueIdx Cert.Spec

/-! ## When an update lands at a given element -/

/-- An update lands at element `i` exactly when, on every axis, its start plus its window coordinate is
    `i`'s coordinate as an integer: being inside the operand is then automatic, and outside it no element matches. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · intro hf a
      have := congrArg (fun f => (f a).val) hf
      simp only at this
      have h' := h a
      omega
    · intro hf
      funext a
      apply Fin.ext
      have := hf a
      simp only
      omega
  · next h =>
    constructor
    · intro hf; exact absurd hf (by simp)
    · intro hf
      exfalso; apply h
      intro a
      have := hf a
      have := (i a).isLt
      omega

/-! ## The column scatter -/

section Col
variable {B C n : Nat}

/-- The column scatter's dimension numbers, as a record. -/
private abbrev colDims (wf : ScatterDims.WF ⟨2, ![B, C]⟩ ⟨2, ![n, 1]⟩ ⟨2, ![B, n]⟩ [0] [1] [1] 1) :
    ScatterDims ⟨2, ![B, C]⟩ ⟨2, ![n, 1]⟩ ⟨2, ![B, n]⟩ where
  updateWindowDims := [0]
  insertedWindowDims := [1]
  scatterDimsToOperandDims := [1]
  indexVectorDim := 1
  wf := wf

variable (wf : ScatterDims.WF ⟨2, ![B, C]⟩ ⟨2, ![n, 1]⟩ ⟨2, ![B, n]⟩ [0] [1] [1] 1)
  (idx : IVec ⟨2, ![n, 1]⟩ 32) (j : (⟨2, ![B, n]⟩ : Shape).Idx)

private theorem col_start0 : (colDims wf).start j idx 0 = 0 := by
  unfold ScatterDims.start
  rw [dif_neg (show ¬ (0 : Fin 2) ∈ ([1] : List (Fin 2)) from by decide)]

private theorem col_start1 : (colDims wf).start j idx 1 = (idx (ix2 (j 1) (0 : Fin 1))).toInt := by
  unfold ScatterDims.start
  rw [dif_pos (show (1 : Fin 2) ∈ (colDims wf).scatterDimsToOperandDims from List.mem_singleton.mpr rfl)]
  congr 2
  funext b; refine Fin.ext ?_
  match b with
  | ⟨0, _⟩ => rfl
  | ⟨1, _⟩ => rfl

private theorem col_window0 : (colDims wf).window j 0 = (j 0).val := by
  rfl

private theorem col_window1 : (colDims wf).window j 1 = 0 := by
  rfl

/-- Where update `j` of the column scatter lands: at `(b, c)` exactly when its row is `b` and its edge's index is `c`. -/
private theorem col_lands (b : Fin B) (c : Fin C) :
    (colDims wf).resultIdx? j idx = some (ix2 b c)
      ↔ (j 0 : Fin B) = b ∧ (idx (ix2 (j 1) (0 : Fin 1))).toInt = (c.val : ℤ) := by
  rw [resultIdx?_eq_some_iff, Fin.forall_fin_two, col_start0, col_start1, col_window0, col_window1]
  show (0 + (((j 0 : Fin B).val : ℕ) : ℤ) = ((b.val : ℕ) : ℤ)) ∧ (_ + ((0 : ℕ) : ℤ) = ((c.val : ℕ) : ℤ)) ↔ _
  constructor
  · rintro ⟨h0, h1⟩
    exact ⟨Fin.ext (by omega), by omega⟩
  · rintro ⟨h0, h1⟩
    exact ⟨by rw [h0]; omega, by omega⟩

end Col

/-- The column scatter-add at element `(b, c)`: the operand's element plus the updates `(b, e)` over the edges
    `e` whose index word, read signed, is `c`. -/
theorem scatterAdd_col_read {B C n : Nat} {φ : FTy} (d : ScatterDims ⟨2, ![B, C]⟩ ⟨2, ![n, 1]⟩ ⟨2, ![B, n]⟩)
    (h1 : d.updateWindowDims = [0]) (h2 : d.insertedWindowDims = [1]) (h3 : d.scatterDimsToOperandDims = [1])
    (h4 : d.indexVectorDim = 1)
    (x : A2 B C) (idx : IVec ⟨2, ![n, 1]⟩ 32) (upd : A2 B n) (b : Fin B) (c : Fin C) :
    Host.scatterAdd (F := Ideal) (φ := φ) d x idx upd (ix2 b c)
      = x (ix2 b c) + ∑ e ∈ Finset.univ.filter (fun e : Fin n => (idx (ix2 e (0 : Fin 1))).toInt = (c.val : ℤ)),
          upd (ix2 b e) := by
  obtain ⟨uw, iw, sd, iv, wf⟩ := d
  dsimp only at h1 h2 h3 h4
  subst h1 h2 h3 h4
  show Ideal.hostScatterAdd (colDims wf) x idx upd (ix2 b c) = _
  unfold Ideal.hostScatterAdd
  congr 1
  refine Finset.sum_nbij' (fun j => (j 1 : Fin n)) (fun e => ix2 b e) ?_ ?_ ?_ ?_ ?_
  · intro j hj
    exact Finset.mem_filter.mpr ⟨Finset.mem_univ _, ((col_lands wf idx j b c).mp (Finset.mem_filter.mp hj).2).2⟩
  · intro e he
    exact Finset.mem_filter.mpr
      ⟨Finset.mem_univ _, (col_lands wf idx (ix2 b e) b c).mpr ⟨rfl, (Finset.mem_filter.mp he).2⟩⟩
  · intro j hj
    have h0 := ((col_lands wf idx j b c).mp (Finset.mem_filter.mp hj).2).1
    rw [← h0]; exact (eq_ix2 j).symm
  · intro e _; rfl
  · intro j hj
    have h0 := ((col_lands wf idx j b c).mp (Finset.mem_filter.mp hj).2).1
    rw [← h0]; exact congrArg upd (eq_ix2 j)

/-! ## The point scatter -/

section Point
variable {K C n : Nat}

/-- The point scatter's dimension numbers, as a record. -/
private abbrev pointDims (wf : ScatterDims.WF ⟨2, ![K, C]⟩ ⟨2, ![n, 2]⟩ ⟨1, ![n]⟩ [] [0, 1] [0, 1] 1) :
    ScatterDims ⟨2, ![K, C]⟩ ⟨2, ![n, 2]⟩ ⟨1, ![n]⟩ where
  updateWindowDims := []
  insertedWindowDims := [0, 1]
  scatterDimsToOperandDims := [0, 1]
  indexVectorDim := 1
  wf := wf

variable (wf : ScatterDims.WF ⟨2, ![K, C]⟩ ⟨2, ![n, 2]⟩ ⟨1, ![n]⟩ [] [0, 1] [0, 1] 1)
  (idx : IVec ⟨2, ![n, 2]⟩ 32) (j : (⟨1, ![n]⟩ : Shape).Idx)

private theorem point_start0 : (pointDims wf).start j idx 0 = (idx (ix2 (j 0) (0 : Fin 2))).toInt := by
  unfold ScatterDims.start
  rw [dif_pos (show (0 : Fin 2) ∈ ([0, 1] : List (Fin 2)) from by decide)]
  congr 2
  funext b; refine Fin.ext ?_
  match b with
  | ⟨0, _⟩ => rfl
  | ⟨1, _⟩ => rfl

private theorem point_start1 : (pointDims wf).start j idx 1 = (idx (ix2 (j 0) (1 : Fin 2))).toInt := by
  unfold ScatterDims.start
  rw [dif_pos (show (1 : Fin 2) ∈ ([0, 1] : List (Fin 2)) from by decide)]
  congr 2
  funext b; refine Fin.ext ?_
  match b with
  | ⟨0, _⟩ => rfl
  | ⟨1, _⟩ => rfl

private theorem point_window (a : Fin 2) : (pointDims wf).window j a = 0 := by
  match a with
  | ⟨0, _⟩ => rfl
  | ⟨1, _⟩ => rfl

/-- Where update `j` of the point scatter lands: at `(k, c)` exactly when its edge's index pair is `(k, c)`. -/
private theorem point_lands (k : Fin K) (c : Fin C) :
    (pointDims wf).resultIdx? j idx = some (ix2 k c)
      ↔ (idx (ix2 (j 0) (0 : Fin 2))).toInt = (k.val : ℤ) ∧ (idx (ix2 (j 0) (1 : Fin 2))).toInt = (c.val : ℤ) := by
  rw [resultIdx?_eq_some_iff, Fin.forall_fin_two, point_start0, point_start1, point_window, point_window]
  show (_ + ((0 : ℕ) : ℤ) = ((k.val : ℕ) : ℤ)) ∧ (_ + ((0 : ℕ) : ℤ) = ((c.val : ℕ) : ℤ)) ↔ _
  constructor
  · rintro ⟨h0, h1⟩
    exact ⟨by omega, by omega⟩
  · rintro ⟨h0, h1⟩
    exact ⟨by omega, by omega⟩

end Point

/-- The point scatter-add at element `(k, c)`: the operand's element plus the updates over the edges whose
    index pair, read signed, is `(k, c)`. -/
theorem scatterAdd_point_read {K C n : Nat} {φ : FTy} (d : ScatterDims ⟨2, ![K, C]⟩ ⟨2, ![n, 2]⟩ ⟨1, ![n]⟩)
    (h1 : d.updateWindowDims = []) (h2 : d.insertedWindowDims = [0, 1]) (h3 : d.scatterDimsToOperandDims = [0, 1])
    (h4 : d.indexVectorDim = 1)
    (x : A2 K C) (idx : IVec ⟨2, ![n, 2]⟩ 32) (upd : A1 n) (k : Fin K) (c : Fin C) :
    Host.scatterAdd (F := Ideal) (φ := φ) d x idx upd (ix2 k c)
      = x (ix2 k c) + ∑ e ∈ Finset.univ.filter (fun e : Fin n =>
          (idx (ix2 e (0 : Fin 2))).toInt = (k.val : ℤ) ∧ (idx (ix2 e (1 : Fin 2))).toInt = (c.val : ℤ)),
          upd (ix1 e) := by
  obtain ⟨uw, iw, sd, iv, wf⟩ := d
  dsimp only at h1 h2 h3 h4
  subst h1 h2 h3 h4
  show Ideal.hostScatterAdd (pointDims wf) x idx upd (ix2 k c) = _
  unfold Ideal.hostScatterAdd
  congr 1
  refine Finset.sum_nbij' (fun j => (j 0 : Fin n)) (fun e => ix1 e) ?_ ?_ ?_ ?_ ?_
  · intro j hj
    exact Finset.mem_filter.mpr ⟨Finset.mem_univ _, (point_lands wf idx j k c).mp (Finset.mem_filter.mp hj).2⟩
  · intro e he
    exact Finset.mem_filter.mpr
      ⟨Finset.mem_univ _, (point_lands wf idx (ix1 e) k c).mpr (Finset.mem_filter.mp he).2⟩
  · intro j _; exact (eq_ix1 j).symm
  · intro e _; rfl
  · intro j _; exact congrArg upd (eq_ix1 j)

/-! ## The index normalisation and the two-column index array, at an index -/

/-- The normalisation of an index array read at an index: where the word is negative the extent is added. -/
theorem norm_read {s : Shape} (h0 : (⟨0, ![]⟩ : Shape).BroadcastsInDim s (![] : Fin 0 → Fin s.rank))
    (idx : IVec s 32) (N : Nat) (i : s.Idx) :
    select (cmpi .slt idx (broadcastInDim s ![] h0 (constantI ⟨0, ![]⟩ 32 0#32)))
      (addi idx (broadcastInDim s ![] h0 (constantI ⟨0, ![]⟩ 32 (BitVec.ofNat 32 N)))) idx i
      = Cert.Spec.norm N (idx i) := by
  show (if BitVec.ofBool ((idx i).slt 0#32) = 1 then idx i + BitVec.ofNat 32 N else idx i) = _
  unfold Cert.Spec.norm
  cases (idx i).slt 0#32 <;> simp

/-- Two one-column arrays laid side by side: column 0 is the first. -/
theorem concat_cols_read0 {n : Nat} (a b : IVec ⟨2, ![n, 1]⟩ 32)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, a⟩, ⟨⟨2, ![n, 1]⟩, b⟩] h (ix2 e (0 : Fin 2)) = a (ix2 e (0 : Fin 1)) := by
  refine concatenate_pair_apply_left (1 : Fin 2) a b h (ix2 e (0 : Fin 2)) rfl (ix2 e (0 : Fin 1)) ?_
  intro b'
  match b' with
  | ⟨0, _⟩ => rfl
  | ⟨1, _⟩ => rfl

/-- Two one-column arrays laid side by side: column 1 is the second. -/
theorem concat_cols_read1 {n : Nat} (a b : IVec ⟨2, ![n, 1]⟩ 32)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, a⟩, ⟨⟨2, ![n, 1]⟩, b⟩] h (ix2 e (1 : Fin 2)) = b (ix2 e (0 : Fin 1)) := by
  refine concatenate_pair_apply_right (1 : Fin 2) a b h (ix2 e (1 : Fin 2)) rfl rfl (ix2 e (0 : Fin 1)) ?_ rfl
  intro b' hb'
  match b', hb' with
  | ⟨0, _⟩, _ => rfl
  | ⟨1, _⟩, hb' => exact absurd rfl hb'

end Cert.Lib.ScatterRead

end
-- ==== Proof.KHostW.lean ====
/-
  The host side of the kernel program: the three coalesced matrices.

  Before its first region the program turns each edge list (row words, column words, values) into a dense
  matrix: a zero matrix of the operand's extents, the two index lists each normalised on its axis (a negative
  word counts from the end) and laid side by side as (row, column) pairs, and one scatter-add of the values at
  those pairs — an edge whose pair leaves the matrix is dropped, edges that meet at one entry are summed. The
  narrowing of the result to the 16-bit format is the identity on extended reals.

  `dense_read` reads such a matrix at an entry, over variables: it is `Cert.Spec.denseM`, the sum of the
  values of the edges whose normalised row and column are the entry's. `v45_apply`, `v46_apply`, `v47_apply`
  are that reading for W (2048 × 4096, 83886 edges), R and P (4096 × 4096, 167772 edges) in the buffers the
  first region finds: the two later stretches of host operations leave these buffers alone, the first
  stretch's operations are read off one by one, and the argument buffers they start from are the launch
  memory's.
-/
import proofs.«402372_j14413910245943_3_alg».proof.Proof.Gen.KernelIdeal.Frame
import proofs.«402372_j14413910245943_3_alg».proof.Proof.Spec
import proofs.«402372_j14413910245943_3_alg».proof.Proof.LibScatterRead
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

namespace Cert.KernelIdeal.KHostW

open Idealize.ShloMosaic Idealize.ShloMosaic.TcCoe Idealize.ShloMosaic.ValueIdx
open Cert.KernelIdeal Cert.Spec Cert.Lib.ScatterRead

/-! ## One coalesced matrix read at a point, over variables -/

/-- A column of index words read at row `e`: the list's word at `e`. -/
theorem col_read {n : Nat} (hb : (⟨1, ![n]⟩ : Shape).BroadcastsInDim ⟨2, ![n, 1]⟩ (![0] : Fin 1 → Fin 2)) (x : IVec ⟨1, ![n]⟩ 32) (e : Fin n) :
    broadcastInDim ⟨2, ![n, 1]⟩ ![0] hb x (ix2 e (0 : Fin 1)) = x (ix1 e) := by
  refine broadcastInDim_apply _ hb x _ (ix1 e) fun a => ?_
  obtain rfl : a = 0 := Subsingleton.elim _ _
  show e.val = if n = 1 then 0 else e.val
  split_ifs with h
  · subst h; exact Fin.val_eq_zero e
  · rfl

/-- The scatter-add of an edge list's values into the zero matrix at the normalised (row, column) pairs, read at
    entry (k, c): the sum of the values of the edges that land there. -/
theorem dense_read {K C n : Nat} (d : ScatterDims ⟨2, ![K, C]⟩ ⟨2, ![n, 2]⟩ ⟨1, ![n]⟩)
    (h1 : d.updateWindowDims = []) (h2 : d.insertedWindowDims = [0, 1]) (h3 : d.scatterDimsToOperandDims = [0, 1]) (h4 : d.indexVectorDim = 1)
    (hz : (⟨0, ![]⟩ : Shape).BroadcastsInDim ⟨2, ![K, C]⟩ (![] : Fin 0 → Fin 2))
    (h0 : (⟨0, ![]⟩ : Shape).BroadcastsInDim ⟨1, ![n]⟩ (![] : Fin 0 → Fin 1))
    (hb : (⟨1, ![n]⟩ : Shape).BroadcastsInDim ⟨2, ![n, 1]⟩ (![0] : Fin 1 → Fin 2))
    (hc : Shape.Concatenates [(⟨2, ![n, 1]⟩ : Shape), ⟨2, ![n, 1]⟩] ⟨2, ![n, 2]⟩ 1)
    (hlt : FTy.bits .bf16 < FTy.bits .f32)
    (ridx cidx : I1 n) (v : A1 n) (k : Fin K) (c : Fin C) :
    (truncf .bf16 (Host.scatterAdd (F := Ideal) (φ := .f32) d
        (broadcastInDim ⟨2, ![K, C]⟩ ![] hz (constant (F := Ideal) ⟨0, ![]⟩ .f32 0x00000000#32))
        (concatenate ⟨2, ![n, 2]⟩ 1
          [⟨⟨2, ![n, 1]⟩, broadcastInDim ⟨2, ![n, 1]⟩ ![0] hb
              (select (cmpi .slt ridx (broadcastInDim ⟨1, ![n]⟩ ![] h0 (constantI ⟨0, ![]⟩ 32 0#32)))
                (addi ridx (broadcastInDim ⟨1, ![n]⟩ ![] h0 (constantI ⟨0, ![]⟩ 32 (BitVec.ofNat 32 K)))) ridx)⟩,
           ⟨⟨2, ![n, 1]⟩, broadcastInDim ⟨2, ![n, 1]⟩ ![0] hb
              (select (cmpi .slt cidx (broadcastInDim ⟨1, ![n]⟩ ![] h0 (constantI ⟨0, ![]⟩ 32 0#32)))
                (addi cidx (broadcastInDim ⟨1, ![n]⟩ ![] h0 (constantI ⟨0, ![]⟩ 32 (BitVec.ofNat 32 C)))) cidx)⟩] hc)
        v) hlt : FVec Ideal ⟨2, ![K, C]⟩ .bf16) (ix2 k c)
      = denseM K C ridx cidx v k c := by
  rw [truncf_apply, scatterAdd_point_read d h1 h2 h3 h4]
  have hx : broadcastInDim ⟨2, ![K, C]⟩ ![] hz (constant (F := Ideal) ⟨0, ![]⟩ .f32 0x00000000#32) (ix2 k c) = 0 :=
    Ideal.ofBits_zero_f32
  rw [hx, zero_add]
  unfold denseM
  refine Finset.sum_congr (Finset.filter_congr fun e _ => ?_) fun _ _ => rfl
  rw [concat_cols_read0, concat_cols_read1, col_read, col_read, norm_read, norm_read]
  exact Iff.rfl

/-! ## The three matrices in the buffers region 0 finds -/

variable (m : (ℓ : Loc nD τ sig) → Buf (Elt Ideal) ℓ) (ρ : Dev nD → PrngReg) (c : Dev nD)

/-- The two later stretches of host operations do not write this buffer. -/
theorem W3_v45 : Gen.W3 m ρ c (Proc.devRef .tc main_v45) = Gen.W1 m ρ c (Proc.devRef .tc main_v45) :=
  calc Gen.W3 m ρ c (Proc.devRef .tc main_v45)
    _ = Gen.W2 m ρ c (Proc.devRef .tc main_v45) := StableHlo.after_of_forall_not_mem (b := Proc.devRef .tc main_v45) _ _ (List.forall_iff_forall_mem.mp (by
          simp only [Gen.hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_v45) := StableHlo.after_of_forall_not_mem (b := Proc.devRef .tc main_v45) _ _ (List.forall_iff_forall_mem.mp (by
          simp only [Gen.hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 4000000 in
/-- What the first stretch leaves in the buffer: the edge list W coalesced, as the program spells it. -/
theorem W1_v45 : (Gen.W1 m ρ c (Proc.devRef .tc main_v45) : Vec Ideal S2048x4096 .bf16) =
    truncf .bf16 (Host.scatterAdd (F := Ideal) scatter_S2048x4096_S83886x2_S83886_n_01_01_1
        (broadcastInDim S2048x4096 ![] Gen.bcast_S_S2048x4096 (constant (F := Ideal) S_ .f32 0x00000000#32))
        (concatenate S83886x2 1
          [⟨S83886x1, broadcastInDim S83886x1 ![0] Gen.bcast_S83886_S83886x1_0
              (select (cmpi .slt (m ((c : Thread nD τ).loc main_arg12)) (broadcastInDim S83886 ![] Gen.bcast_S_S83886 (constantI S_ 32 0#32)))
                (addi (m ((c : Thread nD τ).loc main_arg12)) (broadcastInDim S83886 ![] Gen.bcast_S_S83886 (constantI S_ 32 2048#32)))
                (m ((c : Thread nD τ).loc main_arg12)))⟩,
           ⟨S83886x1, broadcastInDim S83886x1 ![0] Gen.bcast_S83886_S83886x1_0
              (select (cmpi .slt (m ((c : Thread nD τ).loc main_arg13)) (broadcastInDim S83886 ![] Gen.bcast_S_S83886 (constantI S_ 32 0#32)))
                (addi (m ((c : Thread nD τ).loc main_arg13)) (broadcastInDim S83886 ![] Gen.bcast_S_S83886 (constantI S_ 32 4096#32)))
                (m ((c : Thread nD τ).loc main_arg13)))⟩]
          Gen.concatenates_S83886x1_S83886x1_S83886x2_d1)
        (m ((c : Thread nD τ).loc main_arg3))) Gen.bitsLt_bf16_f32 := by
  show StableHlo.after Gen.hostOps0 (Gen.W0 m ρ c) (Proc.devRef .tc main_v45) = _
  dsimp only [Gen.hostOps0]
  after_results

/-- The matrix region 0 finds for W: entry (k, j) sums the values of W's edges at row k and column j. -/
theorem v45_apply (k : Fin 2048) (j : Fin 4096) :
    (Gen.V3 m ρ c main_v45 : Vec Ideal S2048x4096 .bf16) (ix2 k j)
      = denseM 2048 4096 (m ((c : Thread nD τ).loc main_arg12)) (m ((c : Thread nD τ).loc main_arg13)) (m ((c : Thread nD τ).loc main_arg3)) k j := by
  have e : (Gen.V3 m ρ c main_v45 : Vec Ideal S2048x4096 .bf16) = _ := (W3_v45 m ρ c).trans (W1_v45 m ρ c)
  rw [e]
  exact dense_read scatter_S2048x4096_S83886x2_S83886_n_01_01_1 rfl rfl rfl rfl _ _ _ _ _ _ _ _ k j

/-- The two later stretches of host operations do not write this buffer. -/
theorem W3_v46 : Gen.W3 m ρ c (Proc.devRef .tc main_v46) = Gen.W1 m ρ c (Proc.devRef .tc main_v46) :=
  calc Gen.W3 m ρ c (Proc.devRef .tc main_v46)
    _ = Gen.W2 m ρ c (Proc.devRef .tc main_v46) := StableHlo.after_of_forall_not_mem (b := Proc.devRef .tc main_v46) _ _ (List.forall_iff_forall_mem.mp (by
          simp only [Gen.hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_v46) := StableHlo.after_of_forall_not_mem (b := Proc.devRef .tc main_v46) _ _ (List.forall_iff_forall_mem.mp (by
          simp only [Gen.hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 4000000 in
/-- What the first stretch leaves in the buffer: the edge list R coalesced, as the program spells it. -/
theorem W1_v46 : (Gen.W1 m ρ c (Proc.devRef .tc main_v46) : Vec Ideal S4096x4096 .bf16) =
    truncf .bf16 (Host.scatterAdd (F := Ideal) scatter_S4096x4096_S167772x2_S167772_n_01_01_1
        (broadcastInDim S4096x4096 ![] Gen.bcast_S_S4096x4096 (constant (F := Ideal) S_ .f32 0x00000000#32))
        (concatenate S167772x2 1
          [⟨S167772x1, broadcastInDim S167772x1 ![0] Gen.bcast_S167772_S167772x1_0
              (select (cmpi .slt (m ((c : Thread nD τ).loc main_arg14)) (broadcastInDim S167772 ![] Gen.bcast_S_S167772 (constantI S_ 32 0#32)))
                (addi (m ((c : Thread nD τ).loc main_arg14)) (broadcastInDim S167772 ![] Gen.bcast_S_S167772 (constantI S_ 32 4096#32)))
                (m ((c : Thread nD τ).loc main_arg14)))⟩,
           ⟨S167772x1, broadcastInDim S167772x1 ![0] Gen.bcast_S167772_S167772x1_0
              (select (cmpi .slt (m ((c : Thread nD τ).loc main_arg15)) (broadcastInDim S167772 ![] Gen.bcast_S_S167772 (constantI S_ 32 0#32)))
                (addi (m ((c : Thread nD τ).loc main_arg15)) (broadcastInDim S167772 ![] Gen.bcast_S_S167772 (constantI S_ 32 4096#32)))
                (m ((c : Thread nD τ).loc main_arg15)))⟩]
          Gen.concatenates_S167772x1_S167772x1_S167772x2_d1)
        (m ((c : Thread nD τ).loc main_arg5))) Gen.bitsLt_bf16_f32 := by
  show StableHlo.after Gen.hostOps0 (Gen.W0 m ρ c) (Proc.devRef .tc main_v46) = _
  dsimp only [Gen.hostOps0]
  after_results

/-- The matrix region 0 finds for R: entry (k, j) sums the values of R's edges at row k and column j. -/
theorem v46_apply (k : Fin 4096) (j : Fin 4096) :
    (Gen.V3 m ρ c main_v46 : Vec Ideal S4096x4096 .bf16) (ix2 k j)
      = denseM 4096 4096 (m ((c : Thread nD τ).loc main_arg14)) (m ((c : Thread nD τ).loc main_arg15)) (m ((c : Thread nD τ).loc main_arg5)) k j := by
  have e : (Gen.V3 m ρ c main_v46 : Vec Ideal S4096x4096 .bf16) = _ := (W3_v46 m ρ c).trans (W1_v46 m ρ c)
  rw [e]
  exact dense_read scatter_S4096x4096_S167772x2_S167772_n_01_01_1 rfl rfl rfl rfl _ _ _ _ _ _ _ _ k j

/-- The two later stretches of host operations do not write this buffer. -/
theorem W3_v47 : Gen.W3 m ρ c (Proc.devRef .tc main_v47) = Gen.W1 m ρ c (Proc.devRef .tc main_v47) :=
  calc Gen.W3 m ρ c (Proc.devRef .tc main_v47)
    _ = Gen.W2 m ρ c (Proc.devRef .tc main_v47) := StableHlo.after_of_forall_not_mem (b := Proc.devRef .tc main_v47) _ _ (List.forall_iff_forall_mem.mp (by
          simp only [Gen.hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_v47) := StableHlo.after_of_forall_not_mem (b := Proc.devRef .tc main_v47) _ _ (List.forall_iff_forall_mem.mp (by
          simp only [Gen.hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 4000000 in
/-- What the first stretch leaves in the buffer: the edge list P coalesced, as the program spells it. -/
theorem W1_v47 : (Gen.W1 m ρ c (Proc.devRef .tc main_v47) : Vec Ideal S4096x4096 .bf16) =
    truncf .bf16 (Host.scatterAdd (F := Ideal) scatter_S4096x4096_S167772x2_S167772_n_01_01_1
        (broadcastInDim S4096x4096 ![] Gen.bcast_S_S4096x4096 (constant (F := Ideal) S_ .f32 0x00000000#32))
        (concatenate S167772x2 1
          [⟨S167772x1, broadcastInDim S167772x1 ![0] Gen.bcast_S167772_S167772x1_0
              (select (cmpi .slt (m ((c : Thread nD τ).loc main_arg16)) (broadcastInDim S167772 ![] Gen.bcast_S_S167772 (constantI S_ 32 0#32)))
                (addi (m ((c : Thread nD τ).loc main_arg16)) (broadcastInDim S167772 ![] Gen.bcast_S_S167772 (constantI S_ 32 4096#32)))
                (m ((c : Thread nD τ).loc main_arg16)))⟩,
           ⟨S167772x1, broadcastInDim S167772x1 ![0] Gen.bcast_S167772_S167772x1_0
              (select (cmpi .slt (m ((c : Thread nD τ).loc main_arg17)) (broadcastInDim S167772 ![] Gen.bcast_S_S167772 (constantI S_ 32 0#32)))
                (addi (m ((c : Thread nD τ).loc main_arg17)) (broadcastInDim S167772 ![] Gen.bcast_S_S167772 (constantI S_ 32 4096#32)))
                (m ((c : Thread nD τ).loc main_arg17)))⟩]
          Gen.concatenates_S167772x1_S167772x1_S167772x2_d1)
        (m ((c : Thread nD τ).loc main_arg7))) Gen.bitsLt_bf16_f32 := by
  show StableHlo.after Gen.hostOps0 (Gen.W0 m ρ c) (Proc.devRef .tc main_v47) = _
  dsimp only [Gen.hostOps0]
  after_results

/-- The matrix region 0 finds for P: entry (k, j) sums the values of P's edges at row k and column j. -/
theorem v47_apply (k : Fin 4096) (j : Fin 4096) :
    (Gen.V3 m ρ c main_v47 : Vec Ideal S4096x4096 .bf16) (ix2 k j)
      = denseM 4096 4096 (m ((c : Thread nD τ).loc main_arg16)) (m ((c : Thread nD τ).loc main_arg17)) (m ((c : Thread nD τ).loc main_arg7)) k j := by
  have e : (Gen.V3 m ρ c main_v47 : Vec Ideal S4096x4096 .bf16) = _ := (W3_v47 m ρ c).trans (W1_v47 m ρ c)
  rw [e]
  exact dense_read scatter_S4096x4096_S167772x2_S167772_n_01_01_1 rfl rfl rfl rfl _ _ _ _ _ _ _ _ k j

end Cert.KernelIdeal.KHostW
end
-- ==== Proof.KHostE.lean ====
/-
  The 0/1 expand matrix the host builds before the first region: a [64, 4096] array whose entry (i, j) is 1 when
  column j belongs to group i — j / 64 = i — and 0 otherwise.

  The program builds it from two position vectors. The rows' positions 0 … 63 are laid along the first axis. The
  columns' positions 0 … 4095 are first divided by 64 with the floor-division sequence (the quotient rounded toward
  zero, lowered by one when dividend and divisor differ in sign and the remainder is not zero), then laid along the
  second axis. The two rectangles are compared for equality and the resulting bit is read as a number.

  * `Words`: the arithmetic on 32-bit words, free of any program. For 0 ≤ j < 4096 the correction of the
    floor-division sequence never fires (a zero dividend has remainder zero; a positive one has the divisor's sign), so
    the sequence yields the word of j / 64; two words below 2³² are equal exactly when the numbers are; a bit read
    unsigned is 1 or 0.
  * The reads: what each stretch of host operations leaves in the buffers of interest, stated over an arbitrary
    valuation at the stretch's entry so that the fold through the earlier stretches stays closed.
  * `v69_apply`: the entry of the matrix as the first region finds it.
-/
import proofs.«402372_j14413910245943_3_alg».proof.Proof.Gen.KernelIdeal.Frame
import proofs.«402372_j14413910245943_3_alg».proof.Proof.Spec
import Idealize.ShloMosaic.PureOps.Vector
import Idealize.ShloMosaic.PureOps.Ideal
import Idealize.ShloMosaic.Lib.StableHlo.Run
import Idealize.ShloMosaic.Lib.StableHlo.Predicate
import Idealize.ShloMosaic.Lib.ValueIdx

set_option maxRecDepth 16384

noncomputable section

/-! ## Words -/

namespace Cert.KernelIdeal.KHostE.Words

open Idealize.ShloMosaic Idealize.ShloMosaic.ValueIdx Idealize.ShloMosaic.StableHlo.Predicate

/-- The sign word of a 32-bit word: 0, 1 or -1. -/
def sgn (x : BitVec 32) : BitVec 32 := if x = 0 then 0 else if x.msb then -1 else 1

theorem toNat_small (j : Nat) (hj : j < 4096) : (BitVec.ofNat 32 j).toNat = j := by
  simp only [BitVec.toNat_ofNat]; omega

theorem msb_small (j : Nat) (hj : j < 4096) : (BitVec.ofNat 32 j).msb = false :=
  BitVec.msb_eq_false_iff_two_mul_lt.mpr (by rw [toNat_small j hj]; omega)

theorem not_corner (x : BitVec 32) : ¬ IntOp.SDivCorner x 64#32 := by
  intro hc; rcases hc with hc | ⟨_, hc⟩ <;> exact absurd hc (by decide)

/-- Signed division of a small non-negative word by 64 is the division of the numbers. -/
theorem divsi_64 (j : Nat) (hj : j < 4096) :
    IntOp.divsi .host (BitVec.ofNat 32 j) 64#32 = BitVec.ofNat 32 (j / 64) := by
  simp only [IntOp.divsi, if_neg (not_corner _), BitVec.sdiv_eq, msb_small j hj,
    show (64#32 : BitVec 32).msb = false from by decide]
  apply BitVec.eq_of_toNat_eq
  simp only [BitVec.udiv_eq, BitVec.toNat_udiv, BitVec.toNat_ofNat, Nat.reducePow, Nat.reduceMod]
  omega

/-- The signed remainder of a small non-negative word by 64 is the remainder of the numbers. -/
theorem remsi_64 (j : Nat) (hj : j < 4096) :
    IntOp.remsi .host (BitVec.ofNat 32 j) 64#32 = BitVec.ofNat 32 (j % 64) := by
  simp only [IntOp.remsi, if_neg (not_corner _), BitVec.srem_eq, msb_small j hj,
    show (64#32 : BitVec 32).msb = false from by decide]
  apply BitVec.eq_of_toNat_eq
  simp only [BitVec.umod_eq, BitVec.toNat_umod, BitVec.toNat_ofNat, Nat.reducePow, Nat.reduceMod]
  omega

theorem sgn_64 : sgn 64#32 = 1#32 := by decide

theorem sgn_small (j : Nat) (hj : j < 4096) : sgn (BitVec.ofNat 32 j) = if j = 0 then 0#32 else 1#32 := by
  unfold sgn
  by_cases h0 : j = 0
  · subst h0; rfl
  · have hne : BitVec.ofNat 32 j ≠ 0 := by
      intro e
      have := congrArg BitVec.toNat e
      rw [toNat_small j hj] at this
      exact h0 (by simpa using this)
    rw [if_neg hne, msb_small j hj, if_neg h0]; rfl

/-- The floor-division sequence on a small non-negative word and the divisor 64: the quotient rounded toward zero,
    lowered by one when the signs differ and the remainder is not zero. Neither happens together here (a zero
    dividend has remainder zero; a positive one has the divisor's sign), so the result is the quotient of the numbers. -/
theorem floordiv_64 (j : Nat) (hj : j < 4096) :
    Scalar.select
      (IntOp.andi (IntOp.cmpi .ne (sgn (BitVec.ofNat 32 j)) (sgn 64#32))
        (IntOp.cmpi .ne (IntOp.remsi .host (BitVec.ofNat 32 j) 64#32) 0#32))
      (IntOp.subi (IntOp.divsi .host (BitVec.ofNat 32 j) 64#32) 1#32)
      (IntOp.divsi .host (BitVec.ofNat 32 j) 64#32)
      = BitVec.ofNat 32 (j / 64) := by
  have hc : IntOp.andi (IntOp.cmpi .ne (sgn (BitVec.ofNat 32 j)) (sgn 64#32))
      (IntOp.cmpi .ne (IntOp.remsi .host (BitVec.ofNat 32 j) 64#32) 0#32) = 0#1 := by
    rw [sgn_64, sgn_small j hj, remsi_64 j hj]
    by_cases h0 : j = 0
    · subst h0; decide
    · rw [if_neg h0]
      show (BitVec.ofBool ((1#32 : BitVec 32) != 1#32)) &&& _ = 0#1
      simp
  rw [hc, ValueIdx.select_zero, divsi_64 j hj]

/-- Equality of two small words is equality of the numbers. -/
theorem cmpi_eq_small (a b : Nat) (ha : a < 2 ^ 32) (hb : b < 2 ^ 32) :
    IntOp.cmpi .eq (BitVec.ofNat 32 a) (BitVec.ofNat 32 b) = if a = b then 1#1 else 0#1 := by
  by_cases h : a = b
  · subst h; rw [if_pos rfl]; exact StableHlo.Predicate.cmpi_eq_iff.mpr rfl
  · rw [if_neg h]
    have hne : ¬ IntOp.cmpi .eq (BitVec.ofNat 32 a) (BitVec.ofNat 32 b) = 1#1 := fun e => by
      have := congrArg BitVec.toNat (StableHlo.Predicate.cmpi_eq_iff.mp e)
      simp only [BitVec.toNat_ofNat] at this
      omega
    exact ValueIdx.eq_zero_of_ne_one hne

/-- A 1-bit word read unsigned as an extended real is 1 or 0. -/
theorem uitofp_ite (p : Prop) [Decidable p] (φ : FTy) :
    (FloatOps.uitofp (F := Ideal) φ (if p then 1#1 else 0#1) : EReal) = if p then 1 else 0 := by
  split <;> simp [FloatOps.uitofp]

/-- The two spellings of a rank-2 index from its coordinates agree. -/
theorem ix2_eq_ij {n k : Nat} (p : Fin n) (q : Fin k) : ix2 p q = ij p q := by
  funext b; match b with | ⟨0, _⟩ => rfl | ⟨1, _⟩ => rfl

/-- The floor-division sequence over the vector of positions 0 … 4095 and the scalar 64, read at position `q`:
    the quotient `q / 64`. -/
theorem fdiv_point (h5 : (⟨0, ![]⟩ : Shape).BroadcastsInDim ⟨1, ![4096]⟩ ![]) (q : Fin 4096) :
    (select
      (andi
        (cmpi .ne (signi (iotaInDim ⟨1, ![4096]⟩ 32 0))
          (broadcastInDim ⟨1, ![4096]⟩ ![] h5 (signi (constantI ⟨0, ![]⟩ 32 64#32))))
        (cmpi .ne
          (Host.remsi (iotaInDim ⟨1, ![4096]⟩ 32 0) (broadcastInDim ⟨1, ![4096]⟩ ![] h5 (constantI ⟨0, ![]⟩ 32 64#32)))
          (broadcastInDim ⟨1, ![4096]⟩ ![] h5 (constantI ⟨0, ![]⟩ 32 0#32))))
      (subi
        (Host.divsi (iotaInDim ⟨1, ![4096]⟩ 32 0) (broadcastInDim ⟨1, ![4096]⟩ ![] h5 (constantI ⟨0, ![]⟩ 32 64#32)))
        (broadcastInDim ⟨1, ![4096]⟩ ![] h5 (constantI ⟨0, ![]⟩ 32 1#32)))
      (Host.divsi (iotaInDim ⟨1, ![4096]⟩ 32 0) (broadcastInDim ⟨1, ![4096]⟩ ![] h5 (constantI ⟨0, ![]⟩ 32 64#32)))
        : IVec ⟨1, ![4096]⟩ 32) (Shape.Idx.ofFin q)
      = BitVec.ofNat 32 (q.val / 64) :=
  floordiv_64 q.val q.isLt

/-- THE EXPAND ENTRY. Row `i`, column `j` of "row index = column's group", read unsigned as a real: 1 when `j / 64 = i`,
    else 0 — for any vector `x` of groups with `x q = q / 64`. -/
theorem E_point (h1 : (⟨1, ![64]⟩ : Shape).BroadcastsInDim ⟨2, ![64, 1]⟩ ![0])
    (h2 : (⟨2, ![64, 1]⟩ : Shape).BroadcastsInDim ⟨2, ![64, 4096]⟩ ![0, 1])
    (h3 : (⟨1, ![4096]⟩ : Shape).BroadcastsInDim ⟨2, ![1, 4096]⟩ ![1])
    (h4 : (⟨2, ![1, 4096]⟩ : Shape).BroadcastsInDim ⟨2, ![64, 4096]⟩ ![0, 1])
    (x : IVec ⟨1, ![4096]⟩ 32) (hx : ∀ q : Fin 4096, x (Shape.Idx.ofFin q) = BitVec.ofNat 32 (q.val / 64))
    (i : Fin 64) (j : Fin 4096) :
    (uitofp (F := Ideal) .bf16 (cmpi .eq
        (broadcastInDim ⟨2, ![64, 4096]⟩ ![0, 1] h2 (broadcastInDim ⟨2, ![64, 1]⟩ ![0] h1 (iotaInDim ⟨1, ![64]⟩ 32 0)))
        (broadcastInDim ⟨2, ![64, 4096]⟩ ![0, 1] h4 (broadcastInDim ⟨2, ![1, 4096]⟩ ![1] h3 x)))
        : FVec Ideal ⟨2, ![64, 4096]⟩ .bf16) (ix2 i j)
      = if j.val / 64 = i.val then (1 : EReal) else 0 := by
  rw [ix2_eq_ij]
  show FloatOps.uitofp (F := Ideal) .bf16 (IntOp.cmpi .eq
      (broadcastInDim ⟨2, ![64, 4096]⟩ ![0, 1] h2 (broadcastInDim ⟨2, ![64, 1]⟩ ![0] h1 (iotaInDim ⟨1, ![64]⟩ 32 0)) (ij i j))
      (broadcastInDim ⟨2, ![64, 4096]⟩ ![0, 1] h4 (broadcastInDim ⟨2, ![1, 4096]⟩ ![1] h3 x) (ij i j))) = _
  have hi := i.isLt
  have hj := j.isLt
  rw [bcast_rows h1 h2, bcast_cols h3 h4, hx, iota_apply, cmpi_eq_small _ _ (by omega) (by omega), uitofp_ite]
  by_cases h : j.val / 64 = i.val
  · rw [if_pos h, if_pos h.symm]
  · rw [if_neg h, if_neg (fun e => h e.symm)]

end Cert.KernelIdeal.KHostE.Words

/-! ## The reads -/

namespace Cert.KernelIdeal.KHostE

open Idealize.ShloMosaic Idealize.ShloMosaic.ValueIdx
open Cert.KernelIdeal Cert.KernelIdeal.Facts₀ Cert.KernelIdeal.Facts
open Idealize.ShloMosaic.StableHlo

section Stretches

variable (V : Valuation τ sig (Elt Ideal))

/-- After the first stretch the rows' positions stand as a [64, 1] column. -/
theorem after0_v62 :
    (StableHlo.after Gen.hostOps0 V (Proc.devRef .tc main_v62) : IVec S64x1 32)
      = (broadcastInDim S64x1 ![0] bcast_S64_S64x1_0 (iotaInDim S64 32 0) : IVec S64x1 32) := by
  dsimp only [Gen.hostOps0]
  after_results

/-- After the first stretch the columns' positions 0 … 4095. -/
theorem after0_v63 :
    (StableHlo.after Gen.hostOps0 V (Proc.devRef .tc main_v63) : IVec S4096 32) = (iotaInDim S4096 32 0 : IVec S4096 32) := by
  dsimp only [Gen.hostOps0]
  after_results

/-- After the first stretch the divisor 64. -/
theorem after0_c15 :
    (StableHlo.after Gen.hostOps0 V (Proc.devRef .tc main_c_15) : IVec S_ 32) = (constantI S_ 32 64#32 : IVec S_ 32) := by
  dsimp only [Gen.hostOps0]
  after_results

/-- The second stretch — the floor division — does not touch the rows' column. -/
theorem after1_v62 :
    StableHlo.after Gen.hostOps0_1 V (Proc.devRef .tc main_v62) = V (Proc.devRef .tc main_v62) :=
  StableHlo.after_of_forall_not_mem (b := Proc.devRef .tc main_v62) _ _ (List.forall_iff_forall_mem.mp (by
    simp only [Gen.hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- The second stretch leaves the floor-division sequence of the positions by the divisor. -/
theorem after1_v64 :
    (StableHlo.after Gen.hostOps0_1 V (Proc.devRef .tc main_v64) : IVec S4096 32)
      = (select
          (andi
            (cmpi .ne (signi (V (Proc.devRef .tc main_v63) : IVec S4096 32))
              (broadcastInDim S4096 ![] bcast_S_S4096 (signi (V (Proc.devRef .tc main_c_15) : IVec S_ 32))))
            (cmpi .ne
              (Host.remsi (V (Proc.devRef .tc main_v63) : IVec S4096 32) (broadcastInDim S4096 ![] bcast_S_S4096 (V (Proc.devRef .tc main_c_15) : IVec S_ 32)))
              (broadcastInDim S4096 ![] bcast_S_S4096 (constantI S_ 32 0#32))))
          (subi
            (Host.divsi (V (Proc.devRef .tc main_v63) : IVec S4096 32) (broadcastInDim S4096 ![] bcast_S_S4096 (V (Proc.devRef .tc main_c_15) : IVec S_ 32)))
            (broadcastInDim S4096 ![] bcast_S_S4096 (constantI S_ 32 1#32)))
          (Host.divsi (V (Proc.devRef .tc main_v63) : IVec S4096 32) (broadcastInDim S4096 ![] bcast_S_S4096 (V (Proc.devRef .tc main_c_15) : IVec S_ 32))) : IVec S4096 32) := by
  dsimp only [Gen.hostOps0_1]
  after_results_simp
  rfl

/-- The third stretch lays both vectors over the [64, 4096] rectangle, compares, and reads the bit as a number. -/
theorem after2_v69 :
    (StableHlo.after Gen.hostOps0_2 V (Proc.devRef .tc main_v69) : Vec Ideal S64x4096 .bf16)
      = (uitofp (F := Ideal) .bf16 (cmpi .eq
          (broadcastInDim S64x4096 ![0, 1] bcast_S64x1_S64x4096_0_1 (V (Proc.devRef .tc main_v62) : IVec S64x1 32))
          (broadcastInDim S64x4096 ![0, 1] bcast_S1x4096_S64x4096_0_1
            (broadcastInDim S1x4096 ![1] bcast_S4096_S1x4096_1 (V (Proc.devRef .tc main_v64) : IVec S4096 32)))) : Vec Ideal S64x4096 .bf16) := by
  dsimp only [Gen.hostOps0_2]
  after_results

end Stretches

variable (m : (ℓ : Loc nD τ sig) → Buf (Elt Ideal) ℓ) (ρ : Dev nD → PrngReg)

/-- The matrix as the first region finds it, as one term over positions. -/
theorem V3_v69 (c : Dev nD) :
    (Gen.V3 m ρ c main_v69 : Vec Ideal S64x4096 .bf16)
      = (uitofp (F := Ideal) .bf16 (cmpi .eq
          (broadcastInDim S64x4096 ![0, 1] bcast_S64x1_S64x4096_0_1
            (broadcastInDim S64x1 ![0] bcast_S64_S64x1_0 (iotaInDim S64 32 0) : IVec S64x1 32))
          (broadcastInDim S64x4096 ![0, 1] bcast_S1x4096_S64x4096_0_1
            (broadcastInDim S1x4096 ![1] bcast_S4096_S1x4096_1
              (select
          (andi
            (cmpi .ne (signi (iotaInDim S4096 32 0 : IVec S4096 32))
              (broadcastInDim S4096 ![] bcast_S_S4096 (signi (constantI S_ 32 64#32 : IVec S_ 32))))
            (cmpi .ne
              (Host.remsi (iotaInDim S4096 32 0 : IVec S4096 32) (broadcastInDim S4096 ![] bcast_S_S4096 (constantI S_ 32 64#32 : IVec S_ 32)))
              (broadcastInDim S4096 ![] bcast_S_S4096 (constantI S_ 32 0#32))))
          (subi
            (Host.divsi (iotaInDim S4096 32 0 : IVec S4096 32) (broadcastInDim S4096 ![] bcast_S_S4096 (constantI S_ 32 64#32 : IVec S_ 32)))
            (broadcastInDim S4096 ![] bcast_S_S4096 (constantI S_ 32 1#32)))
          (Host.divsi (iotaInDim S4096 32 0 : IVec S4096 32) (broadcastInDim S4096 ![] bcast_S_S4096 (constantI S_ 32 64#32 : IVec S_ 32))) : IVec S4096 32)))) : Vec Ideal S64x4096 .bf16) := by
  show (StableHlo.after Gen.hostOps0_2 (Gen.W2 m ρ c) (Proc.devRef .tc main_v69) : Vec Ideal S64x4096 .bf16) = _
  rw [after2_v69]
  show (uitofp (F := Ideal) .bf16 (cmpi .eq
          (broadcastInDim S64x4096 ![0, 1] bcast_S64x1_S64x4096_0_1
            (StableHlo.after Gen.hostOps0_1 (Gen.W1 m ρ c) (Proc.devRef .tc main_v62) : IVec S64x1 32))
          (broadcastInDim S64x4096 ![0, 1] bcast_S1x4096_S64x4096_0_1
            (broadcastInDim S1x4096 ![1] bcast_S4096_S1x4096_1
              (StableHlo.after Gen.hostOps0_1 (Gen.W1 m ρ c) (Proc.devRef .tc main_v64) : IVec S4096 32)))) : Vec Ideal S64x4096 .bf16) = _
  rw [after1_v62, after1_v64]
  show (uitofp (F := Ideal) .bf16 (cmpi .eq
          (broadcastInDim S64x4096 ![0, 1] bcast_S64x1_S64x4096_0_1
            (StableHlo.after Gen.hostOps0 (Gen.W0 m ρ c) (Proc.devRef .tc main_v62) : IVec S64x1 32))
          (broadcastInDim S64x4096 ![0, 1] bcast_S1x4096_S64x4096_0_1
            (broadcastInDim S1x4096 ![1] bcast_S4096_S1x4096_1
              (select
          (andi
            (cmpi .ne (signi (StableHlo.after Gen.hostOps0 (Gen.W0 m ρ c) (Proc.devRef .tc main_v63) : IVec S4096 32))
              (broadcastInDim S4096 ![] bcast_S_S4096 (signi (StableHlo.after Gen.hostOps0 (Gen.W0 m ρ c) (Proc.devRef .tc main_c_15) : IVec S_ 32))))
            (cmpi .ne
              (Host.remsi (StableHlo.after Gen.hostOps0 (Gen.W0 m ρ c) (Proc.devRef .tc main_v63) : IVec S4096 32) (broadcastInDim S4096 ![] bcast_S_S4096 (StableHlo.after Gen.hostOps0 (Gen.W0 m ρ c) (Proc.devRef .tc main_c_15) : IVec S_ 32)))
              (broadcastInDim S4096 ![] bcast_S_S4096 (constantI S_ 32 0#32))))
          (subi
            (Host.divsi (StableHlo.after Gen.hostOps0 (Gen.W0 m ρ c) (Proc.devRef .tc main_v63) : IVec S4096 32) (broadcastInDim S4096 ![] bcast_S_S4096 (StableHlo.after Gen.hostOps0 (Gen.W0 m ρ c) (Proc.devRef .tc main_c_15) : IVec S_ 32)))
            (broadcastInDim S4096 ![] bcast_S_S4096 (constantI S_ 32 1#32)))
          (Host.divsi (StableHlo.after Gen.hostOps0 (Gen.W0 m ρ c) (Proc.devRef .tc main_v63) : IVec S4096 32) (broadcastInDim S4096 ![] bcast_S_S4096 (StableHlo.after Gen.hostOps0 (Gen.W0 m ρ c) (Proc.devRef .tc main_c_15) : IVec S_ 32))) : IVec S4096 32)))) : Vec Ideal S64x4096 .bf16) = _
  rw [after0_v62, after0_v63, after0_c15]

/-- THE EXPAND MATRIX, entry by entry: 1 where column `j` lies in group `i`, else 0. -/
theorem v69_apply (c : Dev nD) (i : Fin 64) (j : Fin 4096) :
    (Gen.V3 m ρ c main_v69 : Vec Ideal S64x4096 .bf16) (ix2 i j) = if j.val / 64 = i.val then (1 : EReal) else 0 :=
  (congrFun (V3_v69 m ρ c) (ix2 i j)).trans
    (Words.E_point bcast_S64_S64x1_0 bcast_S64x1_S64x4096_0_1 bcast_S4096_S1x4096_1 bcast_S1x4096_S64x4096_0_1 _
      (fun q => Words.fdiv_point bcast_S_S4096 q) i j)

end Cert.KernelIdeal.KHostE

end
-- ==== Proof.LibSparseSum.lean ====
/-
  Sums over edge lists, and reality of the entries.

  * With every row word already inside its axis, reading the word is the identity and so is the clamp, so
    each edge sits in exactly one row; with real (finite) operands a real factor distributes over a finite
    sum of reals, and the double sum over rows and over the edges at (row, column) regroups into the single
    sum over the edges of the column. Hence the dense form of the product equals the edge form.
  * A sum against a one-hot vector picks out one entry (on the extended reals too: x · 0 = 0, x · 1 = x).
  * The hyperbolic tangent is real at every extended real, so an entry of the update is real as soon as
    the previous state, the gate and the step are.
-/
import proofs.«402372_j14413910245943_3_alg».proof.Proof.Spec
import Mathlib.Algebra.BigOperators.Group.Finset.Basic
import Mathlib.Data.EReal.Operations

noncomputable section

namespace Cert.Spec

open Idealize.ShloMosaic Idealize.ShloMosaic.ValueIdx

/-! ### Real sums inside the extended reals -/

/-- The embedding of the reals commutes with finite sums. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is real. -/
theorem finsum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finsum]; exact Finset.sum_congr rfl (fun i _ => hg i)⟩

/-- A real factor distributes over a finite sum of real entries. (On the extended reals this needs the
    finiteness: ⊤ * (1 + -1) = 0 while ⊤ * 1 + ⊤ * -1 = ⊥.) -/
theorem real_mul_finsum {ι : Type} (s : Finset ι) (a : EReal) (f : ι → EReal)
    (ha : ∃ r : ℝ, a = (r : EReal)) (hf : ∀ i, ∃ r : ℝ, f i = (r : EReal)) :
    a * ∑ i ∈ s, f i = ∑ i ∈ s, a * f i := by
  obtain ⟨r, rfl⟩ := ha
  choose g hg using hf
  have h1 : ∑ i ∈ s, f i = ((∑ i ∈ s, g i : ℝ) : EReal) := by
    rw [coe_finsum]; exact Finset.sum_congr rfl (fun i _ => hg i)
  have h2 : ∑ i ∈ s, (r : EReal) * f i = ((∑ i ∈ s, r * g i : ℝ) : EReal) := by
    rw [coe_finsum]; exact Finset.sum_congr rfl (fun i _ => by rw [hg i, EReal.coe_mul])
  rw [h1, h2, ← EReal.coe_mul, Finset.mul_sum]

/-! ### A row word inside its axis -/

/-- A non-negative row word reads as itself. -/
theorem edgeZ_of_inrange {n : Nat} (K : Nat) (ridx : I1 n) (e : Fin n)
    (h0 : 0 ≤ (ridx (ix1 e)).toInt) : edgeZ K ridx e = (ridx (ix1 e)).toInt := by
  unfold edgeZ norm
  have : ¬ (ridx (ix1 e)).slt 0#32 = true := by
    rw [BitVec.slt_iff_toInt_lt, BitVec.toInt_zero]; omega
  rw [if_neg this]

/-- A row word in [0, K) is its own clamp. -/
theorem edgeClamp_of_inrange {n : Nat} (K : Nat) (hK : 0 < K) (ridx : I1 n) (e : Fin n)
    (h0 : 0 ≤ (ridx (ix1 e)).toInt) (h1 : (ridx (ix1 e)).toInt < (K : ℤ)) :
    edgeZ K ridx e = ((edgeClamp K hK ridx e).val : ℤ) := by
  have hz := edgeZ_of_inrange K ridx e h0
  unfold edgeClamp
  simp only
  omega

/-! ### The dense form equals the edge form -/

theorem sparseD_eq_sparseE {B K n : Nat} (C : Nat) (hK : 0 < K) (hK31 : K < 2 ^ 31)
    (X : Fin B → Fin K → EReal) (ridx cidx : I1 n) (v : A1 n)
    (hX : ∀ b k, ∃ r : ℝ, X b k = (r : EReal)) (hv : ∀ i, ∃ r : ℝ, v i = (r : EReal))
    (hr : ∀ e : Fin n, 0 ≤ (ridx (ix1 e)).toInt ∧ (ridx (ix1 e)).toInt < (K : ℤ))
    (b : Fin B) (c : Fin C) :
    sparseD C X ridx cidx v b c = sparseE C hK X ridx cidx v b c := by
  classical
  unfold sparseD sparseE denseM
  -- the edges at (k, c) are the edges of column c whose clamped row is k
  have hS : ∀ k : Fin K,
      Finset.univ.filter (fun e : Fin n => edgeZ K ridx e = (k.val : ℤ) ∧ edgeZ C cidx e = (c.val : ℤ))
        = (Finset.univ.filter (fun e : Fin n => edgeZ C cidx e = (c.val : ℤ))).filter
            (fun e => edgeClamp K hK ridx e = k) := by
    intro k
    ext e
    have hc := edgeClamp_of_inrange K hK ridx e (hr e).1 (hr e).2
    simp only [Finset.mem_filter, Finset.mem_univ, true_and]
    constructor
    · rintro ⟨h1, h2⟩
      refine ⟨h2, Fin.ext ?_⟩
      rw [hc] at h1
      exact_mod_cast h1
    · rintro ⟨h2, h1⟩
      refine ⟨?_, h2⟩
      rw [hc, h1]
  -- a real factor goes inside each inner sum
  have hk : ∀ k : Fin K,
      X b k * ∑ e ∈ Finset.univ.filter
          (fun e : Fin n => edgeZ K ridx e = (k.val : ℤ) ∧ edgeZ C cidx e = (c.val : ℤ)), v (ix1 e)
        = ∑ e ∈ (Finset.univ.filter (fun e : Fin n => edgeZ C cidx e = (c.val : ℤ))).filter
            (fun e => edgeClamp K hK ridx e = k), X b (edgeClamp K hK ridx e) * v (ix1 e) := by
    intro k
    rw [hS k, real_mul_finsum _ _ _ (hX b k) (fun e => hv (ix1 e))]
    refine Finset.sum_congr rfl (fun e he => ?_)
    rw [(Finset.mem_filter.mp he).2]
  rw [Finset.sum_congr rfl (fun k _ => hk k)]
  exact Finset.sum_fiberwise _ _ _

/-! ### A one-hot sum -/

theorem onehot_sum {m : Nat} (f E : Fin m → EReal) (i0 : Fin m)
    (hE : ∀ i, E i = if i = i0 then 1 else 0) : ∑ i, f i * E i = f i0 := by
  have : ∀ i, f i * E i = if i = i0 then f i else 0 := by
    intro i
    rw [hE i]
    split <;> simp
  rw [Finset.sum_congr rfl (fun i _ => this i), Finset.sum_ite_eq' Finset.univ i0 f]
  simp

/-! ### Real entries -/

/-- The hyperbolic tangent is real at every extended real. -/
theorem tanh_real (y : EReal) : ∃ t : ℝ, Ideal.tanh y = (t : EReal) := by
  induction y using EReal.rec with
  | bot => exact ⟨-1, by show (-1 : EReal) = ((-1 : ℝ) : EReal); rw [EReal.coe_neg, EReal.coe_one]⟩
  | coe r => exact ⟨Real.tanh r, rfl⟩
  | top => exact ⟨1, by show (1 : EReal) = ((1 : ℝ) : EReal); rw [EReal.coe_one]⟩

theorem cell_real (hp g dt : ℝ) (sw wb mask sr rb : EReal) :
    ∃ r : ℝ, cell (hp : EReal) (g : EReal) sw wb mask sr rb (dt : EReal) = (r : EReal) := by
  obtain ⟨t, ht⟩ := tanh_real ((sw + wb) * mask + (sr + rb))
  refine ⟨hp + (g * (t - hp)) * dt, ?_⟩
  unfold cell
  rw [ht]
  norm_cast

theorem sparseE_real {B K n : Nat} (C : Nat) (hK : 0 < K) (X : Fin B → Fin K → EReal)
    (ridx cidx : I1 n) (v : A1 n)
    (hX : ∀ b k, ∃ r : ℝ, X b k = (r : EReal)) (hv : ∀ i, ∃ r : ℝ, v i = (r : EReal))
    (b : Fin B) (c : Fin C) : ∃ r : ℝ, sparseE C hK X ridx cidx v b c = (r : EReal) := by
  unfold sparseE
  refine finsum_real _ _ (fun e => ?_)
  obtain ⟨x, hx⟩ := hX b (edgeClamp K hK ridx e)
  obtain ⟨w, hw⟩ := hv (ix1 e)
  exact ⟨x * w, by rw [hx, hw, EReal.coe_mul]⟩

end Cert.Spec

end
-- ==== Proof.Bridge.lean ====
/-
  The two programs' results as entrywise formulas over the shared definitions, and the bridge between
  them.

  The edge form (hnewE, predE) computes every sparse product edge by edge and reads the mask entry
  directly; the dense form (hnewD, predD) multiplies with the coalesced matrices and rebuilds the mask
  entry as a sum against a one-hot column. Under finiteness of the float inputs, a nonzero step
  denominator and row words inside their axes the two forms agree entry by entry.
-/
import proofs.«402372_j14413910245943_3_alg».proof.Proof.Spec
import proofs.«402372_j14413910245943_3_alg».proof.Proof.LibSparseSum
import Mathlib.Data.EReal.Inv

noncomputable section

namespace Cert.Spec

open Idealize.ShloMosaic Idealize.ShloMosaic.ValueIdx

/-- The inputs: the state and its drive, the three edge lists with their biases, the step denominators,
    and the gate array of the 64 column groups. -/
structure In where
  x : A2 512 2048
  hp : A2 512 4096
  g : A2 512 1
  Wv : A1 83886
  Wb : A1 4096
  Rv : A1 167772
  Rb : A1 4096
  Pv : A1 167772
  Pb : A1 4096
  tau : A1 4096
  Wr : I1 83886
  Wc : I1 83886
  Rr : I1 167772
  Rc : I1 167772
  Pr : I1 167772
  Pc : I1 167772
  RG : A2 512 64

/-- The step of column j: the constant with pattern 0x3DCCCCCD (one tenth, rounded) over tau j. -/
def dt (I : In) (j : Fin 4096) : EReal :=
  Ideal.div (Ideal.ofBits .f32 0x3DCCCCCD#32) (I.tau (ix1 j))

/-- The new state, edge form. -/
def hnewE (I : In) (b : Fin 512) (j : Fin 4096) : EReal :=
  cell (I.hp (ix2 b j)) (I.g (ix2 b 0))
    (sparseE 4096 (by decide) (fun b k => I.x (ix2 b k)) I.Wr I.Wc I.Wv b j) (I.Wb (ix1 j))
    (I.RG (ix2 b ⟨j.val / 64, by omega⟩))
    (sparseE 4096 (by decide) (fun b k => I.hp (ix2 b k)) I.Rr I.Rc I.Rv b j) (I.Rb (ix1 j))
    (dt I j)

/-- The prediction, edge form. -/
def predE (I : In) (b : Fin 512) (j : Fin 4096) : EReal :=
  sparseE 4096 (by decide) (hnewE I) I.Pr I.Pc I.Pv b j + I.Pb (ix1 j)

/-- The new state, dense form, the mask entry as a sum against the column E · j. -/
def hnewD (I : In) (E : Fin 64 → Fin 4096 → EReal) (b : Fin 512) (j : Fin 4096) : EReal :=
  cell (I.hp (ix2 b j)) (I.g (ix2 b 0))
    (sparseD 4096 (fun b k => I.x (ix2 b k)) I.Wr I.Wc I.Wv b j) (I.Wb (ix1 j))
    (∑ r : Fin 64, I.RG (ix2 b r) * E r j)
    (sparseD 4096 (fun b k => I.hp (ix2 b k)) I.Rr I.Rc I.Rv b j) (I.Rb (ix1 j))
    (dt I j)

/-- The prediction, dense form, from a given state H. -/
def predD (I : In) (H : Fin 512 → Fin 4096 → EReal) (b : Fin 512) (j : Fin 4096) : EReal :=
  sparseD 4096 H I.Pr I.Pc I.Pv b j + I.Pb (ix1 j)

/-- The precondition: the float inputs that enter a product with an edge value or the update are finite,
    no step denominator is zero, and every row word lies inside its axis. -/
structure In.Good (I : In) : Prop where
  x_real : ∀ i, ∃ r : ℝ, I.x i = (r : EReal)
  hp_real : ∀ i, ∃ r : ℝ, I.hp i = (r : EReal)
  g_real : ∀ i, ∃ r : ℝ, I.g i = (r : EReal)
  Wv_real : ∀ i, ∃ r : ℝ, I.Wv i = (r : EReal)
  Rv_real : ∀ i, ∃ r : ℝ, I.Rv i = (r : EReal)
  Pv_real : ∀ i, ∃ r : ℝ, I.Pv i = (r : EReal)
  tau_real : ∀ i, ∃ r : ℝ, I.tau i = (r : EReal)
  tau_ne : ∀ i, I.tau i ≠ 0
  Wr_rng : ∀ i, 0 ≤ (I.Wr i).toInt ∧ (I.Wr i).toInt < 2048
  Rr_rng : ∀ i, 0 ≤ (I.Rr i).toInt ∧ (I.Rr i).toInt < 4096
  Pr_rng : ∀ i, 0 ≤ (I.Pr i).toInt ∧ (I.Pr i).toInt < 4096

/-- The pattern 0x3DCCCCCD has exponent field 123, neither 0 nor 255: it denotes a real number. -/
theorem tenth_real : ∃ r : ℝ, Ideal.ofBits .f32 0x3DCCCCCD#32 = (r : EReal) := by
  have hex : ((0x3DCCCCCD#32 : BitVec 32).extractLsb' 23 8).toNat = 123 := by decide
  show ∃ r : ℝ, Ideal.ieee 8 23 (0x3DCCCCCD#32 : BitVec 32) = (r : EReal)
  unfold Ideal.ieee
  simp only [hex]
  rw [if_neg (by norm_num), if_neg (by norm_num)]
  exact ⟨_, rfl⟩

/-- A real constant over a nonzero real is real. -/
theorem dt_real (I : In) (hI : I.Good) (j : Fin 4096) : ∃ r : ℝ, dt I j = (r : EReal) := by
  obtain ⟨a, ha⟩ := tenth_real
  obtain ⟨t, ht⟩ := hI.tau_real (ix1 j)
  have hne := hI.tau_ne (ix1 j)
  unfold dt Ideal.div
  rw [if_neg hne, ha, ht, ← EReal.coe_inv, ← EReal.coe_mul]
  exact ⟨_, rfl⟩

/-- Every entry of the new state (edge form) is real. -/
theorem hnewE_real (I : In) (hI : I.Good) (b : Fin 512) (j : Fin 4096) :
    ∃ r : ℝ, hnewE I b j = (r : EReal) := by
  obtain ⟨h, hh⟩ := hI.hp_real (ix2 b j)
  obtain ⟨g, hg⟩ := hI.g_real (ix2 b 0)
  obtain ⟨d, hd⟩ := dt_real I hI j
  unfold hnewE
  rw [hh, hg, hd]
  exact cell_real h g d _ _ _ _ _

theorem hnewD_eq (I : In) (hI : I.Good) (E : Fin 64 → Fin 4096 → EReal)
    (hE : ∀ r j, E r j = if j.val / 64 = r.val then 1 else 0) (b : Fin 512) (j : Fin 4096) :
    hnewD I E b j = hnewE I b j := by
  have hW := sparseD_eq_sparseE 4096 (by decide : 0 < 2048) (by norm_num) (fun b k => I.x (ix2 b k))
    I.Wr I.Wc I.Wv (fun b k => hI.x_real (ix2 b k)) hI.Wv_real
    (fun e => by have := hI.Wr_rng (ix1 e); omega) b j
  have hR := sparseD_eq_sparseE 4096 (by decide : 0 < 4096) (by norm_num) (fun b k => I.hp (ix2 b k))
    I.Rr I.Rc I.Rv (fun b k => hI.hp_real (ix2 b k)) hI.Rv_real
    (fun e => by have := hI.Rr_rng (ix1 e); omega) b j
  have hM : ∑ r : Fin 64, I.RG (ix2 b r) * E r j = I.RG (ix2 b ⟨j.val / 64, by omega⟩) := by
    refine onehot_sum (fun r => I.RG (ix2 b r)) (fun r => E r j) ⟨j.val / 64, by omega⟩ (fun r => ?_)
    show E r j = _
    rw [hE r j]
    by_cases h : j.val / 64 = r.val
    · rw [if_pos h, if_pos (Fin.ext h.symm)]
    · rw [if_neg h, if_neg (fun h' => h (by rw [h']))]
  unfold hnewD hnewE
  rw [hW, hR, hM]

theorem predD_eq (I : In) (hI : I.Good) (E : Fin 64 → Fin 4096 → EReal)
    (hE : ∀ r j, E r j = if j.val / 64 = r.val then 1 else 0) (b : Fin 512) (j : Fin 4096) :
    predD I (hnewD I E) b j = predE I b j := by
  have hH : hnewD I E = hnewE I := funext fun b => funext fun j => hnewD_eq I hI E hE b j
  have hP := sparseD_eq_sparseE 4096 (by decide : 0 < 4096) (by norm_num) (hnewE I)
    I.Pr I.Pc I.Pv (hnewE_real I hI) hI.Pv_real
    (fun e => by have := hI.Pr_rng (ix1 e); omega) b j
  unfold predD predE
  rw [hH, hP]

end Cert.Spec

end
-- ==== Proof.KernelFinal.lean ====
/-
  The idealized kernel program's two results as the dense-form functions of its arguments.

  Region 0's whole-array function, read at the host side's arrays: the cast inputs are the inputs themselves, the
  three reshaped biases and the reshaped quotient 0.1 / tau are their vectors, the two coalesced matrices are the
  dense matrices of their edge lists, and the 0/1 expand matrix has a one exactly where the column's block of 64
  is the row. Region 1 multiplies region 0's result with the third coalesced matrix and adds the third bias.
-/
import proofs.«402372_j14413910245943_3_alg».proof.Proof.KernelValue
import proofs.«402372_j14413910245943_3_alg».proof.Proof.Region0
import proofs.«402372_j14413910245943_3_alg».proof.Proof.Region1
import proofs.«402372_j14413910245943_3_alg».proof.Proof.KHostA
import proofs.«402372_j14413910245943_3_alg».proof.Proof.KHostW
import proofs.«402372_j14413910245943_3_alg».proof.Proof.KHostE
import proofs.«402372_j14413910245943_3_alg».proof.Proof.Bridge

set_option maxRecDepth 16384

noncomputable section

namespace Cert.KernelIdeal.KFinal

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ) (ρ : Dev nD → PrngReg) (c : Dev nD)

/-- The program's arguments on core `c`, with the gate array as the host side computes it. -/
def inK : Cert.Spec.In where
  x := m ((c : Thread nD τ).loc main_arg0)
  hp := m ((c : Thread nD τ).loc main_arg1)
  g := m ((c : Thread nD τ).loc main_arg2)
  Wv := m ((c : Thread nD τ).loc main_arg3)
  Wb := m ((c : Thread nD τ).loc main_arg4)
  Rv := m ((c : Thread nD τ).loc main_arg5)
  Rb := m ((c : Thread nD τ).loc main_arg6)
  Pv := m ((c : Thread nD τ).loc main_arg7)
  Pb := m ((c : Thread nD τ).loc main_arg8)
  tau := m ((c : Thread nD τ).loc main_arg11)
  Wr := m ((c : Thread nD τ).loc main_arg12)
  Wc := m ((c : Thread nD τ).loc main_arg13)
  Rr := m ((c : Thread nD τ).loc main_arg14)
  Rc := m ((c : Thread nD τ).loc main_arg15)
  Pr := m ((c : Thread nD τ).loc main_arg16)
  Pc := m ((c : Thread nD τ).loc main_arg17)
  RG := KHostA.rgate (m ((c : Thread nD τ).loc main_arg0)) (m ((c : Thread nD τ).loc main_arg9)) (m ((c : Thread nD τ).loc main_arg10))

/-- The expand matrix: a one where the column's block of 64 is the row. -/
def EK (r : Fin 64) (j : Fin 4096) : EReal := if j.val / 64 = r.val then 1 else 0

theorem EK_spec : ∀ r j, EK r j = if j.val / 64 = r.val then 1 else 0 := fun _ _ => rfl

/-- Region 0's whole-array function is the dense-form update as soon as its eleven arrays are, entry by entry, the
    bundle's: stated over variables of the arrays' literal types. -/
theorem hk_of (X : Vec Ideal S512x2048 .bf16) (HP : Vec Ideal S512x4096 .f32) (HPb : Vec Ideal S512x4096 .bf16)
    (Wd : Vec Ideal S2048x4096 .bf16) (Rd : Vec Ideal S4096x4096 .bf16) (RG : Vec Ideal S512x64 .f32)
    (E : Vec Ideal S64x4096 .bf16) (G : Vec Ideal S512x1 .f32) (DT WB RB : Vec Ideal S1x4096 .f32)
    (I : Cert.Spec.In) (b : Fin 512) (j : Fin 4096)
    (hX : ∀ k, X (ix2 b k) = I.x (ix2 b k)) (hHP : HP (ix2 b j) = I.hp (ix2 b j))
    (hHPb : ∀ k, HPb (ix2 b k) = I.hp (ix2 b k))
    (hWd : ∀ k, Wd (ix2 k j) = denseM 2048 4096 I.Wr I.Wc I.Wv k j)
    (hRd : ∀ k, Rd (ix2 k j) = denseM 4096 4096 I.Rr I.Rc I.Rv k j)
    (hRG : ∀ r, RG (ix2 b r) = I.RG (ix2 b r)) (hE : ∀ r, E (ix2 r j) = EK r j)
    (hG : G (ix2 b 0) = I.g (ix2 b 0)) (hDT : DT (ix2 0 j) = dt I j)
    (hWB : WB (ix2 0 j) = I.Wb (ix1 j)) (hRB : RB (ix2 0 j) = I.Rb (ix1 j)) :
    Region0.hk X HP HPb Wd Rd RG E G DT WB RB b j = hnewD I EK b j := by
  unfold Region0.hk hnewD sparseD
  simp only [hX, hHP, hHPb, hWd, hRd, hRG, hE, hG, hDT, hWB, hRB]

/-- Region 1's whole-array function is the dense-form product as soon as its three arrays are the bundle's. -/
theorem pk_of (H : Vec Ideal S512x4096 .bf16) (Pd : Vec Ideal S4096x4096 .bf16) (PB : Vec Ideal S1x4096 .f32)
    (I : Cert.Spec.In) (Hf : Fin 512 → Fin 4096 → EReal) (b : Fin 512) (j : Fin 4096)
    (hH : ∀ k, H (ix2 b k) = Hf b k) (hPd : ∀ k, Pd (ix2 k j) = denseM 4096 4096 I.Pr I.Pc I.Pv k j)
    (hPB : PB (ix2 0 j) = I.Pb (ix1 j)) :
    Region1.pk H Pd PB b j = predD I Hf b j := by
  unfold Region1.pk predD sparseD
  simp only [hH, hPd, hPB]

/-- What region 0 leaves, at the host side's arrays, is the dense-form update of the arguments. -/
theorem hk_eq (b : Fin 512) (j : Fin 4096) :
    Region0.hk (V3 m ρ c main_v48) (V3 m ρ c main_arg1) (V3 m ρ c main_v49) (V3 m ρ c main_v45) (V3 m ρ c main_v46)
      (V3 m ρ c main_v60) (V3 m ρ c main_v69) (V3 m ρ c main_arg2) (V3 m ρ c main_v75) (V3 m ρ c main_v70)
      (V3 m ρ c main_v71) b j = hnewD (inK m c) EK b j :=
  hk_of _ _ _ _ _ _ _ _ _ _ _ (inK m c) b j
    (fun k => KHostA.v48_apply m ρ c b k)
    (by rw [KHostA.arg1_eq m ρ c]; rfl)
    (fun k => KHostA.v49_apply m ρ c b k)
    (fun k => KHostW.v45_apply m ρ c k j)
    (fun k => KHostW.v46_apply m ρ c k j)
    (fun r => by rw [KHostA.v60_eq m ρ c]; rfl)
    (fun r => KHostE.v69_apply m ρ c r j)
    (by rw [KHostA.arg2_eq m ρ c]; rfl)
    (KHostA.v75_apply m ρ c 0 j)
    (KHostA.v70_apply m ρ c 0 j)
    (KHostA.v71_apply m ρ c 0 j)

/-- The first result is the dense-form update. -/
theorem res0 (b : Fin 512) (j : Fin 4096) :
    W5 m ρ c (Proc.devRef .tc main_v76_0) (ix2 b j) = hnewD (inK m c) EK b j := by
  rw [KValue.res0_eq m ρ c, Region0.final0_11 (V3 m ρ) c b j]
  exact hk_eq m ρ c b j

/-- The second result is the dense-form product of the first with the third matrix, plus the third bias. -/
theorem res1 (b : Fin 512) (j : Fin 4096) :
    W5 m ρ c (Proc.devRef .tc main_v77) (ix2 b j) = predD (inK m c) (hnewD (inK m c) EK) b j := by
  rw [KValue.res1_eq m ρ c, Region1.final1_3 (V4 m ρ) c b j]
  refine pk_of _ _ _ (inK m c) _ b j (fun k => ?_) (fun k => ?_) ?_
  · rw [KValue.V4_hnew m ρ c, Region0.final0_12 (V3 m ρ) c b k]
    exact hk_eq m ρ c b k
  · rw [KValue.V4_v47 m ρ c]
    exact KHostW.v47_apply m ρ c k j
  · rw [KValue.V4_v72 m ρ c]
    exact KHostA.v72_apply m ρ c 0 j

end Cert.KernelIdeal.KFinal

end
-- ==== Proof.PreFacts.lean ====
/-
  The precondition, decoded.

  The printed predicate is a conjunction of nineteen "all" tests over the eighteen argument arrays: for each of the
  twelve float arrays, |a i| < +∞ at every index; for the time-constant array, a i ≠ 0 at every index; and for the
  three row-index lists, 0 ≤ a i and a i < (the row extent) at every index, the words read signed.

  At the extended reals |a| = max a (-a) < ⊤ says that a is neither ⊤ nor ⊥, that is, a is a real number; and a signed
  compare of 32-bit words is the compare of their integer values. 'Good' collects what is left: every float entry is
  a real, no time constant is zero, and every row index lies in its axis.
-/
import proofs.«402372_j14413910245943_3_alg».proof.Defs
import proofs.«402372_j14413910245943_3_alg».proof.Proof.Gen.Pre_finite_inputs
import Idealize.ShloMosaic.Lib.ReduceAll
import Idealize.ShloMosaic.Lib.ValueIdx
import Idealize.ShloMosaic.PureOps.Ideal.Laws

noncomputable section

namespace Cert.PreFacts

open Idealize.ShloMosaic Idealize.SL.Sem Cert.Pre_finite_inputs

/-- The scalar shape has one index. -/
instance subsingleton_S_ : Subsingleton S_.Idx := ⟨fun a b => funext fun d => d.elim0⟩

/-! ## One element of each test -/

/-- A one-bit word made from a truth value is 1 exactly when the value is true. -/
theorem ofBool_eq_one (b : Bool) : BitVec.ofBool b = 1#1 ↔ b = true := by cases b <;> decide

/-- The pattern of +∞ denotes ⊤. -/
theorem ofBits_inf_f32 : Ideal.ofBits .f32 0x7F800000#32 = (⊤ : EReal) := by simp [Ideal.ofBits, Ideal.ieee]

/-- |x| < +∞ at the extended reals: x is a real number. -/
theorem real_of_abs_lt (x : EReal) (h : Ideal.cmp .olt (max x (-x)) (Ideal.ofBits .f32 0x7F800000#32) = 1#1) :
    ∃ r : ℝ, x = (r : EReal) := by
  rw [ofBits_inf_f32] at h
  simp only [Ideal.cmp, ofBool_eq_one, decide_eq_true_eq] at h
  induction x using EReal.rec with
  | bot => simp at h
  | coe r => exact ⟨r, rfl⟩
  | top => simp at h

/-- x ≠ 0.0 at the extended reals. -/
theorem ne_zero_of_une (x : EReal) (h : Ideal.cmp .une x (Ideal.ofBits .f32 0x00000000#32) = 1#1) : x ≠ 0 := by
  rw [Ideal.ofBits_zero_f32] at h
  simpa only [Ideal.cmp, ofBool_eq_one, decide_eq_true_eq] using h

/-- A signed "w ≥ 0" on words is 0 ≤ the word's integer value. -/
theorem toInt_nonneg_of_sge (w : BitVec 32) (h : IntOp.cmpi .sge w 0#32 = 1#1) : 0 ≤ w.toInt := by
  simpa [IntOp.cmpi, ofBool_eq_one, BitVec.sle] using h

/-- A signed "w < c" on words is the compare of the integer values. -/
theorem toInt_lt_of_slt (w c : BitVec 32) (h : IntOp.cmpi .slt w c = 1#1) : w.toInt < c.toInt := by
  simpa [IntOp.cmpi, ofBool_eq_one, BitVec.slt] using h

theorem toInt_2048 : (2048#32).toInt = 2048 := by decide
theorem toInt_4096 : (4096#32).toInt = 4096 := by decide

/-! ## What the precondition leaves -/

/-- Every float entry is a real number, no time constant is zero, and every row index lies in its axis. -/
structure Good (a0 : FVec Ideal S512x2048 .f32) (a1 : FVec Ideal S512x4096 .f32) (a2 : FVec Ideal S512x1 .f32)
    (a3 : FVec Ideal S83886 .f32) (a4 : FVec Ideal S4096 .f32) (a5 : FVec Ideal S167772 .f32) (a6 : FVec Ideal S4096 .f32)
    (a7 : FVec Ideal S167772 .f32) (a8 : FVec Ideal S4096 .f32) (a9 : FVec Ideal S64x2048 .f32) (a10 : FVec Ideal S64 .f32)
    (a11 : FVec Ideal S4096 .f32) (a12 : IVec S83886 32) (a13 : IVec S83886 32) (a14 : IVec S167772 32)
    (a15 : IVec S167772 32) (a16 : IVec S167772 32) (a17 : IVec S167772 32) : Prop where
  x_real : ∀ i, ∃ r : ℝ, a0 i = (r : EReal)
  hp_real : ∀ i, ∃ r : ℝ, a1 i = (r : EReal)
  g_real : ∀ i, ∃ r : ℝ, a2 i = (r : EReal)
  Wv_real : ∀ i, ∃ r : ℝ, a3 i = (r : EReal)
  Wb_real : ∀ i, ∃ r : ℝ, a4 i = (r : EReal)
  Rv_real : ∀ i, ∃ r : ℝ, a5 i = (r : EReal)
  Rb_real : ∀ i, ∃ r : ℝ, a6 i = (r : EReal)
  Pv_real : ∀ i, ∃ r : ℝ, a7 i = (r : EReal)
  Pb_real : ∀ i, ∃ r : ℝ, a8 i = (r : EReal)
  rw_real : ∀ i, ∃ r : ℝ, a9 i = (r : EReal)
  rb_real : ∀ i, ∃ r : ℝ, a10 i = (r : EReal)
  tau_real : ∀ i, ∃ r : ℝ, a11 i = (r : EReal)
  tau_ne : ∀ i, a11 i ≠ 0
  Wr_rng : ∀ i, 0 ≤ (a12 i).toInt ∧ (a12 i).toInt < 2048
  Rr_rng : ∀ i, 0 ≤ (a14 i).toInt ∧ (a14 i).toInt < 4096
  Pr_rng : ∀ i, 0 ≤ (a16 i).toInt ∧ (a16 i).toInt < 4096

variable [Cert.Pre_finite_inputs.Facts]

/-- The predicate all ones gives 'Good'. -/
theorem good_of_pre (a0 : FVec Ideal S512x2048 .f32) (a1 : FVec Ideal S512x4096 .f32) (a2 : FVec Ideal S512x1 .f32)
    (a3 : FVec Ideal S83886 .f32) (a4 : FVec Ideal S4096 .f32) (a5 : FVec Ideal S167772 .f32) (a6 : FVec Ideal S4096 .f32)
    (a7 : FVec Ideal S167772 .f32) (a8 : FVec Ideal S4096 .f32) (a9 : FVec Ideal S64x2048 .f32) (a10 : FVec Ideal S64 .f32)
    (a11 : FVec Ideal S4096 .f32) (a12 : IVec S83886 32) (a13 : IVec S83886 32) (a14 : IVec S167772 32)
    (a15 : IVec S167772 32) (a16 : IVec S167772 32) (a17 : IVec S167772 32)
    (h : Cert.Pre_finite_inputs.fn (F := Ideal) a0 a1 a2 a3 a4 a5 a6 a7 a8 a9 a10 a11 a12 a13 a14 a15 a16 a17 = (fun _ => 1#1)) :
    Good a0 a1 a2 a3 a4 a5 a6 a7 a8 a9 a10 a11 a12 a13 a14 a15 a16 a17 := by
  have e := congrFun h ValueIdx.ix0
  dsimp only [Cert.Pre_finite_inputs.fn, fn_part1, fn_part2, fn_part3, fn_part4, fn_part5] at e
  simp only [andi, IntOp.andi_eq_one] at e
  obtain ⟨⟨⟨⟨⟨⟨⟨⟨⟨⟨⟨⟨⟨⟨⟨⟨⟨⟨h0, h1⟩, h2⟩, h3⟩, h4⟩, h5⟩, h6⟩, h7⟩, h8⟩, h9⟩, h10⟩, h11⟩, ht⟩, hw0⟩, hw1⟩, hr0⟩, hr1⟩, hp0⟩, hp1⟩ := e
  refine ⟨?_, ?_, ?_, ?_, ?_, ?_, ?_, ?_, ?_, ?_, ?_, ?_, ?_, ?_, ?_, ?_⟩
  · exact fun i => real_of_abs_lt (a0 i) (Host.reduce_andi_all _ _ _ _ _ h0 i)
  · exact fun i => real_of_abs_lt (a1 i) (Host.reduce_andi_all _ _ _ _ _ h1 i)
  · exact fun i => real_of_abs_lt (a2 i) (Host.reduce_andi_all _ _ _ _ _ h2 i)
  · exact fun i => real_of_abs_lt (a3 i) (Host.reduce_andi_all _ _ _ _ _ h3 i)
  · exact fun i => real_of_abs_lt (a4 i) (Host.reduce_andi_all _ _ _ _ _ h4 i)
  · exact fun i => real_of_abs_lt (a5 i) (Host.reduce_andi_all _ _ _ _ _ h5 i)
  · exact fun i => real_of_abs_lt (a6 i) (Host.reduce_andi_all _ _ _ _ _ h6 i)
  · exact fun i => real_of_abs_lt (a7 i) (Host.reduce_andi_all _ _ _ _ _ h7 i)
  · exact fun i => real_of_abs_lt (a8 i) (Host.reduce_andi_all _ _ _ _ _ h8 i)
  · exact fun i => real_of_abs_lt (a9 i) (Host.reduce_andi_all _ _ _ _ _ h9 i)
  · exact fun i => real_of_abs_lt (a10 i) (Host.reduce_andi_all _ _ _ _ _ h10 i)
  · exact fun i => real_of_abs_lt (a11 i) (Host.reduce_andi_all _ _ _ _ _ h11 i)
  · exact fun i => ne_zero_of_une (a11 i) (Host.reduce_andi_all _ _ _ _ _ ht i)
  · exact fun i => ⟨toInt_nonneg_of_sge (a12 i) (Host.reduce_andi_all _ _ _ _ _ hw0 i),
      toInt_2048 ▸ toInt_lt_of_slt (a12 i) 2048#32 (Host.reduce_andi_all _ _ _ _ _ hw1 i)⟩
  · exact fun i => ⟨toInt_nonneg_of_sge (a14 i) (Host.reduce_andi_all _ _ _ _ _ hr0 i),
      toInt_4096 ▸ toInt_lt_of_slt (a14 i) 4096#32 (Host.reduce_andi_all _ _ _ _ _ hr1 i)⟩
  · exact fun i => ⟨toInt_nonneg_of_sge (a16 i) (Host.reduce_andi_all _ _ _ _ _ hp0 i),
      toInt_4096 ▸ toInt_lt_of_slt (a16 i) 4096#32 (Host.reduce_andi_all _ _ _ _ _ hp1 i)⟩

/-- The same, from the certificate's precondition on the launch memory, at each device. -/
theorem good_of_Pre_KernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    Good (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)) :=
  good_of_pre _ _ _ _ _ _ _ _ _ _ _ _ _ _ _ _ _ _ (h c)

end Cert.PreFacts

end
-- ==== Proof.LibGatherRead.lean ====
/-
  Reading two gathers of a sampled volume at one element.

  A volume vol : [C, D, H, W] is sampled at N points. One program flattens the volume to
  [C, D·H·W] and takes column f = z·(H·W) + y·W + x with a rank-2 gather; the other gathers the
  volume itself at the index triple (z, y, x) with a rank-4 gather. A gather clamps every start
  index into the operand, so for indices already in range both read vol[c, z, y, x].

  The file states, generic in the extents: the two gathers read at a result index
  (take2_apply, gather4_apply), the flattening read at an index (flatten_apply), the
  division and remainder arithmetic that undoes the flat index (unflat_eq), the layout
  operations that assemble the index triple read at an index (concat3_apply, bcast_col_apply),
  and the equality of the two reads for in-range indices (corner_eq).
-/
import Idealize.ShloMosaic.PureOps.ShapeOps
import Idealize.ShloMosaic.PureOps.Dims
import Idealize.ShloMosaic.Lib.ValueIdx
import Idealize.ShloMosaic.Lib.Pipeline.Value
import Mathlib.Tactic.Ring
import Mathlib.Tactic.Linarith

namespace Cert.Lib.GatherRead

open Idealize.ShloMosaic
open Idealize.ShloMosaic.ValueIdx

/-! ## The flat index undone by division and remainder -/

/-- A flat index z·(H·W) + y·W + x with z < D, y < H, x < W gives back z as its quotient by H·W,
    y as the remainder modulo H of its quotient by W, and x as its remainder modulo W. -/
theorem unflat_eq {D H W z y x : ℕ} (_hz : z < D) (hy : y < H) (hx : x < W) :
    (z * (H * W) + y * W + x) / (H * W) = z ∧ ((z * (H * W) + y * W + x) / W) % H = y ∧
      (z * (H * W) + y * W + x) % W = x := by
  have hW : 0 < W := Nat.lt_of_le_of_lt (Nat.zero_le _) hx
  have hH : 0 < H := Nat.lt_of_le_of_lt (Nat.zero_le _) hy
  have hHW : 0 < H * W := Nat.mul_pos hH hW
  -- the part below H·W: y·W + x < (y + 1)·W ≤ H·W
  have hlow : y * W + x < H * W := by
    have h1 : y * W + x < (y + 1) * W := by rw [Nat.add_mul, Nat.one_mul]; omega
    exact Nat.lt_of_lt_of_le h1 (Nat.mul_le_mul_right W hy)
  have e1 : z * (H * W) + y * W + x = (y * W + x) + (H * W) * z := by ring
  have e2 : z * (H * W) + y * W + x = x + W * (z * H + y) := by ring
  have e3 : z * H + y = y + H * z := by ring
  refine ⟨?_, ?_, ?_⟩
  · rw [e1, Nat.add_mul_div_left _ _ hHW, Nat.div_eq_of_lt hlow, Nat.zero_add]
  · rw [e2, Nat.add_mul_div_left _ _ hW, Nat.div_eq_of_lt hx, Nat.zero_add, e3, Nat.add_mul_mod_self_left,
      Nat.mod_eq_of_lt hy]
  · rw [e2, Nat.add_mul_mod_self_left, Nat.mod_eq_of_lt hx]

/-! ## The layout operations that assemble the index triple, read at an index -/

section Layout
variable {α : Type}

/-- A vector laid out as an [N, 1] column reads, at (n, 0), the vector at n. -/
theorem bcast_col_apply {N : ℕ} (h : (⟨1, ![N]⟩ : Shape).BroadcastsInDim ⟨2, ![N, 1]⟩ ![0])
    (v : (⟨1, ![N]⟩ : Shape).Idx → α) (n : Fin N) :
    broadcastInDim ⟨2, ![N, 1]⟩ ![0] h v (ix2 n ⟨0, Nat.one_pos⟩) = v (ix1 n) := by
  unfold broadcastInDim
  congr 1
  funext a
  obtain rfl : a = 0 := Subsingleton.elim _ _
  refine Fin.ext ?_
  have hn := n.isLt
  split
  · next h1 => change N = 1 at h1; show (0 : ℕ) = n.val; omega
  · rfl

/-- Three [N, 1] columns laid side by side along axis 1 read, at (n, 0), (n, 1) and (n, 2), the first, the second
    and the third column at (n, 0). -/
theorem concat3_apply {N : ℕ} (a b c : (⟨2, ![N, 1]⟩ : Shape).Idx → α)
    (h : Shape.Concatenates [(⟨2, ![N, 1]⟩ : Shape), ⟨2, ![N, 1]⟩, ⟨2, ![N, 1]⟩] ⟨2, ![N, 3]⟩ 1) (n : Fin N) :
    concatenate ⟨2, ![N, 3]⟩ 1 [⟨⟨2, ![N, 1]⟩, a⟩, ⟨⟨2, ![N, 1]⟩, b⟩, ⟨⟨2, ![N, 1]⟩, c⟩] h (ix2 n ⟨0, by omega⟩)
        = a (ix2 n ⟨0, Nat.one_pos⟩) ∧
    concatenate ⟨2, ![N, 3]⟩ 1 [⟨⟨2, ![N, 1]⟩, a⟩, ⟨⟨2, ![N, 1]⟩, b⟩, ⟨⟨2, ![N, 1]⟩, c⟩] h (ix2 n ⟨1, by omega⟩)
        = b (ix2 n ⟨0, Nat.one_pos⟩) ∧
    concatenate ⟨2, ![N, 3]⟩ 1 [⟨⟨2, ![N, 1]⟩, a⟩, ⟨⟨2, ![N, 1]⟩, b⟩, ⟨⟨2, ![N, 1]⟩, c⟩] h (ix2 n ⟨2, by omega⟩)
        = c (ix2 n ⟨0, Nat.one_pos⟩) := by
  refine ⟨?_, ?_, ?_⟩
  · show a _ = a _
    congr 1
    funext q
    match q with
    | ⟨0, _⟩ => rfl
    | ⟨1, _⟩ => rfl
  · show b _ = b _
    congr 1
    funext q
    match q with
    | ⟨0, _⟩ => rfl
    | ⟨1, _⟩ => rfl
  · show c _ = c _
    congr 1
    funext q
    match q with
    | ⟨0, _⟩ => rfl
    | ⟨1, _⟩ => rfl

end Layout

/-! ## The two gathers read at a result index

Both gathers have one offset axis (result axis 0, the channel), no batching axes, and start indices [N, K] whose
axis 1 is the index vector: result element (c, n) reads the operand at channel c and, on each collapsed axis, at
component k of start index n, read signed and clamped into that axis. -/

section Gather
variable {α : Type}

/-- Every entry of a one-element list is that element. -/
theorem getElem_of_eq_singleton {β : Type} {l : List β} {v : β} (e : l = [v]) (k : ℕ) (hk : k < l.length) :
    l[k] = v := by
  subst e
  have hk0 : k = 0 := by simpa using hk
  subst hk0
  rfl

variable {s : Shape} {C N K : ℕ} (d : GatherDims s ⟨2, ![N, K]⟩ ⟨2, ![C, N]⟩)

/-- With the channel the one offset axis and the index vector on axis 1, result element (c, n) reads component k
    of its start index at (n, k) of the start indices. -/
theorem siIdx_eq (h1 : d.offsetDims = [0]) (h6 : d.indexVectorDim = 1) (j : (⟨2, ![C, N]⟩ : Shape).Idx)
    (c : Fin d.startIndexMap.length) (hc : c.val < K) :
    d.siIdx j c = ix2 (n0 := N) (n1 := K) (j 1) ⟨c.val, hc⟩ := by
  funext b
  refine Fin.ext ?_
  match b with
  | ⟨0, _⟩ =>
    unfold GatherDims.siIdx
    rw [dif_neg (by rw [h6]; exact Nat.zero_ne_one)]
    unfold GatherDims.siCoord
    have hbd : d.batchDims = [1] := by
      show Shape.kept _ d.offsetDims = _
      rw [h1]; rfl
    exact congrArg (fun a => (j a).val) (getElem_of_eq_singleton hbd _ _)
  | ⟨1, _⟩ =>
    unfold GatherDims.siIdx
    rw [dif_pos (by rw [h6])]

/-- On an operand axis the start index map does not name the slice starts at 0. -/
theorem start_of_not_mem (j : (⟨2, ![C, N]⟩ : Shape).Idx) (idx : IVec ⟨2, ![N, K]⟩ 32) (a : Fin s.rank)
    (ha : a ∉ d.startIndexMap) : d.start j idx a = 0 := by
  unfold GatherDims.start
  rw [dif_neg ha]

/-- On a collapsed operand axis that the start index map names in position p, the slice starts at component p of the
    start index, read signed and clamped into the axis. -/
theorem start_collapsed (h1 : d.offsetDims = [0]) (h6 : d.indexVectorDim = 1) (j : (⟨2, ![C, N]⟩ : Shape).Idx)
    (idx : IVec ⟨2, ![N, K]⟩ 32) (a : Fin s.rank) (p : ℕ) (ha : a ∈ d.startIndexMap)
    (hcoll : a ∈ d.collapsedSliceDims) (hp : d.startIndexMap.idxOf a = p) (hpK : p < K) :
    d.start j idx a = min (idx (ix2 (n0 := N) (n1 := K) (j 1) ⟨p, hpK⟩)).toInt.toNat (s.size a - 1) := by
  subst hp
  unfold GatherDims.start
  rw [dif_pos ha, siIdx_eq d h1 h6 j _ hpK, d.slice_collapsed a hcoll]

/-- On the one operand axis that is kept (neither collapsed nor batching) the offset coordinate is the result's
    channel coordinate. -/
theorem offCoord_kept (h1 : d.offsetDims = [0]) (j : (⟨2, ![C, N]⟩ : Shape).Idx) (a : Fin s.rank)
    (hcoll : a ∉ d.collapsedSliceDims) (hbat : a ∉ d.operandBatchingDims) : d.offCoord j a = (j 0).val := by
  unfold GatherDims.offCoord
  rw [dif_pos ((d.mem_sKept a).2 ⟨hcoll, hbat⟩)]
  exact congrArg (fun a => (j a).val) (getElem_of_eq_singleton h1 _ _)

/-- THE RANK-2 TAKE: a [C, M] operand gathered along its second axis at N start indices reads, at (c, n), the
    operand at channel c and at column idx[n, 0] read signed and clamped into [0, M − 1]. -/
theorem take2_apply {M : ℕ} (d : GatherDims ⟨2, ![C, M]⟩ ⟨2, ![N, 1]⟩ ⟨2, ![C, N]⟩)
    (h1 : d.offsetDims = [0]) (h2 : d.collapsedSliceDims = [1]) (h3 : d.operandBatchingDims = [])
    (_h4 : d.startIndicesBatchingDims = []) (h5 : d.startIndexMap = [1]) (h6 : d.indexVectorDim = 1)
    (_h7 : d.sliceSizes = ![C, 1])
    (x : (⟨2, ![C, M]⟩ : Shape).Idx → α) (idx : IVec ⟨2, ![N, 1]⟩ 32) (j : (⟨2, ![C, N]⟩ : Shape).Idx) (hM : 0 < M) :
    Host.gather d x idx j
      = x (ix2 (n0 := C) (n1 := M) (j 0)
          ⟨min (idx (ix2 (n0 := N) (n1 := 1) (j 1) ⟨0, Nat.one_pos⟩)).toInt.toNat (M - 1), by omega⟩) := by
  have hb : ∀ a, a ∉ d.operandBatchingDims := fun a => by rw [h3]; exact List.not_mem_nil
  have m0 : (0 : Fin 2) ∉ [(1 : Fin 2)] := by decide
  have m1 : (1 : Fin 2) ∈ [(1 : Fin 2)] := by decide
  unfold Host.gather
  congr 1
  funext a
  refine Fin.ext ?_
  show d.start j idx a + d.batchCoord j a + d.offCoord j a = _
  rw [d.batchCoord_eq_zero j a (hb a), Nat.add_zero]
  match a with
  | ⟨0, _⟩ =>
    show d.start j idx 0 + d.offCoord j 0 = (j 0).val
    rw [start_of_not_mem d j idx 0 (by rw [h5]; exact m0), offCoord_kept d h1 j 0 (by rw [h2]; exact m0) (hb _),
      Nat.zero_add]
  | ⟨1, _⟩ =>
    show d.start j idx 1 + d.offCoord j 1 = min (idx (ix2 (n0 := N) (n1 := 1) (j 1) ⟨0, Nat.one_pos⟩)).toInt.toNat (M - 1)
    rw [start_collapsed d h1 h6 j idx 1 0 (by rw [h5]; exact m1) (by rw [h2]; exact m1) (by rw [h5]; rfl) Nat.one_pos,
      d.offCoord_eq_zero j 1 (fun hk => ((d.mem_sKept _).1 hk).1 (by rw [h2]; exact m1)), Nat.add_zero]
    rfl

/-- THE RANK-4 GATHER: a [C, D, H, W] volume gathered at N index triples reads, at (c, n), the volume at channel c
    and at the triple idx[n, 0], idx[n, 1], idx[n, 2], each read signed and clamped into its own axis. -/
theorem gather4_apply {D H W : ℕ} (d : GatherDims ⟨4, ![C, D, H, W]⟩ ⟨2, ![N, 3]⟩ ⟨2, ![C, N]⟩)
    (h1 : d.offsetDims = [0]) (h2 : d.collapsedSliceDims = [1, 2, 3]) (h3 : d.operandBatchingDims = [])
    (_h4 : d.startIndicesBatchingDims = []) (h5 : d.startIndexMap = [1, 2, 3]) (h6 : d.indexVectorDim = 1)
    (_h7 : d.sliceSizes = ![C, 1, 1, 1])
    (x : (⟨4, ![C, D, H, W]⟩ : Shape).Idx → α) (idx : IVec ⟨2, ![N, 3]⟩ 32) (j : (⟨2, ![C, N]⟩ : Shape).Idx)
    (hD : 0 < D) (hH : 0 < H) (hW : 0 < W) :
    Host.gather d x idx j
      = x (ix4 (n0 := C) (n1 := D) (n2 := H) (n3 := W) (j 0)
          ⟨min (idx (ix2 (n0 := N) (n1 := 3) (j 1) ⟨0, by omega⟩)).toInt.toNat (D - 1), by omega⟩
          ⟨min (idx (ix2 (n0 := N) (n1 := 3) (j 1) ⟨1, by omega⟩)).toInt.toNat (H - 1), by omega⟩
          ⟨min (idx (ix2 (n0 := N) (n1 := 3) (j 1) ⟨2, by omega⟩)).toInt.toNat (W - 1), by omega⟩) := by
  have hb : ∀ a, a ∉ d.operandBatchingDims := fun a => by rw [h3]; exact List.not_mem_nil
  have hoff : ∀ a, a ∈ d.collapsedSliceDims → d.offCoord j a = 0 := fun a ha =>
    d.offCoord_eq_zero j a (fun hk => ((d.mem_sKept a).1 hk).1 ha)
  have m0 : (0 : Fin 4) ∉ [(1 : Fin 4), 2, 3] := by decide
  have m1 : (1 : Fin 4) ∈ [(1 : Fin 4), 2, 3] := by decide
  have m2 : (2 : Fin 4) ∈ [(1 : Fin 4), 2, 3] := by decide
  have m3 : (3 : Fin 4) ∈ [(1 : Fin 4), 2, 3] := by decide
  unfold Host.gather
  congr 1
  funext a
  refine Fin.ext ?_
  show d.start j idx a + d.batchCoord j a + d.offCoord j a = _
  rw [d.batchCoord_eq_zero j a (hb a), Nat.add_zero]
  match a with
  | ⟨0, _⟩ =>
    show d.start j idx 0 + d.offCoord j 0 = (j 0).val
    rw [start_of_not_mem d j idx 0 (by rw [h5]; exact m0), offCoord_kept d h1 j 0 (by rw [h2]; exact m0) (hb _),
      Nat.zero_add]
  | ⟨1, _⟩ =>
    show d.start j idx 1 + d.offCoord j 1 = min (idx (ix2 (n0 := N) (n1 := 3) (j 1) ⟨0, by omega⟩)).toInt.toNat (D - 1)
    rw [start_collapsed d h1 h6 j idx 1 0 (by rw [h5]; exact m1) (by rw [h2]; exact m1) (by rw [h5]; rfl) (by omega),
      hoff 1 (by rw [h2]; exact m1), Nat.add_zero]
    rfl
  | ⟨2, _⟩ =>
    show d.start j idx 2 + d.offCoord j 2 = min (idx (ix2 (n0 := N) (n1 := 3) (j 1) ⟨1, by omega⟩)).toInt.toNat (H - 1)
    rw [start_collapsed d h1 h6 j idx 2 1 (by rw [h5]; exact m2) (by rw [h2]; exact m2) (by rw [h5]; rfl) (by omega),
      hoff 2 (by rw [h2]; exact m2), Nat.add_zero]
    rfl
  | ⟨3, _⟩ =>
    show d.start j idx 3 + d.offCoord j 3 = min (idx (ix2 (n0 := N) (n1 := 3) (j 1) ⟨2, by omega⟩)).toInt.toNat (W - 1)
    rw [start_collapsed d h1 h6 j idx 3 2 (by rw [h5]; exact m3) (by rw [h2]; exact m3) (by rw [h5]; rfl) (by omega),
      hoff 3 (by rw [h2]; exact m3), Nat.add_zero]
    rfl

end Gather

/-! ## The flattening read at an index, and the two reads compared -/

section Flatten
variable {α : Type}

/-- A natural number is its quotient by H·W times H·W, plus the remainder modulo H of its quotient by W times W,
    plus its remainder modulo W: the row-major digits of a position in an [·, H, W] box. -/
theorem flat_decomp (H W f : ℕ) : f / (H * W) * (H * W) + f / W % H * W + f % W = f := by
  have h1 : f = W * (f / W) + f % W := (Nat.div_add_mod f W).symm
  have h3 : f / W / H = f / (H * W) := by rw [Nat.div_div_eq_div_mul, Nat.mul_comm]
  have h2 : f / W = H * (f / (H * W)) + f / W % H := by rw [← h3]; exact (Nat.div_add_mod (f / W) H).symm
  generalize f / W % H = r at h2 ⊢
  generalize f / (H * W) = q at h2 ⊢
  generalize f % W = x at h1 ⊢
  rw [h2] at h1
  conv_rhs => rw [h1]
  ring

/-- A flat index built from in-range coordinates is below D·H·W. -/
theorem flat_lt {D H W z y x : ℕ} (hz : z < D) (hy : y < H) (hx : x < W) : z * (H * W) + y * W + x < D * H * W := by
  have hlow : y * W + x < H * W := by
    have h1 : y * W + x < (y + 1) * W := by rw [Nat.add_mul, Nat.one_mul]; omega
    exact Nat.lt_of_lt_of_le h1 (Nat.mul_le_mul_right W hy)
  have h1 : z * (H * W) + y * W + x < (z + 1) * (H * W) := by rw [Nat.add_mul, Nat.one_mul]; omega
  calc z * (H * W) + y * W + x < (z + 1) * (H * W) := h1
    _ ≤ D * (H * W) := Nat.mul_le_mul_right _ hz
    _ = D * H * W := (Nat.mul_assoc D H W).symm

/-- A box with a position has positive inner extents. -/
theorem flat_pos {D H W M : ℕ} (hM : M = D * H * W) (f : Fin M) : 0 < H ∧ 0 < W := by
  have hf : f.val < D * H * W := Nat.lt_of_lt_of_eq f.isLt hM
  constructor
  · exact Nat.pos_of_ne_zero fun h => by subst h; simp at hf
  · exact Nat.pos_of_ne_zero fun h => by subst h; simp at hf

/-- The leading digit of a position in a [D, H, W] box is below D. -/
theorem flat_div_lt {D H W M : ℕ} (hM : M = D * H * W) (f : Fin M) : f.val / (H * W) < D := by
  obtain ⟨hH, hW⟩ := flat_pos hM f
  rw [Nat.div_lt_iff_lt_mul (Nat.mul_pos hH hW), ← Nat.mul_assoc, ← hM]
  exact f.isLt

/-- THE FLATTENING: a [C, D, H, W] volume viewed as [C, D·H·W] reads, at (c, f), the volume at channel c and at the
    row-major digits of f: f / (H·W), (f / W) mod H, f mod W. -/
theorem flatten_apply {C D H W M : ℕ} (hM : M = D * H * W) (x : (⟨4, ![C, D, H, W]⟩ : Shape).Idx → α)
    (h : (⟨4, ![C, D, H, W]⟩ : Shape).ShapeCasts ⟨2, ![C, M]⟩) (c : Fin C) (f : Fin M) :
    shapeCast ⟨2, ![C, M]⟩ x h (ix2 c f)
      = x (ix4 c ⟨f.val / (H * W), flat_div_lt hM f⟩ ⟨f.val / W % H, Nat.mod_lt _ (flat_pos hM f).1⟩
          ⟨f.val % W, Nat.mod_lt _ (flat_pos hM f).2⟩) := by
  refine shapeCast_apply x h _ _ ?_
  rw [Shape.rowMajor_val_four, Shape.rowMajor_val_two]
  show ((c.val * D + f.val / (H * W)) * H + f.val / W % H) * W + f.val % W = c.val * M + f.val
  calc ((c.val * D + f.val / (H * W)) * H + f.val / W % H) * W + f.val % W
      = c.val * (D * H * W) + (f.val / (H * W) * (H * W) + f.val / W % H * W + f.val % W) := by ring
    _ = c.val * M + f.val := by rw [flat_decomp]; exact congrArg (fun m => c.val * m + f.val) hM.symm

/-- THE TWO READS AGREE: for signed words z, y, x in range of a [D, H, W] box and a word f holding their flat index
    z·(H·W) + y·W + x, the flattened volume read at column f (clamped into [0, D·H·W − 1]) is the volume read at
    (z, y, x) (each clamped into its axis). -/
theorem corner_eq {C D H W M : ℕ} (hM : M = D * H * W) (hMpos : 0 < M) (vol : (⟨4, ![C, D, H, W]⟩ : Shape).Idx → α)
    (hc : (⟨4, ![C, D, H, W]⟩ : Shape).ShapeCasts ⟨2, ![C, M]⟩) (c : Fin C) (z y x f : BitVec 32)
    (hz0 : 0 ≤ z.toInt) (hzD : z.toInt < D) (hy0 : 0 ≤ y.toInt) (hyH : y.toInt < H)
    (hx0 : 0 ≤ x.toInt) (hxW : x.toInt < W)
    (hf : f.toInt = z.toInt * (H * W) + y.toInt * W + x.toInt) :
    shapeCast ⟨2, ![C, M]⟩ vol hc (ix2 c ⟨min f.toInt.toNat (M - 1), by omega⟩)
      = vol (ix4 c ⟨min z.toInt.toNat (D - 1), by omega⟩ ⟨min y.toInt.toNat (H - 1), by omega⟩
          ⟨min x.toInt.toNat (W - 1), by omega⟩) := by
  -- the words as natural numbers
  obtain ⟨zn, hzn⟩ : ∃ zn : ℕ, z.toInt = zn := ⟨z.toInt.toNat, (Int.toNat_of_nonneg hz0).symm⟩
  obtain ⟨yn, hyn⟩ : ∃ yn : ℕ, y.toInt = yn := ⟨y.toInt.toNat, (Int.toNat_of_nonneg hy0).symm⟩
  obtain ⟨xn, hxn⟩ : ∃ xn : ℕ, x.toInt = xn := ⟨x.toInt.toNat, (Int.toNat_of_nonneg hx0).symm⟩
  have hznD : zn < D := by omega
  have hynH : yn < H := by omega
  have hxnW : xn < W := by omega
  obtain ⟨fn, hfn⟩ : ∃ fn : ℕ, fn = zn * (H * W) + yn * W + xn := ⟨_, rfl⟩
  have hf' : f.toInt = fn := by rw [hf, hzn, hyn, hxn, hfn]; push_cast; ring
  have hfnM : fn < M := by rw [hM, hfn]; exact flat_lt hznD hynH hxnW
  -- no clamp moves an index already in range
  have hzm : min z.toInt.toNat (D - 1) = zn := by omega
  have hym : min y.toInt.toNat (H - 1) = yn := by omega
  have hxm : min x.toInt.toNat (W - 1) = xn := by omega
  have hfm : min f.toInt.toNat (M - 1) = fn := by omega
  obtain ⟨u1, u2, u3⟩ := unflat_eq hznD hynH hxnW
  have e : (⟨min f.toInt.toNat (M - 1), by omega⟩ : Fin M) = ⟨fn, hfnM⟩ := Fin.ext hfm
  rw [e, flatten_apply hM vol hc c ⟨fn, hfnM⟩]
  congr 1
  funext a
  refine Fin.ext ?_
  match a with
  | ⟨0, _⟩ => rfl
  | ⟨1, _⟩ => show fn / (H * W) = min z.toInt.toNat (D - 1); rw [hzm, hfn, u1]
  | ⟨2, _⟩ => show fn / W % H = min y.toInt.toNat (H - 1); rw [hym, hfn, u2]
  | ⟨3, _⟩ => show fn % W = min x.toInt.toNat (W - 1); rw [hxm, hfn, u3]

end Flatten

end Cert.Lib.GatherRead
-- ==== Proof.RefValue.lean ====
/-
  The reference's two results read at one entry, in the edge form of the shared specification.

  The reference applies each sparse linear map edge by edge: it takes, for every edge, the column of the left
  operand at the edge's row index (a negative index counted from the end, then clamped into the axis), multiplies it
  by the edge's value, and adds the product into the result column the edge's column index names (a negative index
  counted from the end; an index outside the axis drops its edge). Read at entry (b, c) this is the sum, over the
  edges whose column is c, of X b (row e) · v e: the edge form `sparseE`.

  * `sparse_read`: that reading, once, for any extents; it is used for the three maps.
  * `hnew_apply`: an entry of the first result is `cell` of its ingredients.
  * `pred_apply`: an entry of the second result is the edge form over the first result, plus the bias.
  * `dt_apply`: the step size 0.1 / tau at an entry.
-/
import proofs.«402372_j14413910245943_3_alg».proof.Proof.Gen.ReferenceIdeal.Read
import proofs.«402372_j14413910245943_3_alg».proof.Proof.Spec
import proofs.«402372_j14413910245943_3_alg».proof.Proof.LibGatherRead
import proofs.«402372_j14413910245943_3_alg».proof.Proof.LibScatterRead
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.Spec Cert.Lib.ScatterRead

/-! ## Layout operations read at an entry -/

section Layout
variable {α : Type}

/-- A scalar spread over any shape reads the scalar everywhere. -/
theorem bcast_scalar_apply {t : Shape} (h : (⟨0, ![]⟩ : Shape).BroadcastsInDim t (![] : Fin 0 → Fin t.rank))
    (y : (⟨0, ![]⟩ : Shape).Idx → α) (j : t.Idx) : broadcastInDim t ![] h y j = y ix0 :=
  broadcastInDim_apply _ h y j ix0 (fun a => a.elim0)

/-- A vector laid out as a [1, n] row and repeated down B rows reads, at (b, e), the vector at e. -/
theorem bcast_row_apply {B n : ℕ} (h2 : (⟨1, ![n]⟩ : Shape).BroadcastsInDim ⟨2, ![1, n]⟩ ![1])
    (h3 : (⟨2, ![1, n]⟩ : Shape).BroadcastsInDim ⟨2, ![B, n]⟩ ![0, 1]) (v : (⟨1, ![n]⟩ : Shape).Idx → α)
    (b : Fin B) (e : Fin n) :
    broadcastInDim ⟨2, ![B, n]⟩ ![0, 1] h3 (broadcastInDim ⟨2, ![1, n]⟩ ![1] h2 v) (ix2 b e) = v (ix1 e) := by
  have he := e.isLt
  rw [broadcastInDim_apply _ h3 _ (ix2 b e) (ix2 ⟨0, Nat.one_pos⟩ e) (fun a => match a with
      | ⟨0, _⟩ => by show 0 = if (1 : ℕ) = 1 then 0 else b.val; rw [if_pos rfl]
      | ⟨1, _⟩ => by show e.val = if n = 1 then 0 else e.val; split <;> omega),
    broadcastInDim_apply _ h2 v _ (ix1 e) (fun a => match a with
      | ⟨0, _⟩ => by show e.val = if n = 1 then 0 else e.val; split <;> omega)]

end Layout

/-! ## One sparse product read at an entry -/

/-- The index column handed to a gather or a scatter: the words counted from the end where negative (on an axis of
    extent N), laid out as an [n, 1] column. Read at (e, 0) it is the normalised word of edge e. -/
theorem normCol_apply {n : ℕ} (h0 : (⟨0, ![]⟩ : Shape).BroadcastsInDim ⟨1, ![n]⟩ (![] : Fin 0 → Fin 1))
    (h1 : (⟨1, ![n]⟩ : Shape).BroadcastsInDim ⟨2, ![n, 1]⟩ ![0]) (idx : I1 n) (N : ℕ) (e : Fin n) :
    broadcastInDim ⟨2, ![n, 1]⟩ ![0] h1
        (select (cmpi .slt idx (broadcastInDim ⟨1, ![n]⟩ ![] h0 (constantI ⟨0, ![]⟩ 32 0#32)))
          (addi idx (broadcastInDim ⟨1, ![n]⟩ ![] h0 (constantI ⟨0, ![]⟩ 32 (BitVec.ofNat 32 N)))) idx)
        (ix2 e ⟨0, Nat.one_pos⟩)
      = norm N (idx (ix1 e)) := by
  rw [Cert.Lib.GatherRead.bcast_col_apply h1 _ e, norm_read h0 idx N (ix1 e)]

/-- THE SPARSE PRODUCT AT AN ENTRY. Gather the columns of X at the edges' rows, multiply by the edges' values, add
    into the zero array at the edges' columns: entry (b, c) of the result is the edge form. -/
theorem sparse_read {B K C n : ℕ}
    (gd : GatherDims ⟨2, ![B, K]⟩ ⟨2, ![n, 1]⟩ ⟨2, ![B, n]⟩)
    (g1 : gd.offsetDims = [0]) (g2 : gd.collapsedSliceDims = [1]) (g3 : gd.operandBatchingDims = [])
    (g4 : gd.startIndicesBatchingDims = []) (g5 : gd.startIndexMap = [1]) (g6 : gd.indexVectorDim = 1)
    (g7 : gd.sliceSizes = ![B, 1])
    (sd : ScatterDims ⟨2, ![B, C]⟩ ⟨2, ![n, 1]⟩ ⟨2, ![B, n]⟩)
    (s1 : sd.updateWindowDims = [0]) (s2 : sd.insertedWindowDims = [1]) (s3 : sd.scatterDimsToOperandDims = [1])
    (s4 : sd.indexVectorDim = 1)
    (h0 : (⟨0, ![]⟩ : Shape).BroadcastsInDim ⟨1, ![n]⟩ (![] : Fin 0 → Fin 1))
    (h1 : (⟨1, ![n]⟩ : Shape).BroadcastsInDim ⟨2, ![n, 1]⟩ ![0])
    (h2 : (⟨1, ![n]⟩ : Shape).BroadcastsInDim ⟨2, ![1, n]⟩ ![1])
    (h3 : (⟨2, ![1, n]⟩ : Shape).BroadcastsInDim ⟨2, ![B, n]⟩ ![0, 1])
    (hz : (⟨0, ![]⟩ : Shape).BroadcastsInDim ⟨2, ![B, C]⟩ (![] : Fin 0 → Fin 2))
    (hK : 0 < K) (X : A2 B K) (ridx cidx : I1 n) (v : A1 n) (b : Fin B) (c : Fin C) :
    Host.scatterAdd (F := Ideal) (φ := .f32) sd
        (broadcastInDim ⟨2, ![B, C]⟩ ![] hz (constant (F := Ideal) ⟨0, ![]⟩ .f32 0x00000000#32))
        (broadcastInDim ⟨2, ![n, 1]⟩ ![0] h1
          (select (cmpi .slt cidx (broadcastInDim ⟨1, ![n]⟩ ![] h0 (constantI ⟨0, ![]⟩ 32 0#32)))
            (addi cidx (broadcastInDim ⟨1, ![n]⟩ ![] h0 (constantI ⟨0, ![]⟩ 32 (BitVec.ofNat 32 C)))) cidx))
        (mulf (F := Ideal)
          (Host.gather gd X (broadcastInDim ⟨2, ![n, 1]⟩ ![0] h1
            (select (cmpi .slt ridx (broadcastInDim ⟨1, ![n]⟩ ![] h0 (constantI ⟨0, ![]⟩ 32 0#32)))
              (addi ridx (broadcastInDim ⟨1, ![n]⟩ ![] h0 (constantI ⟨0, ![]⟩ 32 (BitVec.ofNat 32 K)))) ridx)))
          (broadcastInDim ⟨2, ![B, n]⟩ ![0, 1] h3 (broadcastInDim ⟨2, ![1, n]⟩ ![1] h2 v)))
        (ix2 b c)
      = sparseE C hK (fun b k => X (ix2 b k)) ridx cidx v b c := by
  rw [scatterAdd_col_read sd s1 s2 s3 s4, bcast_scalar_apply hz, constant_apply, Ideal.ofBits_zero_f32, zero_add]
  unfold sparseE
  have hf : ∀ e : Fin n,
      ((broadcastInDim ⟨2, ![n, 1]⟩ ![0] h1
          (select (cmpi .slt cidx (broadcastInDim ⟨1, ![n]⟩ ![] h0 (constantI ⟨0, ![]⟩ 32 0#32)))
            (addi cidx (broadcastInDim ⟨1, ![n]⟩ ![] h0 (constantI ⟨0, ![]⟩ 32 (BitVec.ofNat 32 C)))) cidx)
          (ix2 e (0 : Fin 1))).toInt = (c.val : ℤ)) = (edgeZ C cidx e = (c.val : ℤ)) := fun e => by
    rw [show (ix2 e (0 : Fin 1) : (⟨2, ![n, 1]⟩ : Shape).Idx) = ix2 e ⟨0, Nat.one_pos⟩ from rfl,
      normCol_apply h0 h1 cidx C e]
    rfl
  simp only [hf]
  refine Finset.sum_congr rfl fun e _ => ?_
  rw [mulf_apply, Cert.Lib.GatherRead.take2_apply gd g1 g2 g3 g4 g5 g6 g7 X _ (ix2 b e) hK, bcast_row_apply h2 h3 v b e]
  congr 2
  show ix2 b _ = ix2 b _
  congr 1
  refine Fin.ext ?_
  show min (_ : BitVec 32).toInt.toNat (K - 1) = min (edgeZ K ridx e).toNat (K - 1)
  rw [show ((ix2 b e : (⟨2, ![B, n]⟩ : Shape).Idx) 1) = e from rfl, normCol_apply h0 h1 ridx K e]
  rfl

/-! ## The reference's stages at an entry -/

section Main

open Cert.ReferenceIdeal Cert.ReferenceIdeal.Read

variable (x0 : (⟨S512x2048, .f32⟩ : BufTy).Contents (Elt Ideal)) (x1 : (⟨S512x4096, .f32⟩ : BufTy).Contents (Elt Ideal))
  (x2 : (⟨S512x1, .f32⟩ : BufTy).Contents (Elt Ideal)) (x3 : (⟨S83886, .f32⟩ : BufTy).Contents (Elt Ideal))
  (x4 : (⟨S4096, .f32⟩ : BufTy).Contents (Elt Ideal)) (x5 : (⟨S167772, .f32⟩ : BufTy).Contents (Elt Ideal))
  (x6 : (⟨S4096, .f32⟩ : BufTy).Contents (Elt Ideal)) (x7 : (⟨S167772, .f32⟩ : BufTy).Contents (Elt Ideal))
  (x8 : (⟨S4096, .f32⟩ : BufTy).Contents (Elt Ideal)) (x9 : (⟨S64x2048, .f32⟩ : BufTy).Contents (Elt Ideal))
  (x10 : (⟨S64, .f32⟩ : BufTy).Contents (Elt Ideal)) (x11 : (⟨S4096, .f32⟩ : BufTy).Contents (Elt Ideal))
  (x12 x13 : (⟨S83886, .i32⟩ : BufTy).Contents (Elt Ideal))
  (x14 x15 x16 x17 : (⟨S167772, .i32⟩ : BufTy).Contents (Elt Ideal))

/-- The input-to-hidden product x · W at an entry. -/
theorem sW_apply (b : Fin 512) (j : Fin 4096) :
    val_main_v30 (F := Ideal) x0 x3 x12 x13 (ix2 b j)
      = sparseE 4096 (by decide) (fun b k => x0 (ix2 b k)) x12 x13 x3 b j :=
  sparse_read (B := 512) (K := 2048) (C := 4096) (n := 83886)
    gather_S512x2048_S83886x1_S512x83886_0_1_n_n_1_1_5121 rfl rfl rfl rfl rfl rfl rfl
    scatter_S512x4096_S83886x1_S512x83886_0_1_1_1 rfl rfl rfl rfl
    Gen.bcast_S_S83886 Gen.bcast_S83886_S83886x1_0 Gen.bcast_S83886_S1x83886_1 Gen.bcast_S1x83886_S512x83886_0_1
    Gen.bcast_S_S512x4096 (by decide) x0 x12 x13 x3 b j

/-- The hidden-to-hidden product h_prev · R at an entry. -/
theorem sR_apply (b : Fin 512) (j : Fin 4096) :
    val_main_v52 (F := Ideal) x1 x5 x14 x15 (ix2 b j)
      = sparseE 4096 (by decide) (fun b k => x1 (ix2 b k)) x14 x15 x5 b j :=
  sparse_read (B := 512) (K := 4096) (C := 4096) (n := 167772)
    gather_S512x4096_S167772x1_S512x167772_0_1_n_n_1_1_5121 rfl rfl rfl rfl rfl rfl rfl
    scatter_S512x4096_S167772x1_S512x167772_0_1_1_1 rfl rfl rfl rfl
    Gen.bcast_S_S167772 Gen.bcast_S167772_S167772x1_0 Gen.bcast_S167772_S1x167772_1 Gen.bcast_S1x167772_S512x167772_0_1
    Gen.bcast_S_S512x4096 (by decide) x1 x14 x15 x5 b j

/-- The read-out product h_new · P at an entry, over whatever array stands for h_new. -/
theorem sP_apply (b : Fin 512) (j : Fin 4096) :
    val_main_v84 (F := Ideal) x0 x1 x2 x3 x4 x5 x6 x7 x9 x10 x11 x12 x13 x14 x15 x16 x17 (ix2 b j)
      = sparseE 4096 (by decide)
          (fun b k => val_main_v66 (F := Ideal) x0 x1 x2 x3 x4 x5 x6 x9 x10 x11 x12 x13 x14 x15 (ix2 b k)) x16 x17 x7 b j :=
  sparse_read (B := 512) (K := 4096) (C := 4096) (n := 167772)
    gather_S512x4096_S167772x1_S512x167772_0_1_n_n_1_1_5121 rfl rfl rfl rfl rfl rfl rfl
    scatter_S512x4096_S167772x1_S512x167772_0_1_1_1 rfl rfl rfl rfl
    Gen.bcast_S_S167772 Gen.bcast_S167772_S167772x1_0 Gen.bcast_S167772_S1x167772_1 Gen.bcast_S1x167772_S512x167772_0_1
    Gen.bcast_S_S512x4096 (by decide) (val_main_v66 (F := Ideal) x0 x1 x2 x3 x4 x5 x6 x9 x10 x11 x12 x13 x14 x15) x16 x17 x7 b j

/-- Where a [4096] vector, laid out as a [1, 4096] row and repeated down the rows, is read from: entry (b, j) of the
    result comes from entry j of the vector. -/
theorem rowIdx_eq (b : Fin 512) (j : Fin 4096) : idx_main_v31 (idx_main_v32 (ix2 b j)) = ix1 j :=
  funext fun a => match a with | ⟨0, _⟩ => rfl

/-- Where the [512, 1] gate column, repeated along the rows, is read from: entry (b, j) of the result comes from
    entry (b, 0) of the column. -/
theorem gateIdx_eq (b : Fin 512) (j : Fin 4096) : idx_main_v59 (ix2 b j) = ix2 b (0 : Fin 1) :=
  funext fun a => match a with | ⟨0, _⟩ => rfl | ⟨1, _⟩ => rfl

/-- Where the mask is read from: the [512, 64] router gate is repeated 64 times along a new last axis and flattened
    to [512, 4096], so entry (b, j) of the mask comes from entry (b, j / 64) of the gate. -/
theorem maskIdx_eq (b : Fin 512) (j : Fin 4096) :
    idx_main_v11 (idx_main_v12 (ix2 b j)) = ix2 b (⟨j.val / 64, by have := j.isLt; omega⟩ : Fin 64) :=
  funext fun a => Fin.ext (by
    have hb := b.isLt
    have hj := j.isLt
    match a with
    | ⟨0, _⟩ => show (b.val * 4096 + j.val) / 4096 = b.val; omega
    | ⟨1, _⟩ => show (b.val * 4096 + j.val) / 64 % 64 = j.val / 64; omega)

/-- THE FIRST RESULT AT AN ENTRY: the recurrent update's cell of its ingredients. -/
theorem hnew_apply (b : Fin 512) (j : Fin 4096) :
    val_main_v66 (F := Ideal) x0 x1 x2 x3 x4 x5 x6 x9 x10 x11 x12 x13 x14 x15 (ix2 b j)
      = cell (x1 (ix2 b j)) (x2 (ix2 b 0))
          (sparseE 4096 (by decide) (fun b k => x0 (ix2 b k)) x12 x13 x3 b j) (x4 (ix1 j))
          (val_main_v10 (F := Ideal) x0 x9 x10 (ix2 b ⟨j.val / 64, by omega⟩))
          (sparseE 4096 (by decide) (fun b k => x1 (ix2 b k)) x14 x15 x5 b j) (x6 (ix1 j))
          (val_main_v62 (F := Ideal) x11 (ix1 j)) := by
  rw [val_main_v66_apply, val_main_v65_apply, val_main_v60_apply, val_main_v59_apply, val_main_v58_apply,
    val_main_v57_apply, val_main_v56_apply, val_main_v34_apply, val_main_v33_apply, val_main_v32_apply,
    val_main_v31_apply, val_main_v12_apply, val_main_v11_apply, val_main_v55_apply, val_main_v54_apply,
    val_main_v53_apply, val_main_v64_apply, val_main_v63_apply, sW_apply, sR_apply]
  rw [show idx_main_v53 (idx_main_v54 (ix2 b j)) = ix1 j from rowIdx_eq b j,
    show idx_main_v63 (idx_main_v64 (ix2 b j)) = ix1 j from rowIdx_eq b j,
    rowIdx_eq, gateIdx_eq, maskIdx_eq]
  simp only [Ideal.addf_def, Ideal.mulf_def, Ideal.subf_def, Ideal.hostUnary_tanh_def, cell]

/-- THE SECOND RESULT AT AN ENTRY: the edge form of h_new · P over the first result, plus the bias. -/
theorem pred_apply (b : Fin 512) (j : Fin 4096) :
    val_main_v87 (F := Ideal) x0 x1 x2 x3 x4 x5 x6 x7 x8 x9 x10 x11 x12 x13 x14 x15 x16 x17 (ix2 b j)
      = sparseE 4096 (by decide)
          (fun b k => val_main_v66 (F := Ideal) x0 x1 x2 x3 x4 x5 x6 x9 x10 x11 x12 x13 x14 x15 (ix2 b k)) x16 x17 x7 b j
        + x8 (ix1 j) := by
  rw [val_main_v87_apply, val_main_v86_apply, val_main_v85_apply, sP_apply,
    show idx_main_v85 (idx_main_v86 (ix2 b j)) = ix1 j from rowIdx_eq b j]
  simp only [Ideal.addf_def]

/-- The step size at an entry: the constant 0.1 divided by tau. -/
theorem dt_apply (j : Fin 4096) :
    val_main_v62 (F := Ideal) x11 (ix1 j) = Ideal.div (Ideal.ofBits .f32 0x3DCCCCCD#32) (x11 (ix1 j)) := by
  rw [val_main_v62_apply, val_main_v61_apply, val_main_cst_10_apply]
  simp only [Ideal.hostDivf_def, Ideal.ofBits_def]

end Main

end Cert.ReferenceIdeal.RefValue

end
-- ==== Proof.RefFinal.lean ====
/-
  The reference's two results, entry by entry, as the shared edge-form functions.

  The reference's argument arrays are gathered into the shared input record (the router gate, which the program
  computes from the input rows, the router matrix and the router offset, enters the record as an array of its own);
  the first result is then the new state in its edge form, the second the prediction in its edge form, and what the
  precondition leaves of the argument arrays is what the record's own precondition asks for.
-/
import proofs.«402372_j14413910245943_3_alg».proof.Proof.Gen.ReferenceIdeal.Read
import proofs.«402372_j14413910245943_3_alg».proof.Proof.Spec
import proofs.«402372_j14413910245943_3_alg».proof.Proof.Bridge
import proofs.«402372_j14413910245943_3_alg».proof.Proof.PreFacts
import proofs.«402372_j14413910245943_3_alg».proof.Proof.RefValue
import Idealize.ShloMosaic.Lib.ValueIdx

noncomputable section

namespace Cert.ReferenceIdeal.RefFinal

open Cert.ReferenceIdeal Cert.ReferenceIdeal.Gen Idealize.ShloMosaic Idealize.ShloMosaic.ValueIdx

variable (x0 : (⟨S512x2048, .f32⟩ : BufTy).Contents (Elt Ideal)) (x1 : (⟨S512x4096, .f32⟩ : BufTy).Contents (Elt Ideal)) (x2 : (⟨S512x1, .f32⟩ : BufTy).Contents (Elt Ideal)) (x3 : (⟨S83886, .f32⟩ : BufTy).Contents (Elt Ideal)) (x4 : (⟨S4096, .f32⟩ : BufTy).Contents (Elt Ideal)) (x5 : (⟨S167772, .f32⟩ : BufTy).Contents (Elt Ideal)) (x6 : (⟨S4096, .f32⟩ : BufTy).Contents (Elt Ideal)) (x7 : (⟨S167772, .f32⟩ : BufTy).Contents (Elt Ideal)) (x8 : (⟨S4096, .f32⟩ : BufTy).Contents (Elt Ideal)) (x9 : (⟨S64x2048, .f32⟩ : BufTy).Contents (Elt Ideal)) (x10 : (⟨S64, .f32⟩ : BufTy).Contents (Elt Ideal)) (x11 : (⟨S4096, .f32⟩ : BufTy).Contents (Elt Ideal)) (x12 : (⟨S83886, .i32⟩ : BufTy).Contents (Elt Ideal)) (x13 : (⟨S83886, .i32⟩ : BufTy).Contents (Elt Ideal)) (x14 : (⟨S167772, .i32⟩ : BufTy).Contents (Elt Ideal)) (x15 : (⟨S167772, .i32⟩ : BufTy).Contents (Elt Ideal)) (x16 : (⟨S167772, .i32⟩ : BufTy).Contents (Elt Ideal)) (x17 : (⟨S167772, .i32⟩ : BufTy).Contents (Elt Ideal))

/-- The reference's inputs as the shared record: the argument arrays, and the router gate the program computes
    from the input rows, the router matrix and the router offset. -/
def inR : Cert.Spec.In :=
  { x := x0, hp := x1, g := x2, Wv := x3, Wb := x4, Rv := x5, Rb := x6, Pv := x7, Pb := x8, tau := x11,
    Wr := x12, Wc := x13, Rr := x14, Rc := x15, Pr := x16, Pc := x17, RG := Read.val_main_v10 x0 x9 x10 }

/-- The first result, entry by entry: the recurrent update in its edge form. -/
theorem res0 (b : Fin 512) (j : Fin 4096) :
    Read.val_main_v66 x0 x1 x2 x3 x4 x5 x6 x9 x10 x11 x12 x13 x14 x15 (ix2 b j) = Cert.Spec.hnewE (inR x0 x1 x2 x3 x4 x5 x6 x7 x8 x9 x10 x11 x12 x13 x14 x15 x16 x17) b j := by
  rw [RefValue.hnew_apply, RefValue.dt_apply]
  rfl

/-- The second result, entry by entry: the edge-form product of the first result, plus the offset. -/
theorem res1 (b : Fin 512) (j : Fin 4096) :
    Read.val_main_v87 x0 x1 x2 x3 x4 x5 x6 x7 x8 x9 x10 x11 x12 x13 x14 x15 x16 x17 (ix2 b j) = Cert.Spec.predE (inR x0 x1 x2 x3 x4 x5 x6 x7 x8 x9 x10 x11 x12 x13 x14 x15 x16 x17) b j := by
  rw [RefValue.pred_apply]
  have e : (fun (b : Fin 512) (k : Fin 4096) => Read.val_main_v66 x0 x1 x2 x3 x4 x5 x6 x9 x10 x11 x12 x13 x14 x15 (ix2 b k)) = Cert.Spec.hnewE (inR x0 x1 x2 x3 x4 x5 x6 x7 x8 x9 x10 x11 x12 x13 x14 x15 x16 x17) :=
    funext fun b => funext fun k => res0 x0 x1 x2 x3 x4 x5 x6 x7 x8 x9 x10 x11 x12 x13 x14 x15 x16 x17 b k
  rw [e]
  rfl

/-- What the precondition leaves of the argument arrays is what the shared record asks for. -/
theorem good_in (h : Cert.PreFacts.Good x0 x1 x2 x3 x4 x5 x6 x7 x8 x9 x10 x11 x12 x13 x14 x15 x16 x17) : (inR x0 x1 x2 x3 x4 x5 x6 x7 x8 x9 x10 x11 x12 x13 x14 x15 x16 x17).Good :=
  { x_real := h.x_real, hp_real := h.hp_real, g_real := h.g_real, Wv_real := h.Wv_real, Rv_real := h.Rv_real,
    Pv_real := h.Pv_real, tau_real := h.tau_real, tau_ne := h.tau_ne, Wr_rng := h.Wr_rng, Rr_rng := h.Rr_rng,
    Pr_rng := h.Pr_rng }

end Cert.ReferenceIdeal.RefFinal

end
-- ==== Proof.GateSame.lean ====
/-
  The router gate is computed by the same operations on both sides.

  The kernel's host part and the reference both form `1 / (1 + exp (−(x · wᵀ + b)))` by the same chain: transpose the
  router weights, contract with the input over the 2048 features, spread the router bias over the 512 rows, add, negate,
  exponentiate, add one, divide one by the result. Each program prints its own copy of the shapes, of the contraction
  record and of the side conditions of the layout operations; the copies have equal fields and the side conditions are
  proofs, so the two terms agree once both are opened down to the operations. No arithmetic law is used.
-/
import proofs.«402372_j14413910245943_3_alg».proof.Proof.KHostA
import proofs.«402372_j14413910245943_3_alg».proof.Proof.Gen.ReferenceIdeal.Read

noncomputable section

namespace Cert.GateSame

open Idealize.ShloMosaic

/-- The two programs' contraction records for the router product have the same fields. -/
theorem dot_same :
    Cert.KernelIdeal.dot_S512x2048_S2048x64_S512x64_1_0_0_1_n_n = Cert.ReferenceIdeal.dot_S512x2048_S2048x64_S512x64_1_0_0_1_n_n :=
  rfl

/-- The gate as the kernel's host part forms it is the gate as the reference forms it, as functions of the input, the
    router weights and the router bias. -/
theorem rgate_eq (x : FVec Ideal Cert.KernelIdeal.S512x2048 .f32) (wr : FVec Ideal Cert.KernelIdeal.S64x2048 .f32)
    (br : FVec Ideal Cert.KernelIdeal.S64 .f32) :
    Cert.KernelIdeal.KHostA.rgate x wr br = Cert.ReferenceIdeal.Read.val_main_v10 (F := Ideal) x wr br := by
  unfold Cert.KernelIdeal.KHostA.rgate Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_cst Cert.ReferenceIdeal.Read.val_main_cst_0
  rfl

end Cert.GateSame

end
-- ==== Proof.lean ====
/-
  The certificate's five claims.

  The three frames: the two kernel programs' are their generated frames; the reference has no kernel and its frame
  is its run with the results dropped. The idealization's ledger is empty. The value claim: at the ideal instance
  the kernel program ends with its first result at the dense-form update of the arguments and its second at the
  dense-form product of that with the third edge list, the reference with the edge forms of the same two; under the
  precondition (every float input real, tau nowhere zero, every row index inside its axis) the dense and the edge
  forms agree entry by entry: a real factor distributes over a finite sum of reals, and each edge of a column has
  exactly one row. The two programs compute the gate array by the same operations.
-/
import proofs.«402372_j14413910245943_3_alg».proof.Defs
import proofs.«402372_j14413910245943_3_alg».proof.Proof.Gen.Kernel
import proofs.«402372_j14413910245943_3_alg».proof.Proof.Gen.Kernel.Skeleton
import proofs.«402372_j14413910245943_3_alg».proof.Proof.Gen.Kernel.Launch
import proofs.«402372_j14413910245943_3_alg».proof.Proof.Gen.Kernel.Points
import proofs.«402372_j14413910245943_3_alg».proof.Proof.Gen.Kernel.Frame
import proofs.«402372_j14413910245943_3_alg».proof.Proof.Gen.KernelIdeal
import proofs.«402372_j14413910245943_3_alg».proof.Proof.Gen.KernelIdeal.Skeleton
import proofs.«402372_j14413910245943_3_alg».proof.Proof.Gen.KernelIdeal.Launch
import proofs.«402372_j14413910245943_3_alg».proof.Proof.Gen.KernelIdeal.Points
import proofs.«402372_j14413910245943_3_alg».proof.Proof.Gen.KernelIdeal.Frame
import proofs.«402372_j14413910245943_3_alg».proof.Proof.Gen.ReferenceIdeal
import proofs.«402372_j14413910245943_3_alg».proof.Proof.Gen.ReferenceIdeal.Run
import proofs.«402372_j14413910245943_3_alg».proof.Proof.Gen.ReferenceIdeal.Read
import proofs.«402372_j14413910245943_3_alg».proof.Proof.Gen.Pre_finite_inputs
import proofs.«402372_j14413910245943_3_alg».proof.Proof.KernelFinal
import proofs.«402372_j14413910245943_3_alg».proof.Proof.RefFinal
import proofs.«402372_j14413910245943_3_alg».proof.Proof.GateSame
import proofs.«402372_j14413910245943_3_alg».proof.Proof.PreFacts
import proofs.«402372_j14413910245943_3_alg».proof.Proof.Bridge
import Idealize.ShloMosaic.Adequacy
import Idealize.ShloMosaic.Init

set_option maxRecDepth 16384

noncomputable section

namespace Cert.Proof

open Idealize.ShloMosaic Idealize.SL.Sem Idealize.ShloMosaic.ValueIdx

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

open Cert.KernelIdeal in
/-- On memories that agree on the arguments the two programs read the same bundle of inputs: the gate arrays are
    one chain of operations. -/
theorem in_eq (m : (ℓ : Loc Cert.KernelIdeal.nD Cert.KernelIdeal.τ Cert.KernelIdeal.sig) → Buf (Elt Ideal) ℓ)
    (c : Dev Cert.KernelIdeal.nD) :
    Cert.KernelIdeal.KFinal.inK m c
      = Cert.ReferenceIdeal.RefFinal.inR (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13))
          (m ((c.tc : Thread nD τ).loc main_arg14)) (m ((c.tc : Thread nD τ).loc main_arg15)) (m ((c.tc : Thread nD τ).loc main_arg16))
          (m ((c.tc : Thread nD τ).loc main_arg17)) := by
  unfold Cert.KernelIdeal.KFinal.inK Cert.ReferenceIdeal.RefFinal.inR
  rw [Cert.GateSame.rgate_eq]

theorem algebraic : Cert.algebraic_KernelIdeal_ReferenceIdeal := by
  intro m ρ m' ρ' hpre hagree
  refine ⟨fun c => Cert.KernelIdeal.Gen.W5 m ρ c (Proc.devRef .tc Cert.KernelIdeal.main_v76_0),
    fun c => Cert.KernelIdeal.Gen.W5 m ρ c (Proc.devRef .tc Cert.KernelIdeal.main_v77),
    Cert.KernelIdeal.Gen.run_named (F := Ideal) m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17⟩ := hagree c
    have hgood := Cert.ReferenceIdeal.RefFinal.good_in _ _ _ _ _ _ _ _ _ _ _ _ _ _ _ _ _ _ (Cert.PreFacts.good_of_Pre_KernelIdeal m hpre c)
    refine (Cert.ReferenceIdeal.Read.val_main_v66_eq (F := Ideal) _ _ _ _ _ _ _ _ _ _ _ _ _ _).trans ?_
    rw [h0, h1, h2, h3, h4, h5, h6, h9, h10, h11, h12, h13, h14, h15]
    funext i
    obtain ⟨b, j, rfl⟩ : ∃ (b : Fin 512) (j : Fin 4096), i = ix2 b j := ⟨i 0, i 1, eq_ix2 i⟩
    rw [Cert.ReferenceIdeal.RefFinal.res0 _ _ _ _ _ _ _ (m ((c.tc : Thread Cert.KernelIdeal.nD Cert.KernelIdeal.τ).loc Cert.KernelIdeal.main_arg7)) (m ((c.tc : Thread Cert.KernelIdeal.nD Cert.KernelIdeal.τ).loc Cert.KernelIdeal.main_arg8)) _ _ _ _ _ _ _ (m ((c.tc : Thread Cert.KernelIdeal.nD Cert.KernelIdeal.τ).loc Cert.KernelIdeal.main_arg16)) (m ((c.tc : Thread Cert.KernelIdeal.nD Cert.KernelIdeal.τ).loc Cert.KernelIdeal.main_arg17)) b j]
    show _ = Cert.KernelIdeal.Gen.W5 m ρ c (Proc.devRef .tc Cert.KernelIdeal.main_v76_0) (ix2 b j)
    rw [Cert.KernelIdeal.KFinal.res0 m ρ c b j, in_eq m c,
      Cert.Spec.hnewD_eq _ hgood _ Cert.KernelIdeal.KFinal.EK_spec]
  · obtain ⟨h0, h1, h2, h3, h4, h5, h6, h7, h8, h9, h10, h11, h12, h13, h14, h15, h16, h17⟩ := hagree c
    have hgood := Cert.ReferenceIdeal.RefFinal.good_in _ _ _ _ _ _ _ _ _ _ _ _ _ _ _ _ _ _ (Cert.PreFacts.good_of_Pre_KernelIdeal m hpre c)
    refine (Cert.ReferenceIdeal.Read.val_main_v87_eq (F := Ideal) m' c).trans ?_
    rw [h0, h1, h2, h3, h4, h5, h6, h7, h8, h9, h10, h11, h12, h13, h14, h15, h16, h17]
    funext i
    obtain ⟨b, j, rfl⟩ : ∃ (b : Fin 512) (j : Fin 4096), i = ix2 b j := ⟨i 0, i 1, eq_ix2 i⟩
    rw [Cert.ReferenceIdeal.RefFinal.res1 _ _ _ _ _ _ _ _ _ _ _ _ _ _ _ _ _ _ b j]
    show _ = Cert.KernelIdeal.Gen.W5 m ρ c (Proc.devRef .tc Cert.KernelIdeal.main_v77) (ix2 b j)
    rw [Cert.KernelIdeal.KFinal.res1 m ρ c b j, in_eq m c,
      Cert.Spec.predD_eq _ hgood _ Cert.KernelIdeal.KFinal.EK_spec]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
